-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S64 .f32) (main_arg7 : FVec F S64x1 .f32) (main_arg8 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg7
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x64 .f32) (main_arg1 : IVec S2x1600000 32) (main_arg2 : IVec S100000 32) (main_arg3 : FVec F S64x64 .f32) (main_arg4 : FVec F S64 .f32) (main_arg5 : FVec F S64x64 .f32) (main_arg6 : FVec F S64 .f32) (main_arg7 : FVec F S64x1 .f32) (main_arg8 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_v13 main_v16
-- ==== Kernel.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S10000x64 : Shape := ⟨2, ![10000, 64]⟩
abbrev S1700000x64 : Shape := ⟨2, ![1700000, 64]⟩
abbrev S1x64 : Shape := ⟨2, ![1, 64]⟩
abbrev S100352x64 : Shape := ⟨2, ![100352, 64]⟩
abbrev S100352 : Shape := ⟨1, ![100352]⟩
abbrev S1x100352 : Shape := ⟨2, ![1, 100352]⟩
abbrev S1x1 : Shape := ⟨2, ![1, 1]⟩
abbrev S256x1 : Shape := ⟨2, ![256, 1]⟩
abbrev S1x2048 : Shape := ⟨2, ![1, 2048]⟩
abbrev S2048x64 : Shape := ⟨2, ![2048, 64]⟩
abbrev S256x64 : Shape := ⟨2, ![256, 64]⟩
abbrev S256x2048 : Shape := ⟨2, ![256, 2048]⟩
abbrev S256 : Shape := ⟨1, ![256]⟩

abbrev nBuf : Space → Nat
  | .hbm => 96
  | .vmem => 29
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S100000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x1, .f32⟩
  | .hbm, ⟨8, _⟩ => ⟨S1, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x64, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x64, .f32⟩
  | .hbm, ⟨59, _⟩ => ⟨S1700000x1, .f32⟩
  | .hbm, ⟨60, _⟩ => ⟨S1700000x64, .f32⟩
  | .hbm, ⟨61, _⟩ => ⟨S1700000x64, .f32⟩
  | .hbm, ⟨62, _⟩ => ⟨S_, .f32⟩
  | .hbm, ⟨63, _⟩ => ⟨S100000x64, .f32⟩
  | .hbm, ⟨64, _⟩ => ⟨S1700000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S_, .i32⟩
  | .hbm, ⟨70, _⟩ => ⟨S1700000, .i32⟩
  | .hbm, ⟨71, _⟩ => ⟨S1700000, .i1⟩
  | .hbm, ⟨72, _⟩ => ⟨S_, .i32⟩
  | .hbm, ⟨73, _⟩ => ⟨S1700000, .i32⟩
  | .hbm, ⟨74, _⟩ => ⟨S1700000, .i32⟩
  | .hbm, ⟨75, _⟩ => ⟨S1700000, .i32⟩
  | .hbm, ⟨76, _⟩ => ⟨S1700000x1, .i32⟩
  | .hbm, ⟨77, _⟩ => ⟨S1700000x64, .f32⟩
  | .hbm, ⟨78, _⟩ => ⟨S1700000x1, .f32⟩
  | .hbm, ⟨79, _⟩ => ⟨S1700000x64, .f32⟩
  | .hbm, ⟨80, _⟩ => ⟨S1700000x64, .f32⟩
  | .hbm, ⟨81, _⟩ => ⟨S_, .f32⟩
  | .hbm, ⟨82, _⟩ => ⟨S100000x64, .f32⟩
  | .hbm, ⟨83, _⟩ => ⟨S1700000x1, .i32⟩
  | .hbm, ⟨84, _⟩ => ⟨S100000x64, .f32⟩
  | .hbm, ⟨85, _⟩ => ⟨S1x64, .f32⟩
  | .hbm, ⟨86, _⟩ => ⟨S100000x64, .f32⟩
  | .hbm, ⟨87, _⟩ => ⟨S_, .i32⟩
  | .hbm, ⟨88, _⟩ => ⟨S_, .f32⟩
  | .hbm, ⟨89, _⟩ => ⟨S100352x64, .f32⟩
  | .hbm, ⟨90, _⟩ => ⟨S_, .i32⟩
  | .hbm, ⟨91, _⟩ => ⟨S_, .i32⟩
  | .hbm, ⟨92, _⟩ => ⟨S100352, .i32⟩
  | .hbm, ⟨93, _⟩ => ⟨S1x100352, .i32⟩
  | .hbm, ⟨94, _⟩ => ⟨S1x1, .f32⟩
  | .hbm, ⟨95, _⟩ => ⟨S256x1, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | .local _ .vmem, ⟨20, _⟩ => ⟨S1x2048, .i32⟩
  | .local _ .vmem, ⟨21, _⟩ => ⟨S1x2048, .i32⟩
  | .local _ .vmem, ⟨22, _⟩ => ⟨S2048x64, .f32⟩
  | .local _ .vmem, ⟨23, _⟩ => ⟨S2048x64, .f32⟩
  | .local _ .vmem, ⟨24, _⟩ => ⟨S64x1, .f32⟩
  | .local _ .vmem, ⟨25, _⟩ => ⟨S1x1, .f32⟩
  | .local _ .vmem, ⟨26, _⟩ => ⟨S256x1, .f32⟩
  | .local _ .vmem, ⟨27, _⟩ => ⟨S256x64, .f32⟩
  | .local _ .vmem, ⟨28, _⟩ => ⟨S256x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c_9 : Ref sig .tc := ⟨.hbm, 69, rfl⟩
abbrev main_v47 : Ref sig .tc := ⟨.hbm, 70, rfl⟩
abbrev main_v48 : Ref sig .tc := ⟨.hbm, 71, rfl⟩
abbrev main_c_10 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_11 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_c_12 : Ref sig .tc := ⟨.hbm, 87, rfl⟩
abbrev main_call1_v0 : Ref sig .tc := ⟨.hbm, 88, rfl⟩
abbrev main_v62 : Ref sig .tc := ⟨.hbm, 89, rfl⟩
abbrev main_c_13 : Ref sig .tc := ⟨.hbm, 90, rfl⟩
abbrev main_call2_v0 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg1_1 : Ref sig .tc := ⟨.vmem, 23, rfl⟩
abbrev cc4_stg2_0 : Ref sig .tc := ⟨.vmem, 24, rfl⟩
abbrev cc4_stg3_0 : Ref sig .tc := ⟨.vmem, 25, rfl⟩
abbrev cc4_stg4_0 : Ref sig .tc := ⟨.vmem, 26, rfl⟩
abbrev cc4_scratch0 : Ref sig .tc := ⟨.vmem, 27, rfl⟩
abbrev cc4_scratch1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem1_1 : DmaSem sig := 23
abbrev cc4_sem2_0 : DmaSem sig := 24
abbrev cc4_sem3_0 : DmaSem sig := 25
abbrev cc4_sem4_0 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![49], ![false]⟩

def k4_cond2 (i : grid4.Coords) : BitVec 1 :=
  let arg0 : BitVec 32 := BitVec.ofNat 32 (i 0).val
  let c48_i32 : BitVec 32 := 48#32
  let v27 : BitVec 1 := Scalar.cmpi .eq arg0 c48_i32
  let v28 : BitVec 32 := Scalar.extui v27
  let c0_i32_13 : BitVec 32 := 0#32
  let v29 : BitVec 1 := Scalar.cmpi .ne v28 c0_i32_13
  v29

def cc4_transform_0 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S1x2048 .i32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2048x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S256x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  pads_S100000x64_S100352x64_03520_000 : S100000x64.Pads (![0, 0] : Fin 2 → Nat) ![352, 0] ![0, 0] S100352x64
  h_S_ : 0 < S_.numel
  pads_S100000_S100352_03520 : S100000.Pads (![0] : Fin 1 → Nat) ![352] ![0] S100352
  shapeCasts_S100352_S1x100352 : S100352.ShapeCasts S1x100352
  shapeCasts_S1_S1x1 : S1.ShapeCasts S1x1
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S256x1_S256x1_0_0 : ∀ a, (![0, 0] : Fin 2 → Nat) a + S256x1.size a ≤ S256x1.size a
  h_S256x1 : 0 < S256x1.numel
  shapeCasts_S256x1_S256x1 : S256x1.ShapeCasts S256x1
  iota_S256x2048_d0_w32 : S256x2048.Iotas .tc 32 [0]
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  natLt_1_32 : 1 < 32
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  reduces_S256x2048_S256 : S256x2048.Reduces [1] S256
  shapeCasts_S256_S256x1 : S256.ShapeCasts S256x1
  broadcasts_S256x1_S256x64 : S256x1.Broadcasts S256x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S256x1 : S1x1.Broadcasts S256x1
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x64_S64x64_S10000x64_1_0_0_1_n_n_wf : DotDims.WF S10000x64 S64x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S256x2048_S2048x64_S256x64_1_0_0_1_n_n_wf : DotDims.WF S256x2048 S2048x64 S256x64 [1] [0] [0] [1] [] []
  dot_S256x64_S64x1_S256x1_1_0_0_1_n_n_wf : DotDims.WF S256x64 S64x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1x2048.size a ≤ S1x100352.size a
  hwx4_0 : ∀ i : grid4.Coords, EltTy.bits .i32 = 32 ∨ (Rect.block (s := S1x100352) S1x2048.size (cc4_transform_0 i) (hinb4_0 i)).WholeWords (EltTy.packing .i32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2048x64.size a ≤ S100352x64.size a
  hwx4_1 : ∀ i : grid4.Coords, EltTy.bits .f32 = 32 ∨ (Rect.block (s := S100352x64) S2048x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x1.size a ≤ S64x1.size a
  hwx4_2 : ∀ i : grid4.Coords, EltTy.bits .f32 = 32 ∨ (Rect.block (s := S64x1) S64x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x1.size a ≤ S1x1.size a
  hwx4_3 : ∀ i : grid4.Coords, EltTy.bits .f32 = 32 ∨ (Rect.block (s := S1x1) S1x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S256x1.size a ≤ S256x1.size a
  hwx4_4 : ∀ i : grid4.Coords, EltTy.bits .f32 = 32 ∨ (Rect.block (s := S256x1) S256x1.size (cc4_transform_4 i) (hinb4_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf
def dot_S256x64_S64x1_S256x1_1_0_0_1_n_n : DotDims S256x64 S64x1 S256x1 where
  lhsContracting := [1]
  rhsContracting := [0]
  lhsNonContracting := [0]
  rhsNonContracting := [1]
  lhsBatch := []
  rhsBatch := []
  wf := dot_S256x64_S64x1_S256x1_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v64) S1x2048.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v62) S2048x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg7) S64x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v65) S1x1.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v66) S256x1.size cc4_transform_4 reads4_4 true true 1 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev idle4 : Fin 5 → grid4.Coords → Bool := fun | 0 => fun _ => false | 1 => fun _ => false | 2 => fun _ => false | 3 => fun _ => false | 4 => fun i => !(k4_cond2 i == 1#1) | ⟨_ + 5, h⟩ => absurd h (Nat.not_lt.2 (Nat.le_add_left _ _))

class Facts : Prop extends Facts₀ where

variable [Facts]
-- ==== ReferenceIdeal.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S256x64 : Shape := ⟨2, ![256, 64]⟩
abbrev S100000x1 : Shape := ⟨2, ![100000, 1]⟩
abbrev S256 : Shape := ⟨1, ![256]⟩
abbrev S256x1 : Shape := ⟨2, ![256, 1]⟩
abbrev S1x1 : Shape := ⟨2, ![1, 1]⟩

abbrev nBuf : Space → Nat
  | .hbm => 123
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S100000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x1, .f32⟩
  | .hbm, ⟨8, _⟩ => ⟨S1, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x64, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x64, .f32⟩
  | .hbm, ⟨59, _⟩ => ⟨S1700000x1, .f32⟩
  | .hbm, ⟨60, _⟩ => ⟨S1700000x64, .f32⟩
  | .hbm, ⟨61, _⟩ => ⟨S1700000x64, .f32⟩
  | .hbm, ⟨62, _⟩ => ⟨S_, .f32⟩
  | .hbm, ⟨63, _⟩ => ⟨S100000x64, .f32⟩
  | .hbm, ⟨64, _⟩ => ⟨S1700000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S_, .f32⟩
  | .hbm, ⟨70, _⟩ => ⟨S100000x64, .f32⟩
  | .hbm, ⟨71, _⟩ => ⟨S100000x64, .f32⟩
  | .hbm, ⟨72, _⟩ => ⟨S100000x64, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x64, .f32⟩
  | .hbm, ⟨82, _⟩ => ⟨S1700000x1, .f32⟩
  | .hbm, ⟨83, _⟩ => ⟨S1700000x64, .f32⟩
  | .hbm, ⟨84, _⟩ => ⟨S1700000x64, .f32⟩
  | .hbm, ⟨85, _⟩ => ⟨S_, .f32⟩
  | .hbm, ⟨86, _⟩ => ⟨S100000x64, .f32⟩
  | .hbm, ⟨87, _⟩ => ⟨S1700000x1, .i32⟩
  | .hbm, ⟨88, _⟩ => ⟨S100000x64, .f32⟩
  | .hbm, ⟨89, _⟩ => ⟨S1x64, .f32⟩
  | .hbm, ⟨90, _⟩ => ⟨S100000x64, .f32⟩
  | .hbm, ⟨91, _⟩ => ⟨S100000x64, .f32⟩
  | .hbm, ⟨92, _⟩ => ⟨S_, .f32⟩
  | .hbm, ⟨93, _⟩ => ⟨S100000x64, .f32⟩
  | .hbm, ⟨94, _⟩ => ⟨S100000x64, .f32⟩
  | .hbm, ⟨95, _⟩ => ⟨S_, .f32⟩
  | .hbm, ⟨96, _⟩ => ⟨S256x64, .f32⟩
  | .hbm, ⟨97, _⟩ => ⟨S100000x1, .i32⟩
  | .hbm, ⟨98, _⟩ => ⟨S256x64, .f32⟩
  | .hbm, ⟨99, _⟩ => ⟨S_, .f32⟩
  | .hbm, ⟨100, _⟩ => ⟨S100000, .f32⟩
  | .hbm, ⟨101, _⟩ => ⟨S_, .f32⟩
  | .hbm, ⟨102, _⟩ => ⟨S256, .f32⟩
  | .hbm, ⟨103, _⟩ => ⟨S100000x1, .i32⟩
  | .hbm, ⟨104, _⟩ => ⟨S256, .f32⟩
  | .hbm, ⟨105, _⟩ => ⟨S_, .f32⟩
  | .hbm, ⟨106, _⟩ => ⟨S256, .f32⟩
  | .hbm, ⟨107, _⟩ => ⟨S256, .f32⟩
  | .hbm, ⟨108, _⟩ => ⟨S256x1, .f32⟩
  | .hbm, ⟨109, _⟩ => ⟨S256x64, .f32⟩
  | .hbm, ⟨110, _⟩ => ⟨S256x64, .f32⟩
  | .hbm, ⟨111, _⟩ => ⟨S256x1, .f32⟩
  | .hbm, ⟨112, _⟩ => ⟨S1x1, .f32⟩
  | .hbm, ⟨113, _⟩ => ⟨S256x1, .f32⟩
  | .hbm, ⟨114, _⟩ => ⟨S256x1, .f32⟩
  | .hbm, ⟨115, _⟩ => ⟨S256x1, .f32⟩
  | .hbm, ⟨116, _⟩ => ⟨S256x1, .f32⟩
  | .hbm, ⟨117, _⟩ => ⟨S_, .f32⟩
  | .hbm, ⟨118, _⟩ => ⟨S256x1, .f32⟩
  | .hbm, ⟨119, _⟩ => ⟨S256x1, .f32⟩
  | .hbm, ⟨120, _⟩ => ⟨S_, .f32⟩
  | .hbm, ⟨121, _⟩ => ⟨S256x1, .f32⟩
  | .hbm, ⟨122, _⟩ => ⟨S256x1, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_c_9 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_11 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_call2_cst : Ref sig .tc := ⟨.hbm, 92, rfl⟩
abbrev main_call2_v0 : Ref sig .tc := ⟨.hbm, 93, rfl⟩
abbrev main_v65 : Ref sig .tc := ⟨.hbm, 94, rfl⟩
abbrev main_cst_12 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_13 : Ref sig .tc := ⟨.hbm, 99, rfl⟩
abbrev main_v69 : Ref sig .tc := ⟨.hbm, 100, rfl⟩
abbrev main_cst_14 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_cst_15 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_16 : Ref sig .tc := ⟨.hbm, 117, rfl⟩
abbrev main_v84 : Ref sig .tc := ⟨.hbm, 118, rfl⟩
abbrev main_v85 : Ref sig .tc := ⟨.hbm, 119, rfl⟩
abbrev main_cst_17 : Ref sig .tc := ⟨.hbm, 120, rfl⟩
abbrev main_v86 : Ref sig .tc := ⟨.hbm, 121, rfl⟩
abbrev main_v87 : Ref sig .tc := ⟨.hbm, 122, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S256x64 : S_.BroadcastsInDim S256x64 (![] : Fin 0 → Fin S256x64.rank)
  bcast_S100000_S100000x1_0 : S100000.BroadcastsInDim S100000x1 (![0] : Fin 1 → Fin S100000x1.rank)
  bcast_S_S256 : S_.BroadcastsInDim S256 (![] : Fin 0 → Fin S256.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  bcast_S_S256x1 : S_.BroadcastsInDim S256x1 (![] : Fin 0 → Fin S256x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x64_S100000x64_1_0_0_1_n_n_wf : DotDims.WF S100000x64 S64x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  scatter_S256x64_S100000x1_S100000x64_1_0_0_1_wf : ScatterDims.WF S256x64 S100000x1 S100000x64 [1] [0] [0] 1
  scatter_S256_S100000x1_S100000_n_0_0_1_wf : ScatterDims.WF S256 S100000x1 S100000 [] [0] [0] 1
  dot_S256x64_S64x1_S256x1_1_0_0_1_n_n_wf : DotDims.WF S256x64 S64x1 S256x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def scatter_S256x64_S100000x1_S100000x64_1_0_0_1 : ScatterDims S256x64 S100000x1 S100000x64 where
  updateWindowDims := [1]
  insertedWindowDims := [0]
  scatterDimsToOperandDims := [0]
  indexVectorDim := 1
  wf := scatter_S256x64_S100000x1_S100000x64_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x64_S64x1_S256x1_1_0_0_1_n_n : DotDims S256x64 S64x1 S256x1 where
  lhsContracting := [1]
  rhsContracting := [0]
  lhsNonContracting := [0]
  rhsNonContracting := [1]
  lhsBatch := []
  rhsBatch := []
  wf := dot_S256x64_S64x1_S256x1_1_0_0_1_n_n_wf

class Facts : Prop extends Facts₀ where

variable [Facts]
-- ==== Proof.KI.Lin0.lean ====
/-
  Region 0 of the idealized kernel program: the first layer's projection `x · W₁`, ten row blocks of 10000 rows.
  At a grid point the body loads its block of `x` (10000 × 64) and the whole weight matrix (64 × 64), multiplies them
  onto a zero accumulator and stores the product over the whole output block. Stated here, at any float instance and
  for any contents `V` the region is entered with: what each window's staging buffer holds after the body at each
  point (the inputs their blocks, the output the one store's payload), the body's triple, and the obligation the
  pipeline rule asks at every point. Nothing is carried from point to point.
-/
import proofs.«409485_j54838142435789_2_alg».proof.Proof.Gen.KernelIdeal.Launch
import proofs.«409485_j54838142435789_2_alg».proof.Proof.Gen.KernelIdeal.Skeleton
import proofs.«409485_j54838142435789_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of `x` (window 0) sits in its current staging buffer at every point: it is fetched at every point,
    and the body leaves it in place. Stated for any proof data over these arrays whose body leaves the block there. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix (window 1) likewise: fetched once, at the first point, and its block index never moves, so the
    buffer still holds the one block at every later point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The one rectangle the body touches in each buffer: the whole of it. -/
abbrev rX0 : Rect S10000x64 := Rect.unit (s := S10000x64) ![0, 0] S10000x64.size inb_S10000x64_S10000x64_0_0
abbrev rW0 : Rect S64x64 := Rect.unit (s := S64x64) ![0, 0] S64x64.size inb_S64x64_S64x64_0_0

/-- The output block after the body: the product of the loaded row block and the loaded weights, stored whole. -/
def out0_2 (x0 : Vec F S10000x64 .f32) (x1 : Vec F S64x64 .f32) : Vec F S10000x64 .f32 :=
  View.canon [⟨rX0, k0_pay1 (View.ld x0 rX0) (View.ld x1 rW0)⟩]

/-- The one store covers the output block. -/
theorem cover0_2 (p0 : Vec F S10000x64 .f32) (y : S10000x64.Idx) :
    ∃ pc ∈ ([⟨rX0, p0⟩] : List (View.Piece (Elt F) S10000x64 .f32)), y ∈ pc.1.set :=
  View.cover_of_tiled [⟨rX0, p0⟩] S10000x64.size (by rfl) y

set_option maxHeartbeats 1000000 in
/-- The body on whole staging buffers, the inputs' at contents `x0`, `x1` and the output's at anything, runs to the
    continuation holding the inputs' as they were and the output's at the product. -/
theorem sound_kernel0 (c : Dev nD) (E : Set ℕ) (i : grid0.Coords)
    (arg1 : Memref sig .tc .vmem S10000x64 .f32) (harg1 : arg1.IsWhole) (arg2 : Memref sig .tc .vmem S64x64 .f32) (harg2 : arg2.IsWhole)
    (arg3 : Memref sig .tc .vmem S10000x64 .f32) (harg3 : arg3.IsWhole)
    (x0 : Vec F S10000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of this region on core `c`: the arrays as the region finds them; after the body at point `t` each
    input's buffer at its block and the output's at the product of the two blocks; the invariant says only that the
    region's other resources are untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline rule's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Chain.lean ====
/-
  The buffers' contents at every boundary of the idealized kernel program's @main, from the launch memory `m`.
  A host stretch applies its operations; a region replaces exactly one buffer, its output array, by what its pipeline
  leaves there once every block has been written back, and changes nothing else: the layer-one projection `main_v30`,
  its rectified sum `main_v45`, the layer-two projection `main_v46`, its rectified sum `main_v61`. The contents a
  region is entered with are what its proof data are stated at.
-/
import proofs.«409485_j54838142435789_2_alg».proof.Proof.Gen.KernelIdeal.Regions
import proofs.«409485_j54838142435789_2_alg».proof.Proof.KI.Lin0
import proofs.«409485_j54838142435789_2_alg».proof.Proof.KI.Bias1
import proofs.«409485_j54838142435789_2_alg».proof.Proof.KI.Lin2
import proofs.«409485_j54838142435789_2_alg».proof.Proof.KI.Bias3

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ)

/-- What region 0 is entered with: the launch memory after the three first host stretches (the edge lists with the
    self loops, the degrees, the edge norm). -/
abbrev Wa (c : Dev nD) : Valuation τ sig (Elt F) := V3 m c
abbrev Ea (c : Dev nD) (b : Ref sig .tc) : Buf (Elt F) ((c : Thread nD τ).loc b) := Wa m c b
/-- The layer-one projection, all ten row blocks written back. -/
def o30 (c : Dev nD) : Buf (Elt F) ((c : Thread nD τ).loc main_v30) := (dat0 (Ea m) c).arrAt 2 cfg0.N
/-- After region 0. -/
def Wb (c : Dev nD) : Valuation τ sig (Elt F) := Function.update (Wa m c) main_v30 (o30 m c)
/-- After the gather, the scaling by the edge norm and the scatter-add of layer one: what region 1 is entered with. -/
def Wc (c : Dev nD) : Valuation τ sig (Elt F) := StableHlo.after hostOps1 (Wb m c)
abbrev Ec (c : Dev nD) (b : Ref sig .tc) : Buf (Elt F) ((c : Thread nD τ).loc b) := Wc m c b
/-- Layer one's rectified sum. -/
def o45 (c : Dev nD) : Buf (Elt F) ((c : Thread nD τ).loc main_v45) := (dat1 (Ec m) c).arrAt 2 cfg1.N
/-- After region 1: what region 2 is entered with. -/
def Wd (c : Dev nD) : Valuation τ sig (Elt F) := Function.update (Wc m c) main_v45 (o45 m c)
abbrev Ed (c : Dev nD) (b : Ref sig .tc) : Buf (Elt F) ((c : Thread nD τ).loc b) := Wd m c b
/-- The layer-two projection. -/
def o46 (c : Dev nD) : Buf (Elt F) ((c : Thread nD τ).loc main_v46) := (dat2 (Ed m) c).arrAt 2 cfg2.N
/-- After region 2. -/
def We (c : Dev nD) : Valuation τ sig (Elt F) := Function.update (Wd m c) main_v46 (o46 m c)
/-- After layer two's gather, scaling and scatter-add: what region 3 is entered with. -/
def Wf (c : Dev nD) : Valuation τ sig (Elt F) := StableHlo.after hostOps3 (We m c)
abbrev Ef (c : Dev nD) (b : Ref sig .tc) : Buf (Elt F) ((c : Thread nD τ).loc b) := Wf m c b
/-- Layer two's rectified sum. -/
def o61 (c : Dev nD) : Buf (Elt F) ((c : Thread nD τ).loc main_v61) := (dat3 (Ef m) c).arrAt 2 cfg3.N
/-- After region 3. -/
def Wg (c : Dev nD) : Valuation τ sig (Elt F) := Function.update (Wf m c) main_v61 (o61 m c)
/-- After the paddings and reshapes the pooling is fed: what region 4 is entered with. -/
def Wh (c : Dev nD) : Valuation τ sig (Elt F) :=
  StableHlo.after hostOps4_4 (StableHlo.after hostOps4_3 (StableHlo.after hostOps4_2 (StableHlo.after hostOps4_1
    (StableHlo.after hostOps4 (Wg m c)))))
abbrev Eh (c : Dev nD) (b : Ref sig .tc) : Buf (Elt F) ((c : Thread nD τ).loc b) := Wh m c b

end Cert.KernelIdeal.Hand

end
-- ==== Proof.KI.Family.lean ====
/-
  The five pipelines' proof data as one family, each at the contents its region is entered with, and what rides beside
  the buffers through every segment of @main: the core's generator register at some state and its dues, which are
  none. No core signals another, so no level is assigned and nothing is owed. The pooling region's datum is a
  parameter here; it is supplied where that region's proof data are defined.
-/
import proofs.«409485_j54838142435789_2_alg».proof.Proof.KI.Chain

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ)
variable (d4 : (c : Dev nD) → Dat τ (Elt F) Unit ℕ (UR sig nD τ) ℕ cfg4 c)

/-- Every pipeline's proof data, each at its region's entry contents: a literal match on the pipeline's number. -/
def pdats : (p : Fin 5) → (c : Dev nD) → Dat τ (Elt F) Unit ℕ (UR sig nD τ) ℕ (cfgs p) c
  | ⟨0, _⟩ => fun c => dat0 (Ea m) c
  | ⟨1, _⟩ => fun c => dat1 (Ec m) c
  | ⟨2, _⟩ => fun c => dat2 (Ed m) c
  | ⟨3, _⟩ => fun c => dat3 (Ef m) c
  | ⟨4, _⟩ => fun c => d4 c

abbrev 𝒱n : Variants := Variants.none
/-- No core owes another anything: no level is assigned. -/
abbrev Ln : GSem nD τ sig → Finset Unit := fun _ => ∅
abbrev lvn : GSem nD τ sig → Unit → ℕ := fun _ _ => 0

/-- What rides beside the buffers: the generator register at some state, and the core's dues, at nothing. -/
abbrev Rst (c : Dev nD) : sProp 𝕄 :=
  iprop((∃ r, prngReg c r) ∗ ∃ W, owes (c : Thread nD τ) (0 : CellTallies nD τ sig Unit) W)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Hand

end
-- ==== Proof.KI.Reg0.lean ====
/-
  Region 0 as a segment of @main. It is entered holding every unscoped buffer at the contents `Wa` and left holding
  them at `Wb`, which differs from `Wa` only at the projection's array. At entry the region's three arrays (the
  features, the weights, the projection) are split out of the unscoped buffers; at exit they are put back, the two
  inputs as they were and the output at what the ten write-backs leave. The generator register goes into the
  region's invariant and comes back out; the kernel has no semaphore of its own and owes nothing.
-/
import proofs.«409485_j54838142435789_2_alg».proof.Proof.KI.Family

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
variable (d4 : (c : Dev nD) → Dat τ (Elt F) Unit ℕ (UR sig nD τ) ℕ cfg4 c)

/-- The inputs end as entered: no write-back touches an input window's array. -/
theorem arr0_in0 (c : Dev nD) : (dat0 (Ea m) c).arrAt 0 cfg0.N = Wa m c main_arg0 :=
  ((dat0 (Ea m) c).arrAt_in 0 rfl cfg0.N).trans (A_eq0 (Ea m) c 0)
theorem arr0_in1 (c : Dev nD) : (dat0 (Ea m) c).arrAt 1 cfg0.N = Wa m c main_arg3 :=
  ((dat0 (Ea m) c).arrAt_in 1 rfl cfg0.N).trans (A_eq0 (Ea m) c 1)

/-- At the region's exit each of its arrays holds what the pipeline leaves, -/
theorem hF0 (c : Dev nD) (w : Fin cfg0.W) : (dat0 (Ea m) c).arrAt w cfg0.N = Wb m c (Pipeline.arrRef spec0 w) := by
  match w with
  | ⟨0, _⟩ => exact (arr0_in0 m c).trans (by
      simp only [Wb, Function.update_of_ne (StableHlo.devRef_ne_of_ne (by decide) : (Proc.devRef .tc main_arg0 : DevRef τ sig) ≠ Proc.devRef .tc main_v30)])
  | ⟨1, _⟩ => exact (arr0_in1 m c).trans (by
      simp only [Wb, Function.update_of_ne (StableHlo.devRef_ne_of_ne (by decide) : (Proc.devRef .tc main_arg3 : DevRef τ sig) ≠ Proc.devRef .tc main_v30)])
  | ⟨2, _⟩ => simp only [Wb, o30, Function.update_self]; rfl
/-- and every other buffer what it held at entry. -/
theorem hrest0 (c : Dev nD) : ∀ b, b ∉ Finset.univ.image (Pipeline.arrRef spec0) → Wb m c b = Wa m c b := fun b hb => by
  unfold Wb
  exact Function.update_of_ne (StableHlo.devRef_ne_of_ne (fun e => hb (Finset.mem_image.mpr ⟨2, Finset.mem_univ _, by subst e; rfl⟩)) :
    (Proc.devRef .tc b : DevRef τ sig) ≠ Proc.devRef .tc main_v30) _ _

set_option backward.isDefEq.respectTransparency.types false in
def reg0 : Pipeline.RegionSeg (pcfgs (F := F)) adm (pdats m d4) () defs₀ 𝒱n Ln lvn 0 where
  win := launch0.win.to₀
  block_pos := launch0.block_pos
  stage_whole := launch0.stage_whole
  K := PEmpty
  osem k := k.elim
  ho := Pipeline.OwnSemFacts.none _
  hbody c := (body_obligation0 (Ea m) c).loose
  hwaits := Pipeline.hwaits_of_owed_zero _ _ _ _ Ln lvn 0 fun _ _ => rfl
  pre c := iprop(StableHlo.held (c : Thread nD τ) (Pipeline.ucRefs τ sig) (Wa m c) ∗ Rst c)
  post c := iprop(StableHlo.held (c : Thread nD τ) (Pipeline.ucRefs τ sig) (Wb m c) ∗ Rst c)
  X c := iprop(∃ r, prngReg c r)
  Y c := iprop(∃ r, prngReg c r)
  Z c := Pipeline.unscopedRest (Ix := Unit) (Name := ℕ) (U := UR sig nD τ) (Lvl := ℕ) spec0 c (Ea m c)
  hentry c := by
    rw [Pipeline.ownSems0_none]
    have hsplit := Pipeline.arrays_of_unscopedBufs (p := 0) (pcfgs (F := F)) adm (pdats m d4) launch0.win launch0.arr_whole c
      ((pdats m d4 0 c).share_full fun _ => rfl) (Ea m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m d4 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m d4 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m d4) ((pdats m d4 0 c).share_full fun _ => rfl)
      (Ea m c) (fun b => Wb m c b) ((pdats m d4 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Run.lean ====
/-
  The idealized kernel program's frame, from its five regions' segments. The generated conditional frame asks, for
  contents `outs` of its choosing that the regions leave in their output arrays, one segment per region entered from and
  left at its own valuations. Here `outs` is what the pipelines really leave (the projection, the rectified sum, twice,
  and the pooled result), so that those valuations are the boundary contents the segments were stated at; the rest that
  rides beside the buffers is the generator register at some state and dues of nothing; the launch deals each core its
  register and empty dues, and nothing is owed at the end. The pooling region's proof data and segment are parameters.
-/
import proofs.«409485_j54838142435789_2_alg».proof.Proof.KI.Reg0
import proofs.«409485_j54838142435789_2_alg».proof.Proof.KI.Reg1
import proofs.«409485_j54838142435789_2_alg».proof.Proof.KI.Reg2
import proofs.«409485_j54838142435789_2_alg».proof.Proof.KI.Reg3
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
variable (d4 : (c : Dev nD) → Dat τ (Elt F) Unit ℕ (UR sig nD τ) ℕ cfg4 c)

/-- The pooled result: what the one write-back of the pooling region, at its last point, leaves in its array. -/
def o66 (c : Dev nD) : Buf (Elt F) ((c : Thread nD τ).loc main_v66) := (d4 c).arrAt 4 cfg4.N
/-- After the pooling region. -/
def Wi (c : Dev nD) : Valuation τ sig (Elt F) := Function.update (Wh m c) main_v66 (o66 d4 c)

/-- What the regions leave in their output arrays. Each output array is written by one region only, so the item's number
    is not consulted; a buffer that is no region's output is never read here and is given its launch contents. -/
def outs : Outs (F := F) := fun _ r c =>
  if h : r = main_v30 then h ▸ o30 m c
  else if h : r = main_v45 then h ▸ o45 m c
  else if h : r = main_v46 then h ▸ o46 m c
  else if h : r = main_v61 then h ▸ o61 m c
  else if h : r = main_v66 then h ▸ o66 d4 c
  else m ((c : Thread nD τ).loc r)

theorem outs_v30 (k : ℕ) (c : Dev nD) : outs m d4 k main_v30 c = o30 m c := by unfold outs; rw [dif_pos rfl]
theorem outs_v45 (k : ℕ) (c : Dev nD) : outs m d4 k main_v45 c = o45 m c := by
  unfold outs; rw [dif_neg (by decide), dif_pos rfl]
theorem outs_v46 (k : ℕ) (c : Dev nD) : outs m d4 k main_v46 c = o46 m c := by
  unfold outs; rw [dif_neg (by decide), dif_neg (by decide), dif_pos rfl]
theorem outs_v61 (k : ℕ) (c : Dev nD) : outs m d4 k main_v61 c = o61 m c := by
  unfold outs; rw [dif_neg (by decide), dif_neg (by decide), dif_neg (by decide), dif_pos rfl]
theorem outs_v66 (k : ℕ) (c : Dev nD) : outs m d4 k main_v66 c = o66 d4 c := by
  unfold outs; rw [dif_neg (by decide), dif_neg (by decide), dif_neg (by decide), dif_neg (by decide), dif_pos rfl]

/-- The generated valuations at these `outs` are the boundary contents. -/
theorem V4_eq (c : Dev nD) : V4 m (outs m d4) c = Wb m c := by
  show Function.update (V3 m c) main_v30 (outs m d4 4 main_v30 c) = _
  rw [outs_v30]; rfl
theorem V5_eq (c : Dev nD) : V5 m (outs m d4) c = Wc m c := by
  show StableHlo.after hostOps1 (V4 m (outs m d4) c) = _
  rw [V4_eq]; rfl
theorem V6_eq (c : Dev nD) : V6 m (outs m d4) c = Wd m c := by
  show Function.update (V5 m (outs m d4) c) main_v45 (outs m d4 6 main_v45 c) = _
  rw [outs_v45, V5_eq]; rfl
theorem V7_eq (c : Dev nD) : V7 m (outs m d4) c = We m c := by
  show Function.update (V6 m (outs m d4) c) main_v46 (outs m d4 7 main_v46 c) = _
  rw [outs_v46, V6_eq]; rfl
theorem V8_eq (c : Dev nD) : V8 m (outs m d4) c = Wf m c := by
  show StableHlo.after hostOps3 (V7 m (outs m d4) c) = _
  rw [V7_eq]; rfl
theorem V9_eq (c : Dev nD) : V9 m (outs m d4) c = Wg m c := by
  show Function.update (V8 m (outs m d4) c) main_v61 (outs m d4 9 main_v61 c) = _
  rw [outs_v61, V8_eq]; rfl
theorem V14_eq (c : Dev nD) : V14 m (outs m d4) c = Wh m c := by
  show StableHlo.after hostOps4_4 (StableHlo.after hostOps4_3 (StableHlo.after hostOps4_2 (StableHlo.after hostOps4_1
    (StableHlo.after hostOps4 (V9 m (outs m d4) c))))) = _
  rw [V9_eq]; rfl
theorem V15_eq (c : Dev nD) : V15 m (outs m d4) c = Wi m d4 c := by
  show Function.update (V14 m (outs m d4) c) main_v66 (outs m d4 15 main_v66 c) = _
  rw [outs_v66, V14_eq]; rfl

/-- The launch deals each core its generator register and empty dues: the rest that rides along. -/
theorem rest_init (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts Ln lvn)
      ⊢ (|={Set.univ}=> bigSep Finset.univ (fun c : Dev nD => Rst (F := F) c) : sProp 𝕄) := by
  refine Pipeline.initEach Ln lvn fun c => ?_
  iintro ⟨⟨-, HO, -, Hp, -⟩, -⟩
  imodintro
  isplitl [Hp]; · iexists _; iexact Hp
  iexists ∅; iexact HO

set_option backward.isDefEq.respectTransparency.types false in
/-- The frame, given the pooling region's segment between `Wh` and `Wi`. -/
theorem frame_of (ρ : Dev nD → PrngReg)
    (R4 : Pipeline.RegionSeg (pcfgs (F := F)) adm (pdats m d4) () defs₀ 𝒱n Ln lvn 4)
    (hpre4 : ∀ c : Dev nD, iprop(StableHlo.held (c : Thread nD τ) (Pipeline.ucRefs τ sig) (Wh m c) ∗ Rst c) ⊢ R4.pre c)
    (hpost4 : ∀ c : Dev nD, R4.post c ⊢ iprop(StableHlo.held (c : Thread nD τ) (Pipeline.ucRefs τ sig) (Wi m d4 c) ∗ Rst c)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_cond m (Ix := Unit) (U := UR sig nD τ) (Lvl := ℕ) emb₁ () 𝒱n Ln lvn (fun _ _ => rfl) ρ (outs m d4) (pdats m d4)
    (0 : Dev nD → CellTallies nD τ sig Unit) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => Rst c)
    (rest_init ρ)
    (fun c => by iintro ⟨-, HO⟩; iexact HO)
    (reg0 m d4) (fun c => .rfl) (fun c => by rw [V4_eq]; exact .rfl)
    (reg1 m d4) (fun c => by rw [V5_eq]; exact .rfl) (fun c => by rw [V6_eq]; exact .rfl)
    (reg2 m d4) (fun c => by rw [V6_eq]; exact .rfl) (fun c => by rw [V7_eq]; exact .rfl)
    (reg3 m d4) (fun c => by rw [V8_eq]; exact .rfl) (fun c => by rw [V9_eq]; exact .rfl)
    R4 (fun c => by rw [V14_eq]; exact hpre4 c) (fun c => by rw [V15_eq]; exact hpost4 c)

end Cert.KernelIdeal.Hand

end
-- ==== Proof.KI.PoolRuns.lean ====
/-
  Region 4 of the idealized kernel program, the pooling kernel: 49 row tiles of 2048 nodes; at each the body adds,
  into a 256 × 64 accumulator, the product of the tile's one-hot graph membership matrix with the tile of
  activations, and into a 256 × 1 accumulator the membership counts; it zeroes both at the first tile and, at the
  last, divides, applies the head and stores the 256 × 1 output. Here: what the three control cases share.
-/
import proofs.«409485_j54838142435789_2_alg».proof.Proof.Gen.KernelIdeal.Launch
import proofs.«409485_j54838142435789_2_alg».proof.Proof.Gen.KernelIdeal.Skeleton
import proofs.«409485_j54838142435789_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The tile of graph ids (window 0) sits in its current staging buffer at every point: it is fetched at every point
    and the body only loads it. Stated for any proof data over these arrays whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The tile of activations (window 1) likewise. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The head's weight column (window 2): fetched once, at the first point; its block index never moves, so the
    buffer still holds the one block at every later point. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- The head's bias (window 3) likewise. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-! ## The body's two branches, decided over the grid -/

/-- The body zeroes its two accumulators when the grid coordinate is 0 (the scalar chain the body computes). -/
abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val = 0 :=
  (by decide +kernel : ∀ t : Fin grid4.N, cond4_0 (grid4.coords t) ↔ t.val = 0)

/-- It stores the output when the grid coordinate is 48, the last one. -/
abbrev cond4_1 (i : grid4.Coords) : Prop := k4_cond2 i = 1#1
theorem hcond4_1 : ∀ t : Fin cfg4.N, cond4_1 (grid4.coords t) ↔ t.val = 48 :=
  (by decide +kernel : ∀ t : Fin grid4.N, cond4_1 (grid4.coords t) ↔ t.val = 48)

/-! ## Where the output window is idle -/

/-- Off the last point the output window is idle: the body stores nothing into it, -/
theorem idle4_4 : ∀ t : Fin cfg4.N, t.val ≠ 48 → cfg4.idle 4 (grid4.coords t) = true := by decide +kernel
/-- and the pipeline does not write its block back there. -/
theorem noFlush4_4 : ∀ t : Fin cfg4.N, t.val ≠ 48 → (cfg4.win 4).flush t = false := by decide +kernel
/-- At the last point it is live. -/
theorem live4_4 : ∀ t : Fin cfg4.N, t.val = 48 → cfg4.idle 4 (grid4.coords t) = false := by decide +kernel

/-! ## The memrefs the body is called with -/

abbrev ms4_0 (t : Fin cfg4.N) : Memref sig .tc .vmem S1x2048 .i32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S2048x64 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S64x1 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x1 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S256x1 .f32 := win4_4.stage (cfg4.slots t 4)
abbrev hs4_4 (t : Fin cfg4.N) : (ms4_4 t).IsWhole := hstage4_4 ((cfg4.slots t 4).cast nbuf4_4)
/-- The two accumulators: whole scoped buffers of the kernel's own, passed beside the windows. -/
abbrev scM4_0 : Memref sig .tc .vmem S256x64 .f32 := Memref.whole cc4_scratch0
abbrev scM4_1 : Memref sig .tc .vmem S256x1 .f32 := Memref.whole cc4_scratch1

/-- Every rectangle the body loads or stores through is the whole of its buffer, at zero offsets. -/
theorem hz4 : (![0, 0] : Fin 2 → Nat) = fun _ => 0 := funext fun a => by fin_cases a <;> rfl

/-! ## The class invariant, split at the two accumulators -/

/-- What the region holds beside its windows' buffers and its two accumulators: every other scoped buffer of the core
    (the other regions' staging buffers), at some contents each, left unopened. -/
def rest4 (c : Dev nD) : sProp 𝕄 :=
  Pipeline.scopedRestBut (Ix := Unit) (Name := ℕ) (U := UR sig nD τ) (Lvl := ℕ) (Val := Elt F) spec4 c [cc4_scratch0, cc4_scratch1]

/-- The class invariant is the two accumulators at some contents each, that remainder, and the generator register
    at some state. -/
theorem PhiA4_eq (c : Dev nD) :
    (Pipeline.ΦA spec4 c : sProp 𝕄)
      = iprop((iprop((∃ d, owns (c : Thread nD τ) scM4_0 fullShare d) ∗ (∃ d, owns (c : Thread nD τ) scM4_1 fullShare d)) ∗ rest4 c)
        ∗ ∃ r, prngReg c r) := by
  unfold Pipeline.ΦA rest4
  rw [Pipeline.scopedRest_split_of_list spec4 c [cc4_scratch0, cc4_scratch1] (by decide) (by decide)]
  simp only [scM4_0, scM4_1, owns_whole]; try rfl

end Cert.KernelIdeal.Hand

end
-- ==== Proof.KI.PoolBody.lean ====
/-
  Region 4, the pooling kernel: the body's triple in each of its three control cases, on whole staging buffers and
  whole accumulators. Every load and every store of the body goes through the whole of its buffer, so each buffer it
  stores into ends at the last payload stored there, and each payload is read at the buffers' contents themselves.
-/
import proofs.«409485_j54838142435789_2_alg».proof.Proof.KI.PoolRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Reading back through the whole-buffer rectangle -/

section ReadBack
variable {sg : RefSig} {κ : Kind} {sp : Space} {S : Shape} {e : EltTy}

/-- A buffer whose LAST store went through the whole-buffer rectangle reads back as that store's payload,
    whatever was stored before. -/
theorem read_last_whole (v : View sg κ sp S e) (f : v.ty.Contents (Elt F)) {off : Fin S.rank → Nat} (h : off = fun _ => 0)
    (inb : ∀ a, off a + S.size a ≤ S.size a) (p : S.Idx → Elt F e) (L : List (View.Piece (Elt F) S e)) :
    v.read (Elt F) (v.writes (Elt F) f ((⟨Rect.unit off S.size inb, p⟩ : View.Piece (Elt F) S e) :: L)) = p := by
  rw [View.read_writes_eq_canon _ _ _ (fun y => ⟨_, List.mem_cons_self, View.mem_set_unit_zero h inb y⟩),
    View.canon_cons_unit_zero h]

/-- A load through the whole-buffer rectangle reads the buffer's contents. -/
theorem load_whole (v : View sg κ sp S e) (f : v.ty.Contents (Elt F)) {off : Fin S.rank → Nat} (h : off = fun _ => 0)
    (inb : ∀ a, off a + S.size a ≤ S.size a) :
    v.readAt (Elt F) (Rect.unit off S.size inb).toLoadRect f = v.read (Elt F) f := by
  rw [View.readAt_eq_ld]; exact View.ld_unit_zero h inb _

end ReadBack

set_option maxHeartbeats 1000000 in
/-- CASE A, the first tile. With the four inputs' buffers at `b`, `h`, `w`, `bf`, the output's at `xi` and the two
    accumulators at anything, the body runs to the continuation holding the inputs' and the output's buffers as they
    were, the sum accumulator at the tile's contribution added to zeros and the count accumulator likewise: it
    stores zeros into both, reads them back, and stores the sums. -/
theorem run4_A (c : Dev nD) (E : Set ℕ) (i : grid4.Coords)
    (arg1 : Memref sig .tc .vmem S1x2048 .i32) (harg1 : arg1.IsWhole) (arg2 : Memref sig .tc .vmem S2048x64 .f32) (harg2 : arg2.IsWhole)
    (arg3 : Memref sig .tc .vmem S64x1 .f32) (harg3 : arg3.IsWhole) (arg4 : Memref sig .tc .vmem S1x1 .f32) (harg4 : arg4.IsWhole)
    (arg5 : Memref sig .tc .vmem S256x1 .f32) (harg5 : arg5.IsWhole) (arg6 : Memref sig .tc .vmem S256x64 .f32) (harg6 : arg6.IsWhole)
    (arg7 : Memref sig .tc .vmem S256x1 .f32) (harg7 : arg7.IsWhole)
    (hc0 : cond4_0 i) (hc1 : ¬cond4_1 i)
    (b : Vec F S1x2048 .i32) (h : Vec F S2048x64 .f32) (w : Vec F S64x1 .f32) (bf : Vec F S1x1 .f32) (xi : Vec F S256x1 .f32) (K : PUnit → sProp 𝕄) :
    iprop(owns (c : Thread nD τ) arg1 fullShare b
        ∗ owns (c : Thread nD τ) arg2 fullShare h
        ∗ owns (c : Thread nD τ) arg3 fullShare w
        ∗ owns (c : Thread nD τ) arg4 fullShare bf
        ∗ owns (c : Thread nD τ) arg5 fullShare xi
        ∗ (∃ d, owns (c : Thread nD τ) arg6 fullShare d)
        ∗ (∃ d, owns (c : Thread nD τ) arg7 fullShare d)
        ∗ (iprop(owns (c : Thread nD τ) arg1 fullShare b
            ∗ owns (c : Thread nD τ) arg2 fullShare h
            ∗ owns (c : Thread nD τ) arg3 fullShare w
            ∗ owns (c : Thread nD τ) arg4 fullShare bf
            ∗ owns (c : Thread nD τ) arg5 fullShare xi
            ∗ owns (c : Thread nD τ) arg6 fullShare (k4_pay4 b h k4_pay1)
            ∗ owns (c : Thread nD τ) arg7 fullShare (k4_pay5 b k4_pay2)) -∗ K ⟨⟩))
      ⊢ wp frame (wpE (defs₀ (F := F)) Variants.none c none) E (cc4__lambda_ i arg1 harg1 arg2 harg2 arg3 harg3 arg4 harg4 arg5 harg5 arg6 harg6 arg7 harg7) K := by
  simp only [cc4__lambda__eq_skeleton]; unfold cc4__lambda__skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf1; subst hf2; subst hf3; subst hf4; subst hf5
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    (try sl_unfold_words)
    simp only [read_last_whole (S := S256x64) _ _ hz4, read_last_whole (S := S256x1) _ _ hz4,
      load_whole (S := S1x2048) _ _ hz4, load_whole (S := S2048x64) _ _ hz4, load_whole (S := S256x64) _ _ hz4,
      load_whole (S := S256x1) _ _ hz4, load_whole (S := S64x1) _ _ hz4, load_whole (S := S1x1) _ _ hz4,
      View.readCov_unit_zero (S := S256x64) _ hz4, View.readCov_unit_zero (S := S256x1) _ hz4]
  iexists _; isplitr
  swap; · iexact H7
  ipureintro
  (try sl_unfold_words)
  simp only [read_last_whole (S := S256x64) _ _ hz4, read_last_whole (S := S256x1) _ _ hz4,
    load_whole (S := S1x2048) _ _ hz4, load_whole (S := S2048x64) _ _ hz4, load_whole (S := S256x64) _ _ hz4,
    load_whole (S := S256x1) _ _ hz4, load_whole (S := S64x1) _ _ hz4, load_whole (S := S1x1) _ _ hz4,
    View.readCov_unit_zero (S := S256x64) _ hz4, View.readCov_unit_zero (S := S256x1) _ hz4]

set_option maxHeartbeats 1000000 in
/-- CASE B, a tile that is neither the first nor the last. The accumulators come in at `s` and `n` and go out at the
    tile's contribution added to them; everything else is handed back untouched. -/
theorem run4_B (c : Dev nD) (E : Set ℕ) (i : grid4.Coords)
    (arg1 : Memref sig .tc .vmem S1x2048 .i32) (harg1 : arg1.IsWhole) (arg2 : Memref sig .tc .vmem S2048x64 .f32) (harg2 : arg2.IsWhole)
    (arg3 : Memref sig .tc .vmem S64x1 .f32) (harg3 : arg3.IsWhole) (arg4 : Memref sig .tc .vmem S1x1 .f32) (harg4 : arg4.IsWhole)
    (arg5 : Memref sig .tc .vmem S256x1 .f32) (harg5 : arg5.IsWhole) (arg6 : Memref sig .tc .vmem S256x64 .f32) (harg6 : arg6.IsWhole)
    (arg7 : Memref sig .tc .vmem S256x1 .f32) (harg7 : arg7.IsWhole)
    (hc0 : ¬cond4_0 i) (hc1 : ¬cond4_1 i)
    (b : Vec F S1x2048 .i32) (h : Vec F S2048x64 .f32) (w : Vec F S64x1 .f32) (bf : Vec F S1x1 .f32) (xi : Vec F S256x1 .f32)
    (s : Vec F S256x64 .f32) (n : Vec F S256x1 .f32) (K : PUnit → sProp 𝕄) :
    iprop(owns (c : Thread nD τ) arg1 fullShare b
        ∗ owns (c : Thread nD τ) arg2 fullShare h
        ∗ owns (c : Thread nD τ) arg3 fullShare w
        ∗ owns (c : Thread nD τ) arg4 fullShare bf
        ∗ owns (c : Thread nD τ) arg5 fullShare xi
        ∗ owns (c : Thread nD τ) arg6 fullShare s
        ∗ owns (c : Thread nD τ) arg7 fullShare n
        ∗ (iprop(owns (c : Thread nD τ) arg1 fullShare b
            ∗ owns (c : Thread nD τ) arg2 fullShare h
            ∗ owns (c : Thread nD τ) arg3 fullShare w
            ∗ owns (c : Thread nD τ) arg4 fullShare bf
            ∗ owns (c : Thread nD τ) arg5 fullShare xi
            ∗ owns (c : Thread nD τ) arg6 fullShare (k4_pay4 b h s)
            ∗ owns (c : Thread nD τ) arg7 fullShare (k4_pay5 b n)) -∗ K ⟨⟩))
      ⊢ wp frame (wpE (defs₀ (F := F)) Variants.none c none) E (cc4__lambda_ i arg1 harg1 arg2 harg2 arg3 harg3 arg4 harg4 arg5 harg5 arg6 harg6 arg7 harg7) K := by
  simp only [cc4__lambda__eq_skeleton]; unfold cc4__lambda__skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf1; subst hf2; subst hf3; subst hf4; subst hf5; subst hf6; subst hf7
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    (try sl_unfold_words)
    simp only [read_last_whole (S := S256x64) _ _ hz4, read_last_whole (S := S256x1) _ _ hz4,
      load_whole (S := S1x2048) _ _ hz4, load_whole (S := S2048x64) _ _ hz4, load_whole (S := S256x64) _ _ hz4,
      load_whole (S := S256x1) _ _ hz4, load_whole (S := S64x1) _ _ hz4, load_whole (S := S1x1) _ _ hz4,
      View.readCov_unit_zero (S := S256x64) _ hz4, View.readCov_unit_zero (S := S256x1) _ hz4]
  iexists _; isplitr
  swap; · iexact H7
  ipureintro
  (try sl_unfold_words)
  simp only [read_last_whole (S := S256x64) _ _ hz4, read_last_whole (S := S256x1) _ _ hz4,
    load_whole (S := S1x2048) _ _ hz4, load_whole (S := S2048x64) _ _ hz4, load_whole (S := S256x64) _ _ hz4,
    load_whole (S := S256x1) _ _ hz4, load_whole (S := S64x1) _ _ hz4, load_whole (S := S1x1) _ _ hz4,
    View.readCov_unit_zero (S := S256x64) _ hz4, View.readCov_unit_zero (S := S256x1) _ hz4]

set_option maxHeartbeats 1000000 in
/-- CASE C, the last tile. As case B, and then the body loads both accumulators back, the head's weights and bias,
    and stores the output whole: the logistic of the pooled means' image under the head. The output's buffer comes in
    at anything. -/
theorem run4_C (c : Dev nD) (E : Set ℕ) (i : grid4.Coords)
    (arg1 : Memref sig .tc .vmem S1x2048 .i32) (harg1 : arg1.IsWhole) (arg2 : Memref sig .tc .vmem S2048x64 .f32) (harg2 : arg2.IsWhole)
    (arg3 : Memref sig .tc .vmem S64x1 .f32) (harg3 : arg3.IsWhole) (arg4 : Memref sig .tc .vmem S1x1 .f32) (harg4 : arg4.IsWhole)
    (arg5 : Memref sig .tc .vmem S256x1 .f32) (harg5 : arg5.IsWhole) (arg6 : Memref sig .tc .vmem S256x64 .f32) (harg6 : arg6.IsWhole)
    (arg7 : Memref sig .tc .vmem S256x1 .f32) (harg7 : arg7.IsWhole)
    (hc0 : ¬cond4_0 i) (hc1 : cond4_1 i)
    (b : Vec F S1x2048 .i32) (h : Vec F S2048x64 .f32) (w : Vec F S64x1 .f32) (bf : Vec F S1x1 .f32)
    (s : Vec F S256x64 .f32) (n : Vec F S256x1 .f32) (K : PUnit → sProp 𝕄) :
    iprop(owns (c : Thread nD τ) arg1 fullShare b
        ∗ owns (c : Thread nD τ) arg2 fullShare h
        ∗ owns (c : Thread nD τ) arg3 fullShare w
        ∗ owns (c : Thread nD τ) arg4 fullShare bf
        ∗ (∃ d, owns (c : Thread nD τ) arg5 fullShare d)
        ∗ owns (c : Thread nD τ) arg6 fullShare s
        ∗ owns (c : Thread nD τ) arg7 fullShare n
        ∗ (iprop(owns (c : Thread nD τ) arg1 fullShare b
            ∗ owns (c : Thread nD τ) arg2 fullShare h
            ∗ owns (c : Thread nD τ) arg3 fullShare w
            ∗ owns (c : Thread nD τ) arg4 fullShare bf
            ∗ owns (c : Thread nD τ) arg5 fullShare (k4_pay6 (k4_pay4 b h s) (k4_pay5 b n) w bf)
            ∗ owns (c : Thread nD τ) arg6 fullShare (k4_pay4 b h s)
            ∗ owns (c : Thread nD τ) arg7 fullShare (k4_pay5 b n)) -∗ K ⟨⟩))
      ⊢ wp frame (wpE (defs₀ (F := F)) Variants.none c none) E (cc4__lambda_ i arg1 harg1 arg2 harg2 arg3 harg3 arg4 harg4 arg5 harg5 arg6 harg6 arg7 harg7) K := by
  simp only [cc4__lambda__eq_skeleton]; unfold cc4__lambda__skel
  unfold owns
  iintro ⟨⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
  subst hf1; subst hf2; subst hf3; subst hf4; subst hf6; subst hf7
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    (try sl_unfold_words)
    simp only [read_last_whole (S := S256x64) _ _ hz4, read_last_whole (S := S256x1) _ _ hz4,
      load_whole (S := S1x2048) _ _ hz4, load_whole (S := S2048x64) _ _ hz4, load_whole (S := S256x64) _ _ hz4,
      load_whole (S := S256x1) _ _ hz4, load_whole (S := S64x1) _ _ hz4, load_whole (S := S1x1) _ _ hz4,
      View.readCov_unit_zero (S := S256x64) _ hz4, View.readCov_unit_zero (S := S256x1) _ hz4]
  isplitl [H6]
  · iexists _; isplitr
    swap; · iexact H6
    ipureintro
    (try sl_unfold_words)
    simp only [read_last_whole (S := S256x64) _ _ hz4, read_last_whole (S := S256x1) _ _ hz4,
      load_whole (S := S1x2048) _ _ hz4, load_whole (S := S2048x64) _ _ hz4, load_whole (S := S256x64) _ _ hz4,
      load_whole (S := S256x1) _ _ hz4, load_whole (S := S64x1) _ _ hz4, load_whole (S := S1x1) _ _ hz4,
      View.readCov_unit_zero (S := S256x64) _ hz4, View.readCov_unit_zero (S := S256x1) _ hz4]
  iexists _; isplitr
  swap; · iexact H7
  ipureintro
  (try sl_unfold_words)
  simp only [read_last_whole (S := S256x64) _ _ hz4, read_last_whole (S := S256x1) _ _ hz4,
    load_whole (S := S1x2048) _ _ hz4, load_whole (S := S2048x64) _ _ hz4, load_whole (S := S256x64) _ _ hz4,
    load_whole (S := S256x1) _ _ hz4, load_whole (S := S64x1) _ _ hz4, load_whole (S := S1x1) _ _ hz4,
    View.readCov_unit_zero (S := S256x64) _ hz4, View.readCov_unit_zero (S := S256x1) _ hz4]

end Cert.KernelIdeal.Hand

end
-- ==== Proof.KI.PoolFrame.lean ====
/-
  Region 4, the pooling kernel: the frame half. The two accumulators are carried from point to point, so what they
  hold after each point is a recursion over the points (`sc4`): after the first, the tile's contribution added to
  zeros; after a later one, the tile's contribution added to what the point before left. The region's invariant
  says exactly that: before the first point the class's (both accumulators at anything); before a later point both
  accumulators at what the point before left. The output window is idle at every point but the last, where the body
  stores into it the head applied to the pooled means; there the pipeline writes it back.
-/
import proofs.«409485_j54838142435789_2_alg».proof.Proof.KI.PoolBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the two accumulators hold after each point -/

/-- The sums (256 × 64) and the counts (256 × 1) after the body at point `n`. -/
def sc4 (c : Dev nD) : (n : ℕ) → n < cfg4.N → Vec F S256x64 .f32 × Vec F S256x1 .f32
  | 0, hn => (k4_pay4 (iblk4 V c 0 ⟨0, hn⟩) (iblk4 V c 1 ⟨0, hn⟩) k4_pay1, k4_pay5 (iblk4 V c 0 ⟨0, hn⟩) k4_pay2)
  | n + 1, hn => (k4_pay4 (iblk4 V c 0 ⟨n + 1, hn⟩) (iblk4 V c 1 ⟨n + 1, hn⟩) (sc4 c n (Nat.lt_of_succ_lt hn)).1,
      k4_pay5 (iblk4 V c 0 ⟨n + 1, hn⟩) (sc4 c n (Nat.lt_of_succ_lt hn)).2)

theorem sc4_zero (c : Dev nD) (h0 : 0 < cfg4.N) :
    sc4 V c 0 h0 = (k4_pay4 (iblk4 V c 0 ⟨0, h0⟩) (iblk4 V c 1 ⟨0, h0⟩) k4_pay1, k4_pay5 (iblk4 V c 0 ⟨0, h0⟩) k4_pay2) := rfl

theorem sc4_succ (c : Dev nD) (n : ℕ) (hn : n + 1 < cfg4.N) :
    sc4 V c (n + 1) hn = (k4_pay4 (iblk4 V c 0 ⟨n + 1, hn⟩) (iblk4 V c 1 ⟨n + 1, hn⟩) (sc4 V c n (Nat.lt_of_succ_lt hn)).1,
      k4_pay5 (iblk4 V c 0 ⟨n + 1, hn⟩) (sc4 V c n (Nat.lt_of_succ_lt hn)).2) := rfl

/-- At the first point: over zeros. -/
theorem sc4_first (c : Dev nD) (t : Fin cfg4.N) (h0 : t.val = 0) :
    sc4 V c t.val t.isLt = (k4_pay4 (iblk4 V c 0 t) (iblk4 V c 1 t) k4_pay1, k4_pay5 (iblk4 V c 0 t) k4_pay2) := by
  obtain ⟨n, hn⟩ := t
  cases n with
  | zero => rfl
  | succ n => exact absurd h0 (Nat.succ_ne_zero n)

/-- At a later point: over what the point before left. -/
theorem sc4_later (c : Dev nD) (t : Fin cfg4.N) (h0 : t.val ≠ 0) :
    sc4 V c t.val t.isLt = (k4_pay4 (iblk4 V c 0 t) (iblk4 V c 1 t) (sc4 V c (t.val - 1) (Nat.lt_of_le_of_lt (Nat.sub_le _ _) t.isLt)).1,
      k4_pay5 (iblk4 V c 0 t) (sc4 V c (t.val - 1) (Nat.lt_of_le_of_lt (Nat.sub_le _ _) t.isLt)).2) := by
  obtain ⟨n, hn⟩ := t
  cases n with
  | zero => exact absurd rfl h0
  | succ n => rfl

/-! ## The invariant -/

/-- Before point `n`: before the first the class's invariant; afterwards each accumulator at what the point before
    left in it, the other scoped buffers and the generator register at anything. -/
def Phi4 (c : Dev nD) : (n : ℕ) → n ≤ cfg4.N → sProp 𝕄
  | 0, _ => Pipeline.ΦA spec4 c
  | n + 1, hn => iprop((iprop(owns (c : Thread nD τ) scM4_0 fullShare (sc4 V c n hn).1 ∗ owns (c : Thread nD τ) scM4_1 fullShare (sc4 V c n hn).2) ∗ rest4 c)
      ∗ ∃ r, prngReg c r)

theorem Phi4_zero (c : Dev nD) (n : ℕ) (h : n ≤ cfg4.N) (hz : n = 0) : Phi4 V c n h = Pipeline.ΦA spec4 c := by
  subst hz; rfl

theorem Phi4_succ (c : Dev nD) (n : ℕ) (hn : n < cfg4.N) :
    Phi4 V c (n + 1) hn = iprop((iprop(owns (c : Thread nD τ) scM4_0 fullShare (sc4 V c n hn).1 ∗ owns (c : Thread nD τ) scM4_1 fullShare (sc4 V c n hn).2) ∗ rest4 c)
      ∗ ∃ r, prngReg c r) := rfl

theorem Phi4_pos (c : Dev nD) (n : ℕ) (h : n ≤ cfg4.N) (hz : n ≠ 0) :
    Phi4 V c n h = iprop((iprop(owns (c : Thread nD τ) scM4_0 fullShare (sc4 V c (n - 1) (by omega)).1
        ∗ owns (c : Thread nD τ) scM4_1 fullShare (sc4 V c (n - 1) (by omega)).2) ∗ rest4 c)
      ∗ ∃ r, prngReg c r) := by
  cases n with
  | zero => exact absurd rfl hz
  | succ n => rfl

/-! ## The proof data -/

/-- The proof data of this region on core `c`: the arrays as the region finds them; after the body at point `t` each
    input's buffer at its block, and the output's at the head applied to the pooled means of what the accumulators
    hold then (consulted at the last point only: elsewhere the window is idle); the invariant above; nothing owed;
    full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => k4_pay6 (sc4 V c t.val t.isLt).1 (sc4 V c t.val t.isLt).2 (iblk4 V c 2 t) (iblk4 V c 3 t)
  Φ t := Phi4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem Phi4_castSucc (c : Dev nD) (t : Fin cfg4.N) :
    (dat4 V c).Φ t.castSucc = Phi4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) :
    (dat4 V c).after 4 t = k4_pay6 (sc4 V c t.val t.isLt).1 (sc4 V c t.val t.isLt).2 (iblk4 V c 2 t) (iblk4 V c 3 t) := by
  dsimp only [dat4]

/-- The output at the last point: the head applied to the pooled means of the final accumulators. -/
theorem out4_last (c : Dev nD) (hL : 48 < cfg4.N) :
    (dat4 V c).after 4 ⟨48, hL⟩ = k4_pay6 (sc4 V c 48 hL).1 (sc4 V c 48 hL).2 (iblk4 V c 2 ⟨48, hL⟩) (iblk4 V c 3 ⟨48, hL⟩) := by
  dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-! ## The body obligation -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

/-- and what it returns: the inputs' buffers at their blocks; the output's, where the window is idle, as it was
    handed over, and at the last point at the stored output. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ (dat4 V c).leavesExact 4 t)

set_option maxHeartbeats 4000000 in
/-- The body at any point. The closed forms of the two conditions say which case the point is in; the invariant hands
    the body the accumulators (at anything at the first point, at what the point before left afterwards) and takes them
    back at this point's contents; off the last point the output's buffer goes through untouched. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).owesAt () t.succ = (dat4 V c).owesAt () t.castSucc from rfl,
    show (dat4 V c).Φ t.succ = Phi4 V c (t.val + 1) t.isLt from rfl, Phi4_succ,
    after4_0, after4_1, after4_2, after4_3, Phi4_castSucc]
  have hN : t.val < 49 := lt_of_lt_of_eq t.isLt (show cfg4.N = 49 from N_4)
  by_cases h0 : t.val = 0
  · have h48 : t.val ≠ 48 := by omega
    rw [Dat.leavesExact_idle (dat4 V c) 4 t (idle4_4 t h48) (noFlush4_4 t h48), Phi4_zero V c _ _ h0, PhiA4_eq, sc4_first V c t h0]
    dsimp only
    iintro ⟨⟨⟨⟨HS0, HS1⟩, HR⟩, Hg⟩, Ho, ⟨%d0, H0⟩, ⟨%d1, H1⟩, ⟨%d2, H2⟩, ⟨%d3, H3⟩, ⟨%d4, H4⟩⟩
    iapply (run4_A c Set.univ (grid4.coords t) (ms4_0 t) (hs4_0 t) (ms4_1 t) (hs4_1 t) (ms4_2 t) (hs4_2 t) (ms4_3 t) (hs4_3 t) (ms4_4 t) (hs4_4 t)
      scM4_0 (Memref.isWhole_whole _) scM4_1 (Memref.isWhole_whole _)
      ((hcond4_0 t).mpr h0) (fun h => h48 ((hcond4_1 t).mp h))
      (iblk4 V c 0 t) (iblk4 V c 1 t) (iblk4 V c 2 t) (iblk4 V c 3 t) ((dat4 V c).before 4 t d4) _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    iexists _; iexact H4
  · by_cases h48 : t.val = 48
    · rw [show (dat4 V c).leavesExact 4 t = owns (c : Thread nD τ) (st4_4 t) fullShare ((dat4 V c).after 4 t) from by
        unfold Dat.leavesExact; rw [live4_4 t h48], after4_4, Phi4_pos V c _ _ h0, sc4_later V c t h0]
      dsimp only
      iintro ⟨⟨⟨⟨HS0, HS1⟩, HR⟩, Hg⟩, Ho, ⟨%d0, H0⟩, ⟨%d1, H1⟩, ⟨%d2, H2⟩, ⟨%d3, H3⟩, ⟨%d4, H4⟩⟩
      iapply (run4_C c Set.univ (grid4.coords t) (ms4_0 t) (hs4_0 t) (ms4_1 t) (hs4_1 t) (ms4_2 t) (hs4_2 t) (ms4_3 t) (hs4_3 t) (ms4_4 t) (hs4_4 t)
      scM4_0 (Memref.isWhole_whole _) scM4_1 (Memref.isWhole_whole _)
        (fun h => h0 ((hcond4_0 t).mp h)) ((hcond4_1 t).mpr h48)
        (iblk4 V c 0 t) (iblk4 V c 1 t) (iblk4 V c 2 t) (iblk4 V c 3 t) (sc4 V c (t.val - 1) (Nat.lt_of_le_of_lt (Nat.sub_le _ _) t.isLt)).1 (sc4 V c (t.val - 1) (Nat.lt_of_le_of_lt (Nat.sub_le _ _) t.isLt)).2 _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, H4, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      iexact H4
    · rw [Dat.leavesExact_idle (dat4 V c) 4 t (idle4_4 t h48) (noFlush4_4 t h48), Phi4_pos V c _ _ h0, sc4_later V c t h0]
      dsimp only
      iintro ⟨⟨⟨⟨HS0, HS1⟩, HR⟩, Hg⟩, Ho, ⟨%d0, H0⟩, ⟨%d1, H1⟩, ⟨%d2, H2⟩, ⟨%d3, H3⟩, ⟨%d4, H4⟩⟩
      iapply (run4_B c Set.univ (grid4.coords t) (ms4_0 t) (hs4_0 t) (ms4_1 t) (hs4_1 t) (ms4_2 t) (hs4_2 t) (ms4_3 t) (hs4_3 t) (ms4_4 t) (hs4_4 t)
      scM4_0 (Memref.isWhole_whole _) scM4_1 (Memref.isWhole_whole _)
        (fun h => h0 ((hcond4_0 t).mp h)) (fun h => h48 ((hcond4_1 t).mp h))
        (iblk4 V c 0 t) (iblk4 V c 1 t) (iblk4 V c 2 t) (iblk4 V c 3 t) ((dat4 V c).before 4 t d4) (sc4 V c (t.val - 1) (Nat.lt_of_le_of_lt (Nat.sub_le _ _) t.isLt)).1 (sc4 V c (t.val - 1) (Nat.lt_of_le_of_lt (Nat.sub_le _ _) t.isLt)).2 _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      iexists _; iexact H4

/-- The pipeline rule's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = Phi4 V c 0 (Nat.zero_le _) from rfl, Phi4_zero V c 0 _ rfl]
  try exact Idealize.SL.BI.Entails.refl _

/-- After any point the invariant gives the class's back: what the accumulators hold is forgotten. -/
theorem Phi4_out (c : Dev nD) (t : Fin (cfg4.N + 1)) (ht : t.val ≠ 0) : (dat4 V c).Φ t ⊢ Pipeline.ΦA spec4 c := by
  rw [show (dat4 V c).Φ t = Phi4 V c t.val (Nat.le_of_lt_succ t.isLt) from rfl, Phi4_pos V c _ _ ht, PhiA4_eq]
  iintro ⟨⟨⟨HS0, HS1⟩, HR⟩, Hg⟩
  isplitl [HS0 HS1 HR]
  · isplitl [HS0 HS1]
    · isplitl [HS0]; · iexists _; iexact HS0
      iexists _; iexact HS1
    iexact HR
  iexact Hg

/-- The same after the last point. -/
theorem hout4 (c : Dev nD) : (dat4 V c).Φ (Fin.last cfg4.N) ⊢ Pipeline.ΦA spec4 c :=
  Phi4_out V c _ (by rw [Fin.val_last]; have : cfg4.N = 49 := N_4; omega)

end Cert.KernelIdeal.Hand

end
-- ==== Proof.KI.Reg4.lean ====
/-
  The pooling region as a segment of @main. It is entered holding every unscoped buffer at the contents `Wh` and left
  holding them at `Wi`, which differs from `Wh` only at the pooled result's array. At entry its five arrays (the padded
  graph ids as one row, the padded activations, the head's weights, its bias as a 1 × 1 array, the result) are split out
  of the unscoped buffers; at exit the four inputs are put back as they were and the result at what the one write-back,
  at the last point, leaves. The region's invariant starts as the plain one (the scoped buffers at anything, the
  generator register) and, from the first point on, owns the two carried scratch arrays at the running sums and
  counts; at the end it gives the plain one back. The kernel has no semaphore of its own and owes nothing.
-/
import proofs.«409485_j54838142435789_2_alg».proof.Proof.KI.Run
import proofs.«409485_j54838142435789_2_alg».proof.Proof.KI.PoolFrame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The pooling region's proof data, at the contents it is entered with. -/
abbrev d4f (c : Dev nD) : Dat τ (Elt F) Unit ℕ (UR sig nD τ) ℕ cfg4 c := dat4 (Eh m) c

/-- The four inputs end as entered: no write-back touches an input window's array. -/
theorem arr4_in0 (c : Dev nD) : (dat4 (Eh m) c).arrAt 0 cfg4.N = Wh m c main_v64 :=
  ((dat4 (Eh m) c).arrAt_in 0 rfl cfg4.N).trans (A_eq4 (Eh m) c 0)
theorem arr4_in1 (c : Dev nD) : (dat4 (Eh m) c).arrAt 1 cfg4.N = Wh m c main_v62 :=
  ((dat4 (Eh m) c).arrAt_in 1 rfl cfg4.N).trans (A_eq4 (Eh m) c 1)
theorem arr4_in2 (c : Dev nD) : (dat4 (Eh m) c).arrAt 2 cfg4.N = Wh m c main_arg7 :=
  ((dat4 (Eh m) c).arrAt_in 2 rfl cfg4.N).trans (A_eq4 (Eh m) c 2)
theorem arr4_in3 (c : Dev nD) : (dat4 (Eh m) c).arrAt 3 cfg4.N = Wh m c main_v65 :=
  ((dat4 (Eh m) c).arrAt_in 3 rfl cfg4.N).trans (A_eq4 (Eh m) c 3)

/-- At the region's exit each of its arrays holds what the pipeline leaves, -/
theorem hF4 (c : Dev nD) (w : Fin cfg4.W) : (dat4 (Eh m) c).arrAt w cfg4.N = Wi m (d4f m) c (Pipeline.arrRef spec4 w) := by
  match w with
  | ⟨0, _⟩ => exact (arr4_in0 m c).trans (by
      simp only [Wi, Function.update_of_ne (StableHlo.devRef_ne_of_ne (by decide) : (Proc.devRef .tc main_v64 : DevRef τ sig) ≠ Proc.devRef .tc main_v66)])
  | ⟨1, _⟩ => exact (arr4_in1 m c).trans (by
      simp only [Wi, Function.update_of_ne (StableHlo.devRef_ne_of_ne (by decide) : (Proc.devRef .tc main_v62 : DevRef τ sig) ≠ Proc.devRef .tc main_v66)])
  | ⟨2, _⟩ => exact (arr4_in2 m c).trans (by
      simp only [Wi, Function.update_of_ne (StableHlo.devRef_ne_of_ne (by decide) : (Proc.devRef .tc main_arg7 : DevRef τ sig) ≠ Proc.devRef .tc main_v66)])
  | ⟨3, _⟩ => exact (arr4_in3 m c).trans (by
      simp only [Wi, Function.update_of_ne (StableHlo.devRef_ne_of_ne (by decide) : (Proc.devRef .tc main_v65 : DevRef τ sig) ≠ Proc.devRef .tc main_v66)])
  | ⟨4, _⟩ => simp only [Wi, o66, Function.update_self]; rfl
/-- and every other buffer what it held at entry. -/
theorem hrest4 (c : Dev nD) : ∀ b, b ∉ Finset.univ.image (Pipeline.arrRef spec4) → Wi m (d4f m) c b = Wh m c b := fun b hb => by
  unfold Wi
  exact Function.update_of_ne (StableHlo.devRef_ne_of_ne (fun e => hb (Finset.mem_image.mpr ⟨4, Finset.mem_univ _, by subst e; rfl⟩)) :
    (Proc.devRef .tc b : DevRef τ sig) ≠ Proc.devRef .tc main_v66) _ _

set_option backward.isDefEq.respectTransparency.types false in
def reg4 : Pipeline.RegionSeg (pcfgs (F := F)) adm (pdats m (d4f m)) () defs₀ 𝒱n Ln lvn 4 where
  win := launch4.win.to₀
  block_pos := launch4.block_pos
  stage_whole := launch4.stage_whole
  K := PEmpty
  osem k := k.elim
  ho := Pipeline.OwnSemFacts.none _
  hbody c := (body_obligation4 (Eh m) c).loose
  hwaits := Pipeline.hwaits_of_owed_zero _ _ _ _ Ln lvn 4 fun _ _ => rfl
  pre c := iprop(StableHlo.held (c : Thread nD τ) (Pipeline.ucRefs τ sig) (Wh m c) ∗ Rst c)
  post c := iprop(StableHlo.held (c : Thread nD τ) (Pipeline.ucRefs τ sig) (Wi m (d4f m) c) ∗ Rst c)
  X c := iprop(∃ r, prngReg c r)
  Y c := iprop(∃ r, prngReg c r)
  Z c := Pipeline.unscopedRest (Ix := Unit) (Name := ℕ) (U := UR sig nD τ) (Lvl := ℕ) spec4 c (Eh m c)
  hentry c := by
    rw [Pipeline.ownSems0_none]
    have hsplit := Pipeline.arrays_of_unscopedBufs (p := 4) (pcfgs (F := F)) adm (pdats m (d4f m)) launch4.win launch4.arr_whole c
      ((pdats m (d4f m) 4 c).share_full fun _ => rfl) (Eh m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    show _ ⊢ (dat4 (Eh m) c).Φ 0
    refine BIBase.Entails.trans ?_ (hin4 (Eh m) c)
    unfold Pipeline.ΦA
    iintro ⟨Hp, -, Hr⟩
    isplitl [Hr]; · iexact Hr
    iexact Hp
  hout c := by
    rw [Pipeline.ownSems0_none]
    show (dat4 (Eh m) c).Φ (Fin.last cfg4.N) ⊢ _
    refine (hout4 (Eh m) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m (d4f m)) ((pdats m (d4f m) 4 c).share_full fun _ => rfl)
      (Eh m c) (fun b => Wi m (d4f m) c b) ((pdats m (d4f m) 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The idealized kernel program's frame: from any launch memory with zero counters every weakly fair execution of
    @main terminates, nothing faulting, and the nine argument arrays end as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m (d4f m) ρ (reg4 m) (fun _ => .rfl) (fun _ => .rfl)

end Cert.KernelIdeal.Hand

end
-- ==== Proof.RefFrame.lean ====
/-
  The reference program has no kernel: its run is a straight line of host operations, every one total, so every
  weakly fair execution ends with each buffer at the operations' composed value of the arguments. Its frame is that
  run with the result forgotten: the argument arrays are written by no operation.
-/
import proofs.«409485_j54838142435789_2_alg».proof.Defs
import proofs.«409485_j54838142435789_2_alg».proof.Proof.RefRun

noncomputable section

namespace Cert.Proof.RefFrame

open Idealize.ShloMosaic Idealize.SL.Sem

theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

end Cert.Proof.RefFrame

end
-- ==== Proof.KI.KOps.lean ====
/-
  The idealized kernel program's values as one straight line of host operations. Between its five regions the program
  runs host operations; a region, seen from outside, replaces one buffer by a function of a few others. Here each
  region is written as a single host operation computing that function, and the function is spelt as the reference
  spells the same step: the projection as the host's contraction `x · W`; bias and rectifier as
  `max (a + b, 0)` with the bias row broadcast over the rows; the pooling tail as scatter-added sums and counts over the
  graph ids, the quotient by `max (count, 1)`, the contraction with the head's weights, the bias, and the logistic
  written `1 / (1 + e^{-z})`. That a region really leaves this value is proved region by region elsewhere; the line
  below is what the comparison with the reference is made against.
-/
import proofs.«409485_j54838142435789_2_alg».proof.KernelIdeal
import proofs.«409485_j54838142435789_2_alg».proof.ReferenceIdeal
import proofs.«409485_j54838142435789_2_alg».proof.Proof.Gen.KernelIdeal.Launch
import proofs.«409485_j54838142435789_2_alg».proof.Proof.Gen.ReferenceIdeal
import Idealize.ShloMosaic.Lib.StableHlo.Run

noncomputable section

namespace Cert.KernelIdeal.Hand

open Cert.KernelIdeal Cert.KernelIdeal.Gen
open Idealize.ShloMosaic Idealize.ShloMosaic.TcCoe Idealize.SL.Sem

variable {F : FTy → Type} [FloatOps F]

/-- A layer's projection of all 100000 rows at once: `(x · W) i j = ∑ₖ x i k · W k j`. -/
def linF (x : FVec F S100000x64 .f32) (w : FVec F S64x64 .f32) : FVec F S100000x64 .f32 :=
  Host.dotGeneral Cert.ReferenceIdeal.dot_S100000x64_S64x64_S100000x64_1_0_0_1_n_n none x w

/-- A layer's bias and rectifier: `max (a i j + b j, 0)`. -/
def biasReluF (a : FVec F S100000x64 .f32) (b : FVec F S64 .f32) : FVec F S100000x64 .f32 :=
  maximumf
    (addf a (broadcastInDim S100000x64 ![0, 1] Cert.ReferenceIdeal.Facts₀.bcast_S1x64_S100000x64_0_1
      (broadcastInDim S1x64 ![1] Cert.ReferenceIdeal.Facts₀.bcast_S64_S1x64_1 b)))
    (broadcastInDim S100000x64 ![] Cert.ReferenceIdeal.Facts₀.bcast_S_S100000x64 (constant S_ .f32 0x00000000#32))

/-- The sum of the rows of `h` whose graph id is `g`, per graph `g` and feature. -/
def poolSumF (h : FVec F S100000x64 .f32) (batch : IVec S100000 32) : FVec F S256x64 .f32 :=
  Host.scatterAdd Cert.ReferenceIdeal.scatter_S256x64_S100000x1_S100000x64_1_0_0_1
    (broadcastInDim S256x64 ![] Cert.ReferenceIdeal.Facts₀.bcast_S_S256x64 (constant S_ .f32 0x00000000#32))
    (broadcastInDim Cert.ReferenceIdeal.S100000x1 ![0] Cert.ReferenceIdeal.Facts₀.bcast_S100000_S100000x1_0 batch) h

/-- The number of rows whose graph id is `g`, per graph `g`. -/
def poolCntF (batch : IVec S100000 32) : FVec F S256 .f32 :=
  Host.scatterAdd Cert.ReferenceIdeal.scatter_S256_S100000x1_S100000_n_0_0_1
    (broadcastInDim S256 ![] Cert.ReferenceIdeal.Facts₀.bcast_S_S256 (constant S_ .f32 0x00000000#32))
    (broadcastInDim Cert.ReferenceIdeal.S100000x1 ![0] Cert.ReferenceIdeal.Facts₀.bcast_S100000_S100000x1_0 batch)
    (broadcastInDim S100000 ![] Cert.ReferenceIdeal.Facts₀.bcast_S_S100000 (constant S_ .f32 0x3F800000#32))

/-- The pooling tail: the mean of each graph's rows (the count floored at one), the head's contraction and bias, and
    the logistic `1 / (1 + e^{-z})`. -/
def poolF (h : FVec F S100000x64 .f32) (batch : IVec S100000 32) (wfc : FVec F S64x1 .f32) (bfc : FVec F S1 .f32) :
    FVec F S256x1 .f32 :=
  Host.divf (broadcastInDim S256x1 ![] Cert.ReferenceIdeal.Facts₀.bcast_S_S256x1 (constant S_ .f32 0x3F800000#32))
    (addf (broadcastInDim S256x1 ![] Cert.ReferenceIdeal.Facts₀.bcast_S_S256x1 (constant S_ .f32 0x3F800000#32))
      (Host.exp (Host.negf (addf
        (Host.dotGeneral Cert.ReferenceIdeal.dot_S256x64_S64x1_S256x1_1_0_0_1_n_n none
          (Host.divf (poolSumF h batch)
            (broadcastInDim S256x64 ![0, 1] Cert.ReferenceIdeal.Facts₀.bcast_S256x1_S256x64_0_1
              (broadcastInDim S256x1 ![0] Cert.ReferenceIdeal.Facts₀.bcast_S256_S256x1_0
                (maximumf (poolCntF (F := F) batch)
                  (broadcastInDim S256 ![] Cert.ReferenceIdeal.Facts₀.bcast_S_S256 (constant S_ .f32 0x3F800000#32))))))
          wfc)
        (broadcastInDim S256x1 ![0, 1] Cert.ReferenceIdeal.Facts₀.bcast_S1x1_S256x1_0_1
          (broadcastInDim S1x1 ![1] Cert.ReferenceIdeal.Facts₀.bcast_S1_S1x1_1 bfc))))))

/-- The five regions, each as one host operation. -/
abbrev opLin1 : HloOp τ sig (Elt F) := StableHlo.binary main_arg0 main_arg3 main_v30 (linF (F := F))
abbrev opBias1 : HloOp τ sig (Elt F) := StableHlo.binary main_v43 main_arg4 main_v45 (biasReluF (F := F))
abbrev opLin2 : HloOp τ sig (Elt F) := StableHlo.binary main_v45 main_arg5 main_v46 (linF (F := F))
abbrev opBias2 : HloOp τ sig (Elt F) := StableHlo.binary main_v59 main_arg6 main_v61 (biasReluF (F := F))
abbrev opPool : HloOp τ sig (Elt F) :=
  StableHlo.nary ![main_v61, main_arg2, main_arg7, main_arg8] main_v66
    (fun g => poolF (F := F) (g 0) (g 1) (g 2) (g 3))

/-- The whole line: the program's host stretches in order, each region in its place. -/
abbrev kops : List (HloOp τ sig (Elt F)) :=
  hostOps0 ++ hostOps0_1 ++ hostOps0_2 ++ [opLin1] ++ hostOps1 ++ [opBias1, opLin2] ++ hostOps3 ++ [opBias2]
    ++ hostOps4 ++ hostOps4_1 ++ hostOps4_2 ++ hostOps4_3 ++ hostOps4_4 ++ [opPool]

end Cert.KernelIdeal.Hand

end
-- ==== Proof.KI.LinFAt.lean ====
/-
  The whole-array projection `x · W` of all 100000 rows, read at one entry at the extended reals: entry `(i, j)` is the
  sum over the 64 contracted positions `k` of `x i k · W k j`. The host's contraction over one axis sums over a
  one-coordinate contraction index; the four lemmas before it say where each operand is read on each of its axes (the free
  axis at the output's coordinate, the contracted axis at the contraction index's coordinate).
-/
import proofs.«409485_j54838142435789_2_alg».proof.Proof.KI.KOps
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open scoped BigOperators

/-- The left operand's row coordinate is the output's. -/
theorem linF_lhs_0 (i : S100000x64.Idx) (q : Cert.ReferenceIdeal.dot_S100000x64_S64x64_S100000x64_1_0_0_1_n_n.contr.Idx) :
    (Cert.ReferenceIdeal.dot_S100000x64_S64x64_S100000x64_1_0_0_1_n_n.lhsIdx i q 0).val = (i 0).val := by
  unfold DotDims.lhsIdx
  rw [dif_neg (show ¬(0 : Fin S100000x64.rank) ∈ Cert.ReferenceIdeal.dot_S100000x64_S64x64_S100000x64_1_0_0_1_n_n.lhsBatch by decide),
    dif_pos (show (0 : Fin S100000x64.rank) ∈ Cert.ReferenceIdeal.dot_S100000x64_S64x64_S100000x64_1_0_0_1_n_n.lhsNonContracting by decide)]
  rfl

/-- The left operand's column coordinate is the contracted position. -/
theorem linF_lhs_1 (i : S100000x64.Idx) (q : Cert.ReferenceIdeal.dot_S100000x64_S64x64_S100000x64_1_0_0_1_n_n.contr.Idx) :
    (Cert.ReferenceIdeal.dot_S100000x64_S64x64_S100000x64_1_0_0_1_n_n.lhsIdx i q 1).val = (q ⟨0, by decide⟩).val :=
  Cert.ReferenceIdeal.dot_S100000x64_S64x64_S100000x64_1_0_0_1_n_n.lhsIdx_val_of_single rfl i q

/-- The right operand's row coordinate is the contracted position. -/
theorem linF_rhs_0 (i : S100000x64.Idx) (q : Cert.ReferenceIdeal.dot_S100000x64_S64x64_S100000x64_1_0_0_1_n_n.contr.Idx) :
    (Cert.ReferenceIdeal.dot_S100000x64_S64x64_S100000x64_1_0_0_1_n_n.rhsIdx i q 0).val = (q ⟨0, by decide⟩).val :=
  Cert.ReferenceIdeal.dot_S100000x64_S64x64_S100000x64_1_0_0_1_n_n.rhsIdx_val_of_single rfl i q

/-- The right operand's column coordinate is the output's. -/
theorem linF_rhs_1 (i : S100000x64.Idx) (q : Cert.ReferenceIdeal.dot_S100000x64_S64x64_S100000x64_1_0_0_1_n_n.contr.Idx) :
    (Cert.ReferenceIdeal.dot_S100000x64_S64x64_S100000x64_1_0_0_1_n_n.rhsIdx i q 1).val = (i 1).val := by
  unfold DotDims.rhsIdx
  rw [dif_neg (show ¬(1 : Fin S64x64.rank) ∈ Cert.ReferenceIdeal.dot_S100000x64_S64x64_S100000x64_1_0_0_1_n_n.rhsBatch by decide),
    dif_pos (show (1 : Fin S64x64.rank) ∈ Cert.ReferenceIdeal.dot_S100000x64_S64x64_S100000x64_1_0_0_1_n_n.rhsNonContracting by decide)]
  rfl

/-- The projection of all rows at row `i`, column `j`: row `i` of `x` against column `j` of the weights. -/
theorem linF_apply (x : FVec Ideal S100000x64 .f32) (w : FVec Ideal S64x64 .f32) (i : Fin 100000) (j : Fin 64) :
    linF (F := Ideal) x w (ix2 i j) = ∑ k : Fin 64, x (ix2 i k) * w (ix2 k j) := by
  unfold linF
  simp only [Host.dotGeneral]
  rw [Ideal.dotGeneral_apply, ← Equiv.sum_comp (contrEquiv1 Cert.ReferenceIdeal.dot_S100000x64_S64x64_S100000x64_1_0_0_1_n_n 64 rfl rfl).symm]
  refine Finset.sum_congr rfl fun k _ => ?_
  have hk := contrEquiv1_symm_val Cert.ReferenceIdeal.dot_S100000x64_S64x64_S100000x64_1_0_0_1_n_n 64 rfl rfl k
  have el : Cert.ReferenceIdeal.dot_S100000x64_S64x64_S100000x64_1_0_0_1_n_n.lhsIdx (ix2 i j) ((contrEquiv1 Cert.ReferenceIdeal.dot_S100000x64_S64x64_S100000x64_1_0_0_1_n_n 64 rfl rfl).symm k) = ix2 i k :=
    funext fun a => Fin.ext (by
      match a with
      | ⟨0, _⟩ => exact linF_lhs_0 _ _
      | ⟨1, _⟩ => exact (linF_lhs_1 _ _).trans hk)
  have er : Cert.ReferenceIdeal.dot_S100000x64_S64x64_S100000x64_1_0_0_1_n_n.rhsIdx (ix2 i j) ((contrEquiv1 Cert.ReferenceIdeal.dot_S100000x64_S64x64_S100000x64_1_0_0_1_n_n 64 rfl rfl).symm k) = ix2 k j :=
    funext fun a => Fin.ext (by
      match a with
      | ⟨0, _⟩ => exact (linF_rhs_0 _ _).trans hk
      | ⟨1, _⟩ => exact linF_rhs_1 _ _)
  rw [el, er]

end Cert.KernelIdeal.Hand

end
-- ==== Proof.KI.ValLin0.lean ====
/-
  What region 0 leaves in its output array, at the extended reals: the projection `x · W` of all 100000 rows, as one
  function of the two input arrays as the region finds them.

  The body's payload at entry `(p, q)` of a block is the sum over the 64 contracted positions `k` of
  (loaded row block) `p k` · (loaded weights) `k q`: the two format changes are the identity on extended reals and
  the accumulator is the zero splat. At point `t` the loaded row block is rows `10000·t … 10000·t + 9999` of the first
  input array and the loaded weights are the whole second array, and the block written back is the same rows of the
  output; so what point `t` writes back is block `t` of the whole-array projection. Row `r` of the output lies in the
  block of point `r / 10000`, so the ten blocks tile the array and it ends at the projection.
-/
import proofs.«409485_j54838142435789_2_alg».proof.Proof.KI.Lin0
import proofs.«409485_j54838142435789_2_alg».proof.Proof.KI.KOps
import proofs.«409485_j54838142435789_2_alg».proof.Proof.KI.LinFAt
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

/-! ## The body's contraction: where each operand is read, axis by axis -/

/-- The left operand's row coordinate is the output's. -/
theorem lhsK0_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide),
    dif_pos (show (0 : Fin S10000x64.rank) ∈ dot_S10000x64_S64x64_S10000x64_1_0_0_1_n_n.lhsNonContracting by decide)]
  rfl

/-- The left operand's column coordinate is the contracted position. -/
theorem lhsK0_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q

/-- The right operand's row coordinate is the contracted position. -/
theorem rhsK0_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q

/-- The right operand's column coordinate is the output's. -/
theorem rhsK0_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide),
    dif_pos (show (1 : Fin S64x64.rank) ∈ dot_S10000x64_S64x64_S10000x64_1_0_0_1_n_n.rhsNonContracting by decide)]
  rfl

/-- The body's payload at row `p`, column `q` of the block: row `p` of the loaded block against column `q` of the
    loaded weights. A shape cast to the same shape and the two format changes are the identity; the accumulator is zero. -/
theorem pay0_apply (x0 : Vec Ideal S10000x64 .f32) (x1 : Vec Ideal S64x64 .f32) (p : Fin 10000) (q : Fin 64) :
    k0_pay1 (F := Ideal) x0 x1 (ix2 p q) = ∑ k : Fin 64, x0 (ix2 p k) * x1 (ix2 k q) := by
  unfold k0_pay1
  simp only [matmul, shapeCast_self]
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k :=
    funext fun a => Fin.ext (by
      match a with
      | ⟨0, _⟩ => exact lhsK0_0 _ _
      | ⟨1, _⟩ => exact (lhsK0_1 _ _).trans hk)
  have er : dot_S10000x64_S64x64_S10000x64_1_0_0_1_n_n.rhsIdx (ix2 p q) ((contrEquiv1 dot_S10000x64_S64x64_S10000x64_1_0_0_1_n_n 64 rfl rfl).symm k) = ix2 k q :=
    funext fun a => Fin.ext (by
      match a with
      | ⟨0, _⟩ => exact (rhsK0_0 _ _).trans hk
      | ⟨1, _⟩ => exact rhsK0_1 _ _)
  rw [truncf_apply, truncf_apply, el, er]

/-! ## From the blocks to the array -/

variable (V : (c : Dev nD) → (b : Ref sig .tc) → Buf (Elt Ideal) ((c : Thread nD τ).loc b))

/-- The zero offsets of a whole-buffer rectangle, as a constant function. -/
theorem hz0 : (![0, 0] : Fin 2 → Nat) = fun _ => 0 := funext fun a => by fin_cases a <;> rfl

/-- The whole-array function the output ends at: the projection of the two input arrays as the region finds them. -/
abbrev G0 (c : Dev nD) : FVec Ideal S100000x64 .f32 :=
  linF (F := Ideal) (V c (Pipeline.arrRef spec0 0)) (V c (Pipeline.arrRef spec0 1))

/-- The printed index maps, decided over the ten points: the row block of the first input moves with the output's,
    the weights' block stays at the origin, and the output's block index is the point's number. -/
theorem idx_facts0 : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole-array projection: entry `(p, q)` of the block is entry
    `(10000·t + p, q)` of the array, the loaded row block is the same rows of the first input, the loaded weights are
    the second input. -/
theorem flushed0_eq (c : Dev nD) (t : Fin cfg0.N) :
    (dat0 (F := Ideal) V c).flushed 2 t = ((cfg0.win 2).blk t).view.read (Elt Ideal) (G0 V c) := by
  show (cfg0.win 2).cut (grid0.coords t) ((dat0 V c).after 2 t) = _
  rw [after0_2]
  unfold out0_2
  rw [View.canon_unit_zero hz0]
  simp only [View.ld_unit_zero (S := S10000x64) hz0, View.ld_unit_zero (S := S64x64) hz0]
  obtain ⟨e0, e1, e2, e3, e4, e5⟩ := idx_facts0 t
  have ht : t.val < 10 := lt_of_lt_of_eq t.isLt N_0
  refine funext fun (y : S10000x64.Idx) => ?_
  obtain ⟨p, q, rfl⟩ : ∃ (p : Fin 10000) (q : Fin 64), y = ix2 p q := ⟨y 0, y 1, eq_ix2 y⟩
  show k0_pay1 (iblk0 V c 0 t) (iblk0 V c 1 t) (ix2 p q) = G0 V c (((cfg0.win 2).blk t).view.emb (ix2 p q))
  have hP : 10000 * t.val + p.val < 100000 := by have := p.isLt; omega
  have h2 : ((cfg0.win 2).blk t).view.emb (ix2 p q) = ix2 (⟨10000 * t.val + p.val, hP⟩ : Fin 100000) q := by
    funext a; apply Fin.ext
    match a with
    | ⟨0, _⟩ => show win0_2.index t (0 : Fin 2) * 10000 + 1 * p.val = 10000 * t.val + p.val; omega
    | ⟨1, _⟩ => show win0_2.index t (1 : Fin 2) * 64 + 1 * q.val = q.val; omega
  rw [h2, pay0_apply]
  unfold G0
  rw [linF_apply]
  refine Finset.sum_congr rfl fun k _ => ?_
  have h0 : ((cfg0.win 0).blk t).view.emb (ix2 p k) = ix2 (⟨10000 * t.val + p.val, hP⟩ : Fin 100000) k := by
    funext a; apply Fin.ext
    match a with
    | ⟨0, _⟩ => show win0_0.index t (0 : Fin 2) * 10000 + 1 * p.val = 10000 * t.val + p.val; omega
    | ⟨1, _⟩ => show win0_0.index t (1 : Fin 2) * 64 + 1 * k.val = k.val; omega
  have h1 : ((cfg0.win 1).blk t).view.emb (ix2 k q) = ix2 k q := by
    funext a; apply Fin.ext
    match a with
    | ⟨0, _⟩ => show win0_1.index t (0 : Fin 2) * 64 + 1 * k.val = k.val; omega
    | ⟨1, _⟩ => show win0_1.index t (1 : Fin 2) * 64 + 1 * q.val = q.val; omega
  have a0 : (iblk0 V c 0 t : FVec Ideal S10000x64 .f32) (ix2 p k)
      = (V c (Pipeline.arrRef spec0 0) : FVec Ideal S100000x64 .f32) (ix2 (⟨10000 * t.val + p.val, hP⟩ : Fin 100000) k) :=
    congrArg (V c (Pipeline.arrRef spec0 0)) h0
  have a1 : (iblk0 V c 1 t : FVec Ideal S64x64 .f32) (ix2 k q) = (V c (Pipeline.arrRef spec0 1) : FVec Ideal S64x64 .f32) (ix2 k q) :=
    congrArg (V c (Pipeline.arrRef spec0 1)) h1
  exact congrArg₂ (· * ·) a0 a1

/-- An index of the output array is in point `t`'s block iff each coordinate is in the block's range on its axis. -/
theorem mem_blk0 (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole (Pipeline.arrRef spec0 2)).slice (win0_2.rect t)).set ↔ _
  rw [View.set_slice_whole, Rect.mem_set_unit]
  exact Iff.rfl

/-- The ten row blocks tile the output array: row `r` lies in the block of point `r / 10000`. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ : ∃ t : Fin cfg0.N, t.val = (i 0).val / 10000 :=
    ⟨⟨(i 0).val / 10000, lt_of_lt_of_eq (by omega) N_0.symm⟩, rfl⟩
  obtain ⟨e0, e1, e2, e3, e4, e5⟩ := idx_facts0 t
  refine ⟨t, flush0_2 t, ?_⟩
  rw [mem_blk0]
  intro a
  match a with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 64 ≤ (i 1).val ∧ (i 1).val < win0_2.index t (1 : Fin 2) * 64 + 64
    omega

/-- The output array after the region: the projection of the two input arrays as the region finds them. -/
theorem lin0_value' (c : Dev nD) : (dat0 (F := Ideal) V c).arrAt 2 cfg0.N = G0 V c :=
  (dat0 (F := Ideal) V c).arrAt_eq_of_cover 2 (G0 V c) (fun t _ => flushed0_eq V c t) cover0

theorem lin0_value (c : Dev nD) :
    (dat0 (F := Ideal) V c).arrAt 2 cfg0.N = linF (F := Ideal) (V c main_arg0) (V c main_arg3) :=
  lin0_value' V c

end Cert.KernelIdeal.Hand

end
-- ==== Proof.KI.BiasReluFAt.lean ====
/-
  Bias and rectifier of all 100000 rows, read at one entry at the extended reals: entry `(i, j)` is
  `max (a i j + b j, 0)`. The bias vector is first laid out as a 1 × 64 row and that row repeated down the rows, so the
  entry read from it is `b j`; the zero is a scalar splat.
-/
import proofs.«409485_j54838142435789_2_alg».proof.Proof.KI.KOps
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

/-- Bias and rectifier of all rows at row `i`, column `j` (the zero kept as its word). -/
theorem biasReluF_apply (a : FVec Ideal S100000x64 .f32) (b : FVec Ideal S64 .f32) (i : Fin 100000) (j : Fin 64) :
    biasReluF (F := Ideal) a b (ix2 i j) = max (a (ix2 i j) + b (ix1 j)) (Ideal.ofBits .f32 0x00000000#32) := by
  unfold biasReluF
  rw [maximumf_apply, addf_apply,
    broadcastInDim_apply (k := ix2 (0 : Fin 1) j) (hk := fun d => by
      match d with
      | ⟨0, _⟩ => rfl
      | ⟨1, _⟩ => rfl),
    broadcastInDim_apply (k := ix1 j) (hk := fun d => by
      match d with
      | ⟨0, _⟩ => rfl),
    broadcastInDim_apply (k := ix0) (hk := fun d => d.elim0)]
  rfl

end Cert.KernelIdeal.Hand

end
-- ==== Proof.KI.ValBias1.lean ====
/-
  What region 1 leaves in its output array, at the extended reals: bias and rectifier `max (a + b, 0)` of all 100000
  rows, as one function of the first input array as the region finds it and of the bias vector.

  The body's payload at entry `(p, q)` of a block is `max (loaded block p q + loaded bias row 0 q, 0)`: the shape casts
  are to the same shapes, the 1 × 64 row is repeated down the rows, the zero is a scalar splat. At point `t` the loaded
  block is rows `10000·t … 10000·t + 9999` of the first input array, the loaded row is the whole second array (the bias
  as a 1 × 64 row), and the block written back is the same rows of the output; so, once the row's entries are the
  bias vector's, what point `t` writes back is block `t` of the whole-array function. Row `r` of the output lies in
  the block of point `r / 10000`, so the ten blocks tile the array.
-/
import proofs.«409485_j54838142435789_2_alg».proof.Proof.KI.Bias1
import proofs.«409485_j54838142435789_2_alg».proof.Proof.KI.KOps
import proofs.«409485_j54838142435789_2_alg».proof.Proof.KI.BiasReluFAt
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

/-- The body's payload at row `p`, column `q` of the block: the loaded block's entry plus the loaded row's entry in
    column `q`, floored at zero (the zero kept as its word). -/
theorem pay1_apply (x0 : Vec Ideal S10000x64 .f32) (x1 : Vec Ideal S1x64 .f32) (p : Fin 10000) (q : Fin 64) :
    k1_pay1 (F := Ideal) x0 x1 (ix2 p q) = max (x0 (ix2 p q) + x1 (ix2 (0 : Fin 1) q)) (Ideal.ofBits .f32 0x00000000#32) := by
  unfold k1_pay1
  simp only [shapeCast_self]
  rw [maximumf_apply, addf_apply, broadcast_apply,
    broadcastTo_apply (k := ix2 (0 : Fin 1) q) (hk := fun d => by
      match d with
      | ⟨0, _⟩ => rfl
      | ⟨1, _⟩ => rfl)]
  rfl

/-! ## From the blocks to the array -/

variable (V : (c : Dev nD) → (b : Ref sig .tc) → Buf (Elt Ideal) ((c : Thread nD τ).loc b))

/-- The zero offsets of a whole-buffer rectangle, as a constant function. -/
theorem hz1 : (![0, 0] : Fin 2 → Nat) = fun _ => 0 := funext fun a => by fin_cases a <;> rfl

/-- The whole-array function the output ends at: bias and rectifier of the first input array as the region finds it,
    for a bias vector `b`. -/
abbrev G1 (c : Dev nD) (b : FVec Ideal S64 .f32) : FVec Ideal S100000x64 .f32 :=
  biasReluF (F := Ideal) (V c (Pipeline.arrRef spec1 0)) b

/-- The printed index maps, decided over the ten points: the row block of the first input moves with the output's,
    the bias row's block stays at the origin, and the output's block index is the point's number. -/
theorem idx_facts1 : ∀ t : Fin cfg1.N,
    win1_0.index t (0 : Fin 2) = win1_2.index t (0 : Fin 2) ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem flushed1_eq (c : Dev nD) (b : FVec Ideal S64 .f32)
    (hb : ∀ q : Fin 64, (V c (Pipeline.arrRef spec1 1) : FVec Ideal S1x64 .f32) (ix2 (0 : Fin 1) q) = b (ix1 q))
    (t : Fin cfg1.N) :
    (dat1 (F := Ideal) V c).flushed 2 t = ((cfg1.win 2).blk t).view.read (Elt Ideal) (G1 V c b) := by
  show (cfg1.win 2).cut (grid1.coords t) ((dat1 V c).after 2 t) = _
  rw [after1_2]
  unfold out1_2
  rw [View.canon_unit_zero hz1]
  simp only [View.ld_unit_zero (S := S10000x64) hz1, View.ld_unit_zero (S := S1x64) hz1]
  obtain ⟨e0, e1, e2, e3, e4, e5⟩ := idx_facts1 t
  have ht : t.val < 10 := lt_of_lt_of_eq t.isLt N_1
  refine funext fun (y : S10000x64.Idx) => ?_
  obtain ⟨p, q, rfl⟩ : ∃ (p : Fin 10000) (q : Fin 64), y = ix2 p q := ⟨y 0, y 1, eq_ix2 y⟩
  show k1_pay1 (iblk1 V c 0 t) (iblk1 V c 1 t) (ix2 p q) = G1 V c b (((cfg1.win 2).blk t).view.emb (ix2 p q))
  have hP : 10000 * t.val + p.val < 100000 := by have := p.isLt; omega
  have h2 : ((cfg1.win 2).blk t).view.emb (ix2 p q) = ix2 (⟨10000 * t.val + p.val, hP⟩ : Fin 100000) q := by
    funext a; apply Fin.ext
    match a with
    | ⟨0, _⟩ => show win1_2.index t (0 : Fin 2) * 10000 + 1 * p.val = 10000 * t.val + p.val; omega
    | ⟨1, _⟩ => show win1_2.index t (1 : Fin 2) * 64 + 1 * q.val = q.val; omega
  rw [h2, pay1_apply]
  unfold G1
  rw [biasReluF_apply]
  have h0 : ((cfg1.win 0).blk t).view.emb (ix2 p q) = ix2 (⟨10000 * t.val + p.val, hP⟩ : Fin 100000) q := by
    funext a; apply Fin.ext
    match a with
    | ⟨0, _⟩ => show win1_0.index t (0 : Fin 2) * 10000 + 1 * p.val = 10000 * t.val + p.val; omega
    | ⟨1, _⟩ => show win1_0.index t (1 : Fin 2) * 64 + 1 * q.val = q.val; omega
  have h1 : ((cfg1.win 1).blk t).view.emb (ix2 (0 : Fin 1) q) = ix2 (0 : Fin 1) q := by
    funext a; apply Fin.ext
    match a with
    | ⟨0, _⟩ => show win1_1.index t (0 : Fin 2) * 1 + 1 * 0 = 0; omega
    | ⟨1, _⟩ => show win1_1.index t (1 : Fin 2) * 64 + 1 * q.val = q.val; omega
  have a0 : (iblk1 V c 0 t : FVec Ideal S10000x64 .f32) (ix2 p q)
      = (V c (Pipeline.arrRef spec1 0) : FVec Ideal S100000x64 .f32) (ix2 (⟨10000 * t.val + p.val, hP⟩ : Fin 100000) q) :=
    congrArg (V c (Pipeline.arrRef spec1 0)) h0
  have a1 : (iblk1 V c 1 t : FVec Ideal S1x64 .f32) (ix2 (0 : Fin 1) q) = b (ix1 q) :=
    (congrArg (V c (Pipeline.arrRef spec1 1)) h1).trans (hb q)
  rw [a0, a1]

/-- An index of the output array is in point `t`'s block iff each coordinate is in the block's range on its axis. -/
theorem mem_blk1 (t : Fin cfg1.N) (i : S100000x64.Idx) :
    i ∈ ((cfg1.win 2).blk t).view.set ↔ ∀ a : Fin 2, win1_2.index t a * S10000x64.size a ≤ (i a).val
      ∧ (i a).val < win1_2.index t a * S10000x64.size a + S10000x64.size a := by
  show i ∈ ((View.whole (Pipeline.arrRef spec1 2)).slice (win1_2.rect t)).set ↔ _
  rw [View.set_slice_whole, Rect.mem_set_unit]
  exact Iff.rfl

/-- The ten row blocks tile the output array: row `r` lies in the block of point `r / 10000`. -/
theorem cover1 (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ : ∃ t : Fin cfg1.N, t.val = (i 0).val / 10000 :=
    ⟨⟨(i 0).val / 10000, lt_of_lt_of_eq (by omega) N_1.symm⟩, rfl⟩
  obtain ⟨e0, e1, e2, e3, e4, e5⟩ := idx_facts1 t
  refine ⟨t, flush1_2 t, ?_⟩
  rw [mem_blk1]
  intro a
  match a with
  | ⟨0, _⟩ =>
    show win1_2.index t (0 : Fin 2) * 10000 ≤ (i 0).val ∧ (i 0).val < win1_2.index t (0 : Fin 2) * 10000 + 10000
    omega
  | ⟨1, _⟩ =>
    show win1_2.index t (1 : Fin 2) * 64 ≤ (i 1).val ∧ (i 1).val < win1_2.index t (1 : Fin 2) * 64 + 64
    omega

theorem bias1_value' (c : Dev nD) (b : FVec Ideal S64 .f32)
    (hb : ∀ q : Fin 64, (V c (Pipeline.arrRef spec1 1) : FVec Ideal S1x64 .f32) (ix2 (0 : Fin 1) q) = b (ix1 q)) :
    (dat1 (F := Ideal) V c).arrAt 2 cfg1.N = G1 V c b :=
  (dat1 (F := Ideal) V c).arrAt_eq_of_cover 2 (G1 V c b) (fun t _ => flushed1_eq V c b hb t) cover1

theorem bias1_value (c : Dev nD) (hb : ∀ q : Fin 64, V c main_v44 (ix2 (0 : Fin 1) q) = V c main_arg4 (ix1 q)) :
    (dat1 (F := Ideal) V c).arrAt 2 cfg1.N = biasReluF (F := Ideal) (V c main_v43) (V c main_arg4) :=
  bias1_value' V c (V c main_arg4) hb

end Cert.KernelIdeal.Hand

end
-- ==== Proof.KI.PoolSpec.lean ====
/-
  The pooled sums and counts as plain sums over the 100000 rows. Row `j` belongs to graph `g` when its graph id, a
  32-bit word, is the word of the number `g`; a row whose id is the word of no `g < 256` (a negative id, or one of
  256 and more) belongs to no graph and is counted nowhere. `sumSpec h batch g f` adds feature `f` of the rows of graph
  `g`; `cntSpec batch g` counts them. Both are sums over ALL rows of a term that is zero off the graph, which is the
  form the one-hot product takes, and equal to the sum over the graph's rows alone, which is the form a scatter-add takes.
-/
import Idealize.ShloMosaic.PureOps.Ideal
import Idealize.ShloMosaic.Lib.ValueIdx

noncomputable section

namespace Cert.KernelIdeal.Hand

open Idealize.ShloMosaic Idealize.ShloMosaic.ValueIdx

/-- Feature `f` summed over the rows whose graph id is `g`. -/
def sumSpec (h : (⟨2, ![100000, 64]⟩ : Shape).Idx → EReal) (batch : (⟨1, ![100000]⟩ : Shape).Idx → BitVec 32)
    (g : Fin 256) (f : Fin 64) : EReal :=
  ∑ j : Fin 100000, if batch (ix1 j) = BitVec.ofNat 32 g.val then h (ix2 j f) else 0

/-- The number of rows whose graph id is `g`. -/
def cntSpec (batch : (⟨1, ![100000]⟩ : Shape).Idx → BitVec 32) (g : Fin 256) : EReal :=
  ∑ j : Fin 100000, if batch (ix1 j) = BitVec.ofNat 32 g.val then 1 else 0

end Cert.KernelIdeal.Hand

end
-- ==== Proof.KI.PoolFold.lean ====
/-
  The pooling region's arithmetic over its 49 row tiles, at the extended reals. At a tile the kernel forms the one-hot
  matrix of the tile's graph ids (entry (g, k) is 1 when row k's id is the word of g, else 0), adds the product of the
  one-hot with the tile's 2048 × 64 rows to the running sums and the one-hot's row sums to the running counts; both
  running arrays start at zero. Read at one entry: a product with a one-hot factor is the row's feature or zero, so
  after tile n the sums hold, for graph g and feature f, the features of the rows among the first 2048·(n+1) padded
  rows whose id is g, and the counts their number. A padded row (past row 100000) carries the id -1, the word of no
  graph below 256, and contributes nothing; so after the last tile the 49 · 2048 = 100352 padded rows give the sum over
  the 100000 real rows, which is the specification's.
-/
import proofs.«409485_j54838142435789_2_alg».proof.Proof.Gen.KernelIdeal.Skeleton
import proofs.«409485_j54838142435789_2_alg».proof.Proof.KI.PoolSpec
import Idealize.ShloMosaic.PureOps.Ideal.Laws
import Idealize.ShloMosaic.Lib.ValueIdx
import Idealize.ShloMosaic.Lib.ValueLayout
import Mathlib.Algebra.BigOperators.Fin
import Mathlib.Algebra.BigOperators.Intervals

noncomputable section

namespace Cert.KernelIdeal.Hand

open Cert.KernelIdeal Cert.KernelIdeal.Gen
open Idealize.ShloMosaic Idealize.ShloMosaic.ValueIdx

/-! ## The payloads read at one entry -/

/-- The one-hot matrix at (g, k): the comparison of the row coordinate g, as a word, with the tile's id at lane k gives
    one bit; widened and converted it is the real 1 or 0. -/
theorem onehot_apply (v4 : Vec Ideal S1x2048 .i32) (g : Fin 256) (k : Fin 2048) :
    k4_pay3 (F := Ideal) v4 (ix2 g k) = if v4 (ix2 (0 : Fin 1) k) = BitVec.ofNat 32 g.val then 1 else 0 := by
  unfold k4_pay3
  rw [sitofp_apply, extui_apply]
  show FloatOps.sitofp .f32 ((IntOp.cmpi .eq (iota .tc S256x2048 32 [0] iota_S256x2048_d0_w32 (ix2 g k))
    (broadcastTo S256x2048 (shapeCast S1x2048 v4 shapeCasts_S1x2048_S1x2048) broadcasts_S1x2048_S256x2048 (ix2 g k))).setWidth 32) = _
  rw [iota_single_apply, broadcastTo_1b_ab_apply, shapeCast_self]
  show FloatOps.sitofp .f32 (BitVec.setWidth 32 (IntOp.cmpi .eq (BitVec.ofNat 32 g.val) (v4 (ix2 (0 : Fin 1) k)))) = _
  by_cases h : v4 (ix2 (0 : Fin 1) k) = BitVec.ofNat 32 g.val
  · rw [if_pos h, h]
    have h1 : IntOp.cmpi .eq (BitVec.ofNat 32 g.val) (BitVec.ofNat 32 g.val) = 1#1 := by simp [IntOp.cmpi]
    rw [h1]
    show (((BitVec.setWidth 32 1#1).toInt : ℝ) : EReal) = 1
    have h2 : (BitVec.setWidth 32 1#1).toInt = 1 := by decide
    rw [h2]; simp
  · rw [if_neg h]
    have hne : (BitVec.ofNat 32 g.val == v4 (ix2 (0 : Fin 1) k)) = false := beq_false_of_ne (fun h' => h h'.symm)
    have h1 : IntOp.cmpi .eq (BitVec.ofNat 32 g.val) (v4 (ix2 (0 : Fin 1) k)) = 0#1 := by
      show BitVec.ofBool (_ == _) = 0#1
      rw [hne]; rfl
    rw [h1]
    show (((BitVec.setWidth 32 0#1).toInt : ℝ) : EReal) = 0
    have h2 : (BitVec.setWidth 32 0#1).toInt = 0 := by decide
    rw [h2]; simp

/-- The product's left operand index at output (g, f) and contracted coordinate c is (g, c): the one-hot's row g. -/
theorem dotPool_lhsIdx (g : Fin 256) (f : Fin 64) (c : Fin 2048) :
    dot_S256x2048_S2048x64_S256x64_1_0_0_1_n_n.lhsIdx (ix2 g f)
      ((contrEquiv1 dot_S256x2048_S2048x64_S256x64_1_0_0_1_n_n 2048 rfl rfl).symm c) = ix2 g c := by
  have c2 := contrEquiv1_symm_val dot_S256x2048_S2048x64_S256x64_1_0_0_1_n_n 2048 rfl rfl c
  funext ax; apply Fin.ext
  match ax with
  | ⟨0, _⟩ => simp [DotDims.lhsIdx, dot_S256x2048_S2048x64_S256x64_1_0_0_1_n_n]; rfl
  | ⟨1, _⟩ => simp [DotDims.lhsIdx, dot_S256x2048_S2048x64_S256x64_1_0_0_1_n_n]; exact c2

/-- The right operand index there is (c, f): row c of the tile, feature f. -/
theorem dotPool_rhsIdx (g : Fin 256) (f : Fin 64) (c : Fin 2048) :
    dot_S256x2048_S2048x64_S256x64_1_0_0_1_n_n.rhsIdx (ix2 g f)
      ((contrEquiv1 dot_S256x2048_S2048x64_S256x64_1_0_0_1_n_n 2048 rfl rfl).symm c) = ix2 c f := by
  have c2 := contrEquiv1_symm_val dot_S256x2048_S2048x64_S256x64_1_0_0_1_n_n 2048 rfl rfl c
  funext ax; apply Fin.ext
  match ax with
  | ⟨0, _⟩ => simp [DotDims.rhsIdx, dot_S256x2048_S2048x64_S256x64_1_0_0_1_n_n]; exact c2
  | ⟨1, _⟩ => simp [DotDims.rhsIdx, dot_S256x2048_S2048x64_S256x64_1_0_0_1_n_n]; rfl

/-- The new sums at (g, f): the old entry plus the sum over the tile's rows of one-hot times feature. The format
    changes before the product are the identity on the extended reals, and the product accumulates onto zero. -/
theorem poolPay4_apply (v4 : Vec Ideal S1x2048 .i32) (v10 : Vec Ideal S2048x64 .f32) (v12 : Vec Ideal S256x64 .f32)
    (g : Fin 256) (f : Fin 64) :
    k4_pay4 (F := Ideal) v4 v10 v12 (ix2 g f)
      = v12 (ix2 g f) + ∑ k : Fin 2048, k4_pay3 (F := Ideal) v4 (ix2 g k) * v10 (ix2 k f) := by
  unfold k4_pay4
  rw [shapeCast_self, addf_apply]
  refine congrArg (v12 (ix2 g f) + ·) ?_
  simp only [matmul]
  rw [Ideal.matmul_constant_zero_apply,
    ← Equiv.sum_comp (contrEquiv1 dot_S256x2048_S2048x64_S256x64_1_0_0_1_n_n 2048 rfl rfl).symm]
  refine Finset.sum_congr rfl fun c _ => ?_
  rw [dotPool_lhsIdx, dotPool_rhsIdx, truncf_apply, truncf_apply, shapeCast_self]

/-- The new counts at (g, 0): the old entry plus the one-hot's row sum. The lane reduction is a plain sum over the
    2048 lanes, and the cast of the 256 row sums to a column keeps row g at (g, 0). -/
theorem poolPay5_apply (v4 : Vec Ideal S1x2048 .i32) (v20 : Vec Ideal S256x1 .f32) (g : Fin 256) :
    k4_pay5 (F := Ideal) v4 v20 (ix2 g (0 : Fin 1))
      = v20 (ix2 g (0 : Fin 1)) + ∑ k : Fin 2048, k4_pay3 (F := Ideal) v4 (ix2 g k) := by
  unfold k4_pay5
  rw [shapeCast_self, addf_apply]
  refine congrArg (v20 (ix2 g (0 : Fin 1)) + ·) ?_
  refine (shapeCast_apply _ shapeCasts_S256_S256x1 (ix2 g (0 : Fin 1)) (ix1 g) ?_).trans ?_
  · rw [Shape.rowMajor_val_one, Shape.rowMajor_val_two]
    show g.val = g.val * 1 + 0
    omega
  · refine (Ideal.multiReduction_add_single (k4_pay3 (F := Ideal) v4) 0x00000000#32 reduces_S256x2048_S256 (.inl rfl) rfl (ix1 g)).trans ?_
    refine Finset.sum_congr rfl fun k _ => ?_
    refine congrArg (k4_pay3 (F := Ideal) v4) ?_
    funext ax; apply Fin.ext
    match ax with
    | ⟨0, _⟩ => rfl
    | ⟨1, _⟩ => rfl

/-- The starting sums are zero at every entry, -/
theorem poolPay1_apply (g : Fin 256) (f : Fin 64) : k4_pay1 (F := Ideal) (ix2 g f) = 0 := by
  unfold k4_pay1
  rw [shapeCast_self, broadcast_apply]
  exact Ideal.ofBits_zero_f32

/-- and so are the starting counts. -/
theorem poolPay2_apply (g : Fin 256) : k4_pay2 (F := Ideal) (ix2 g (0 : Fin 1)) = 0 := by
  unfold k4_pay2
  rw [shapeCast_self, broadcast_apply]
  exact Ideal.ofBits_zero_f32

/-! ## The rows one by one -/

/-- What padded row j gives to the sum of graph g at feature f: a real row of graph g its feature, any other row zero. -/
def rowTerm (h : (⟨2, ![100000, 64]⟩ : Shape).Idx → EReal) (batch : (⟨1, ![100000]⟩ : Shape).Idx → BitVec 32)
    (g : Fin 256) (f : Fin 64) (j : ℕ) : EReal :=
  if hj : j < 100000 then (if batch (ix1 ⟨j, hj⟩) = BitVec.ofNat 32 g.val then h (ix2 ⟨j, hj⟩ f) else 0) else 0

/-- What padded row j gives to the count of graph g: a real row of graph g one, any other row zero. -/
def cntTerm (batch : (⟨1, ![100000]⟩ : Shape).Idx → BitVec 32) (g : Fin 256) (j : ℕ) : EReal :=
  if hj : j < 100000 then (if batch (ix1 ⟨j, hj⟩) = BitVec.ofNat 32 g.val then 1 else 0) else 0

/-- The padding id, the word of -1, is the word of no graph below 256. -/
theorem neg_one_ne_word (g : Fin 256) : (4294967295#32 : BitVec 32) ≠ BitVec.ofNat 32 g.val := by
  intro h
  have h' := congrArg BitVec.toNat h
  rw [BitVec.toNat_ofNat, BitVec.toNat_ofNat] at h'
  have := g.isLt
  omega

/-- A running entry that starts at zero plus the first tile's 2048 row terms and grows by the next tile's at each
    point holds, after point n, the terms of the first 2048·(n+1) rows. -/
theorem fold_rows (r : ℕ → EReal) (X : (n : ℕ) → n < 49 → EReal)
    (h0 : X 0 (by decide) = 0 + ∑ k : Fin 2048, r (2048 * 0 + k.val))
    (hs : ∀ n (hn : n + 1 < 49), X (n + 1) hn = X n (Nat.lt_of_succ_lt hn) + ∑ k : Fin 2048, r (2048 * (n + 1) + k.val)) :
    ∀ n (hn : n < 49), X n hn = ∑ j ∈ Finset.range (2048 * (n + 1)), r j := by
  intro n
  induction n with
  | zero =>
    intro hn
    rw [h0, zero_add, ← Finset.sum_range (fun k => r (2048 * 0 + k))]
    refine Finset.sum_congr rfl fun k _ => ?_
    rw [Nat.mul_zero, Nat.zero_add]
  | succ n ih =>
    intro hn
    rw [hs n hn, ih (Nat.lt_of_succ_lt hn), ← Finset.sum_range (fun k => r (2048 * (n + 1) + k)),
      show 2048 * (n + 1 + 1) = 2048 * (n + 1) + 2048 by ring, Finset.sum_range_add]

/-- The 49 · 2048 = 100352 padded rows are the 100000 real rows and 352 rows that give nothing. -/
theorem sum_padded (r : ℕ → EReal) (hpad : ∀ j, 100000 ≤ j → r j = 0) :
    ∑ j ∈ Finset.range (2048 * (48 + 1)), r j = ∑ j : Fin 100000, r j.val := by
  rw [show 2048 * (48 + 1) = 100000 + 352 by norm_num, Finset.sum_range_add,
    Finset.sum_eq_zero (fun x _ => hpad (100000 + x) (Nat.le_add_right _ _)), add_zero, Finset.sum_range]

/-! ## The fold -/

/-- After the last of the 49 points the running sums and counts, read at graph g (and feature f), are the pooled sum
    and count of the specification. -/
theorem fold_sums_counts
    (bt : (n : ℕ) → n < 49 → Vec Ideal S1x2048 .i32) (ht : (n : ℕ) → n < 49 → Vec Ideal S2048x64 .f32)
    (S : (n : ℕ) → n < 49 → Vec Ideal S256x64 .f32 × Vec Ideal S256x1 .f32)
    (hS0 : S 0 (by decide) = (k4_pay4 (bt 0 (by decide)) (ht 0 (by decide)) (k4_pay1 (F := Ideal)),
      k4_pay5 (bt 0 (by decide)) (k4_pay2 (F := Ideal))))
    (hSs : ∀ n (hn : n + 1 < 49), S (n + 1) hn = (k4_pay4 (bt (n + 1) hn) (ht (n + 1) hn) (S n (Nat.lt_of_succ_lt hn)).1,
      k4_pay5 (bt (n + 1) hn) (S n (Nat.lt_of_succ_lt hn)).2))
    (h : (⟨2, ![100000, 64]⟩ : Shape).Idx → EReal) (batch : (⟨1, ![100000]⟩ : Shape).Idx → BitVec 32)
    (hbt : ∀ n (hn : n < 49) (k : Fin 2048), bt n hn (ix2 (0 : Fin 1) k)
      = if hj : 2048 * n + k.val < 100000 then batch (ix1 ⟨2048 * n + k.val, hj⟩) else 4294967295#32)
    (hht : ∀ n (hn : n < 49) (k : Fin 2048) (f : Fin 64), ht n hn (ix2 k f)
      = if hj : 2048 * n + k.val < 100000 then h (ix2 ⟨2048 * n + k.val, hj⟩ f) else (0 : EReal))
    (g : Fin 256) (f : Fin 64) :
    (S 48 (by decide)).1 (ix2 g f) = sumSpec h batch g f ∧ (S 48 (by decide)).2 (ix2 g (0 : Fin 1)) = cntSpec batch g := by
  -- a tile's one-hot product term and one-hot entry are the row's terms
  have hsum : ∀ n (hn : n < 49) (k : Fin 2048),
      k4_pay3 (F := Ideal) (bt n hn) (ix2 g k) * ht n hn (ix2 k f) = rowTerm h batch g f (2048 * n + k.val) := by
    intro n hn k
    rw [onehot_apply, hbt n hn k, hht n hn k f]
    unfold rowTerm
    by_cases hj : 2048 * n + k.val < 100000
    · rw [dif_pos hj, dif_pos hj, dif_pos hj]
      by_cases hb : batch (ix1 ⟨2048 * n + k.val, hj⟩) = BitVec.ofNat 32 g.val
      · rw [if_pos hb, if_pos hb, one_mul]
      · rw [if_neg hb, if_neg hb, zero_mul]
    · rw [dif_neg hj, dif_neg hj, dif_neg hj, mul_zero]
  have hcnt : ∀ n (hn : n < 49) (k : Fin 2048),
      k4_pay3 (F := Ideal) (bt n hn) (ix2 g k) = cntTerm batch g (2048 * n + k.val) := by
    intro n hn k
    rw [onehot_apply, hbt n hn k]
    unfold cntTerm
    by_cases hj : 2048 * n + k.val < 100000
    · rw [dif_pos hj, dif_pos hj]
    · rw [dif_neg hj, dif_neg hj, if_neg (neg_one_ne_word g)]
  constructor
  · have hfold := fold_rows (rowTerm h batch g f) (fun n hn => (S n hn).1 (ix2 g f))
      (by
        show (S 0 (by decide)).1 (ix2 g f) = _
        rw [hS0]
        show k4_pay4 (F := Ideal) (bt 0 (by decide)) (ht 0 (by decide)) (k4_pay1 (F := Ideal)) (ix2 g f) = _
        rw [poolPay4_apply, poolPay1_apply]
        exact congrArg (0 + ·) (Finset.sum_congr rfl fun k _ => hsum 0 (by decide) k))
      (fun n hn => by
        show (S (n + 1) hn).1 (ix2 g f) = (S n (Nat.lt_of_succ_lt hn)).1 (ix2 g f) + _
        rw [hSs n hn]
        show k4_pay4 (F := Ideal) (bt (n + 1) hn) (ht (n + 1) hn) (S n (Nat.lt_of_succ_lt hn)).1 (ix2 g f) = _
        rw [poolPay4_apply]
        exact congrArg ((S n (Nat.lt_of_succ_lt hn)).1 (ix2 g f) + ·) (Finset.sum_congr rfl fun k _ => hsum (n + 1) hn k))
      48 (by decide)
    refine hfold.trans ((sum_padded _ fun j hj => ?_).trans ?_)
    · unfold rowTerm; rw [dif_neg (by omega)]
    · unfold sumSpec
      refine Finset.sum_congr rfl fun j _ => ?_
      unfold rowTerm; rw [dif_pos j.isLt]
  · have hfold := fold_rows (cntTerm batch g) (fun n hn => (S n hn).2 (ix2 g (0 : Fin 1)))
      (by
        show (S 0 (by decide)).2 (ix2 g (0 : Fin 1)) = _
        rw [hS0]
        show k4_pay5 (F := Ideal) (bt 0 (by decide)) (k4_pay2 (F := Ideal)) (ix2 g (0 : Fin 1)) = _
        rw [poolPay5_apply, poolPay2_apply]
        exact congrArg (0 + ·) (Finset.sum_congr rfl fun k _ => hcnt 0 (by decide) k))
      (fun n hn => by
        show (S (n + 1) hn).2 (ix2 g (0 : Fin 1)) = (S n (Nat.lt_of_succ_lt hn)).2 (ix2 g (0 : Fin 1)) + _
        rw [hSs n hn]
        show k4_pay5 (F := Ideal) (bt (n + 1) hn) (S n (Nat.lt_of_succ_lt hn)).2 (ix2 g (0 : Fin 1)) = _
        rw [poolPay5_apply]
        exact congrArg ((S n (Nat.lt_of_succ_lt hn)).2 (ix2 g (0 : Fin 1)) + ·) (Finset.sum_congr rfl fun k _ => hcnt (n + 1) hn k))
      48 (by decide)
    refine hfold.trans ((sum_padded _ fun j hj => ?_).trans ?_)
    · unfold cntTerm; rw [dif_neg (by omega)]
    · unfold cntSpec
      refine Finset.sum_congr rfl fun j _ => ?_
      unfold cntTerm; rw [dif_pos j.isLt]

end Cert.KernelIdeal.Hand

end
-- ==== Proof.KI.PoolRef.lean ====
/-
  The reference's side of the pooling, and the kernel's final step, at the extended reals.

  The reference pools by scatter-adding: onto a zero array of 256 graphs by 64 features it adds every row of the
  activations at the row's graph id, and onto a zero array of 256 graphs a one per row. A scatter-add read at one
  element is the accumulator there plus the sum of the updates that land on it. An update's landing place is its start
  index plus its window coordinate; here the start index of row `j` is the row's graph id read as a SIGNED number and
  not clamped, on the graph axis, and the window coordinate is the feature (for the counts there is none). For a graph
  `g < 256` the signed reading of a 32-bit word is `g` exactly when the word is the word of `g`: a negative id, or one
  of 256 and more, lands outside and adds nothing. So the element `(g, f)` of the sums is the sum of feature `f` over
  the rows whose id is the word of `g`, which is the sum over ALL rows of the term that is zero off those rows
  (`sumSpec`); the counts likewise (`cntSpec`).

  The final step: the kernel, holding the pooled sums and counts in two scratch arrays, stores
  `logistic ((sums / max (counts, 1)) · Wfc + bfc)`; the reference computes `1 / (1 + e^{-z})` of the same `z` from
  its own scatter-added sums and counts. The quotients agree element by element (by the two readings above); the
  contraction over the 64 features is the same contraction (same axes, a zero accumulator adds nothing, a narrowing of
  format changes no extended real); the bias is one number laid down the 256 graphs either way; and the logistic is by
  definition `1 / (1 + e^{-z})`, the reference's two ones being the word of one.
-/
import proofs.«409485_j54838142435789_2_alg».proof.Proof.KI.KOps
import proofs.«409485_j54838142435789_2_alg».proof.Proof.KI.PoolSpec
import proofs.«409485_j54838142435789_2_alg».proof.Proof.Gen.KernelIdeal.Skeleton
import Idealize.ShloMosaic.PureOps.Ideal
import Idealize.ShloMosaic.PureOps.Ideal.Laws
import Idealize.ShloMosaic.Lib.ValueIdx
import Idealize.ShloMosaic.Lib.IdealHost
import Idealize.ShloMosaic.Lib.KernelVsHost

set_option maxRecDepth 16384

noncomputable section

namespace Cert.KernelIdeal.Hand

open Cert.KernelIdeal Cert.KernelIdeal.Gen
open Idealize.ShloMosaic Idealize.ShloMosaic.ValueIdx
open scoped BigOperators

namespace PoolRef

/-! ## Where an update lands -/

/-- An update lands on result element `i` exactly when, on every axis, start plus window coordinate is `i`'s
    coordinate: inside the operand the landing index is those sums, and outside it there is no landing index. -/
theorem resultIdx?_eq_some_iff {s si u : Shape} (d : ScatterDims s si u) {w : Nat} (j : u.Idx) (idx : IVec si w)
    (i : s.Idx) : d.resultIdx? j idx = some i ↔ ∀ a, d.start j idx a + d.window j a = ((i a).val : Int) := by
  unfold ScatterDims.resultIdx?
  split_ifs with h
  · rw [Option.some.injEq]
    constructor
    · rintro rfl a
      exact (Int.toNat_of_nonneg (h a).1).symm
    · intro e
      funext a
      apply Fin.ext
      show (d.start j idx a + d.window j a).toNat = (i a).val
      rw [e a, Int.toNat_natCast]
  · constructor
    · intro e; cases e
    · intro e
      exfalso
      apply h
      intro a
      rw [e a]
      exact ⟨Int.natCast_nonneg _, by exact_mod_cast (i a).isLt⟩

/-- A 32-bit word read signed is the number `g < 256` exactly when it is the word of `g`: a word of the upper half
    reads negative, one of the lower half reads as itself. -/
theorem toInt_eq_iff (x : BitVec 32) (g : Fin 256) : x.toInt = (g.val : Int) ↔ x = BitVec.ofNat 32 g.val := by
  have hg := g.isLt
  have hx := x.isLt
  constructor
  · intro e
    apply BitVec.eq_of_toNat_eq
    rw [BitVec.toNat_ofNat, Nat.mod_eq_of_lt (by omega)]
    rw [BitVec.toInt_eq_toNat_cond] at e
    split_ifs at e <;> omega
  · rintro rfl
    rw [BitVec.toInt_eq_toNat_cond, BitVec.toNat_ofNat, Nat.mod_eq_of_lt (by omega)]
    rw [if_pos (by omega)]

abbrev dS := Cert.ReferenceIdeal.scatter_S256x64_S100000x1_S100000x64_1_0_0_1
abbrev dC := Cert.ReferenceIdeal.scatter_S256_S100000x1_S100000_n_0_0_1

/-- The graph ids as the one-column array the scatter reads its start indices from. -/
abbrev colOf (batch : IVec S100000 32) : IVec Cert.ReferenceIdeal.S100000x1 32 :=
  broadcastInDim Cert.ReferenceIdeal.S100000x1 ![0] Cert.ReferenceIdeal.Facts₀.bcast_S100000_S100000x1_0 batch

/-- Sums: on the graph axis the window starts at row `j`'s graph id, read signed … -/
theorem startS_0 (batch : IVec S100000 32) (j : S100000x64.Idx) :
    dS.start j (colOf batch) 0 = (batch (ix1 (j 0))).toInt := by
  unfold ScatterDims.start
  rw [dif_pos (by decide)]
  unfold colOf broadcastInDim
  congr 2
  funext a
  match a with
  | ⟨0, _⟩ => rfl
/-- … and on the feature axis at 0; -/
theorem startS_1 (batch : IVec S100000 32) (j : S100000x64.Idx) : dS.start j (colOf batch) 1 = 0 := by
  unfold ScatterDims.start
  rw [dif_neg (by decide)]
/-- the window coordinate is 0 on the graph axis (it is inserted) and the update's feature on the feature axis. -/
theorem windowS_0 (j : S100000x64.Idx) : dS.window j 0 = 0 := by
  unfold ScatterDims.window
  rw [dif_neg (by decide)]
theorem windowS_1 (j : S100000x64.Idx) : dS.window j 1 = (j 1).val := by
  unfold ScatterDims.window
  rw [dif_pos (by decide)]
  rfl

/-- Counts: the one axis is the graph axis, started at row `j`'s graph id with no window coordinate. -/
theorem startC_0 (batch : IVec S100000 32) (j : S100000.Idx) :
    dC.start j (colOf batch) 0 = (batch (ix1 (j 0))).toInt := by
  unfold ScatterDims.start
  rw [dif_pos (by decide)]
  unfold colOf broadcastInDim
  congr 2
  funext a
  match a with
  | ⟨0, _⟩ => rfl
theorem windowC_0 (j : S100000.Idx) : dC.window j 0 = 0 := by
  unfold ScatterDims.window
  rw [dif_neg (by decide)]

/-- Row `j`'s feature `j 1` lands on `(g, f)` exactly when the row's graph id is the word of `g` and the feature is `f`. -/
theorem landsS_iff (batch : IVec S100000 32) (j : S100000x64.Idx) (g : Fin 256) (f : Fin 64) :
    dS.resultIdx? j (colOf batch) = some (ix2 g f) ↔ batch (ix1 (j 0)) = BitVec.ofNat 32 g.val ∧ (j 1).val = f.val := by
  rw [resultIdx?_eq_some_iff]
  show (∀ a : Fin 2, _) ↔ _
  rw [Fin.forall_fin_two]
  rw [startS_0, startS_1, windowS_0, windowS_1]
  show (batch (ix1 (j 0))).toInt + ((0 : Nat) : Int) = (g.val : Int) ∧ (0 : Int) + ((j 1).val : Int) = (f.val : Int) ↔ _
  rw [Nat.cast_zero, add_zero, zero_add, toInt_eq_iff, Nat.cast_inj]

/-- Row `j` is counted at `g` exactly when its graph id is the word of `g`. -/
theorem landsC_iff (batch : IVec S100000 32) (j : S100000.Idx) (g : Fin 256) :
    dC.resultIdx? j (colOf batch) = some (ix1 g) ↔ batch (ix1 (j 0)) = BitVec.ofNat 32 g.val := by
  rw [resultIdx?_eq_some_iff]
  show (∀ a : Fin 1, _) ↔ _
  rw [Fin.forall_fin_one]
  rw [startC_0, windowC_0]
  show (batch (ix1 (j 0))).toInt + ((0 : Nat) : Int) = (g.val : Int) ↔ _
  rw [Nat.cast_zero, add_zero, toInt_eq_iff]

/-! ## The scatter-added sums and counts as sums over all rows -/

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

end PoolRef

open PoolRef

/-- The pooled sums: the zero accumulator adds nothing, the updates landing on `(g, f)` are feature `f` of the rows
    whose graph id is the word of `g`, and the sum over those is the sum over all rows of the term that is zero off them. -/
theorem poolSumF_apply (h : FVec Ideal S100000x64 .f32) (batch : IVec S100000 32) (g : Fin 256) (f : Fin 64) :
    poolSumF (F := Ideal) h batch (ix2 g f) = sumSpec h batch g f := by
  show Ideal.hostScatterAdd dS _ (colOf batch) h (ix2 g f) = _
  unfold Ideal.hostScatterAdd
  have hz : (broadcastInDim S256x64 ![] Cert.ReferenceIdeal.Facts₀.bcast_S_S256x64
      (constant (F := Ideal) S_ .f32 0x00000000#32)) (ix2 g f) = 0 := Ideal.ofBits_zero_f32
  rw [hz, zero_add, Finset.sum_filter]
  rw [Finset.sum_congr rfl (fun a _ => if_congr (landsS_iff batch a g f) rfl rfl)]
  rw [sum_idx2]
  unfold sumSpec
  refine Finset.sum_congr rfl fun a _ => ?_
  show (∑ b : Fin 64, if batch (ix1 a) = BitVec.ofNat 32 g.val ∧ b.val = f.val then h (ix2 a b) else 0) = _
  by_cases hb : batch (ix1 a) = BitVec.ofNat 32 g.val
  · rw [Finset.sum_eq_single f (fun b _ hne => if_neg (fun hc => hne (Fin.ext hc.2)))
      (fun hf => absurd (Finset.mem_univ f) hf), if_pos ⟨hb, rfl⟩, if_pos hb]
  · rw [Finset.sum_eq_zero (fun b _ => if_neg (fun hc => hb hc.1)), if_neg hb]

/-- The pooled counts likewise: a one for every row whose graph id is the word of `g`. -/
theorem poolCntF_apply (batch : IVec S100000 32) (g : Fin 256) :
    poolCntF (F := Ideal) batch (ix1 g) = cntSpec batch g := by
  show Ideal.hostScatterAdd dC _ (colOf batch) _ (ix1 g) = _
  unfold Ideal.hostScatterAdd
  have hz : (broadcastInDim S256 ![] Cert.ReferenceIdeal.Facts₀.bcast_S_S256
      (constant (F := Ideal) S_ .f32 0x00000000#32)) (ix1 g) = 0 := Ideal.ofBits_zero_f32
  rw [hz, zero_add, Finset.sum_filter]
  rw [Finset.sum_congr rfl (fun a _ => if_congr (landsC_iff batch a g) rfl rfl)]
  have h1 : ∀ a : S100000.Idx, (broadcastInDim S100000 ![] Cert.ReferenceIdeal.Facts₀.bcast_S_S100000
      (constant (F := Ideal) S_ .f32 0x3F800000#32)) a = 1 := fun a => Ideal.ofBits_one_f32
  rw [Finset.sum_congr rfl (fun a _ => by rw [h1 a])]
  unfold cntSpec
  exact (sum_idx1 (fun a : S100000.Idx => if batch (ix1 (a 0)) = BitVec.ofNat 32 g.val then (1 : EReal) else 0))

namespace PoolRef

/-! ## The final step -/

abbrev dotK := Cert.KernelIdeal.dot_S256x64_S64x1_S256x1_1_0_0_1_n_n
abbrev dotR := Cert.ReferenceIdeal.dot_S256x64_S64x1_S256x1_1_0_0_1_n_n

/-- The one-by-one shape has one index, -/
theorem idx11_eq (i : S1x1.Idx) : i = ix2 (0 : Fin 1) (0 : Fin 1) := by
  funext a
  match a with
  | ⟨0, _⟩ => exact Subsingleton.elim (α := Fin 1) _ _
  | ⟨1, _⟩ => exact Subsingleton.elim (α := Fin 1) _ _
/-- and so has the one-entry shape. -/
theorem idx1_eq (i : S1.Idx) : i = ix1 (0 : Fin 1) := by
  funext a
  match a with
  | ⟨0, _⟩ => exact Subsingleton.elim (α := Fin 1) _ _

/-- The mean as the kernel spells it: the sums over the counts floored at one, the floor laid along the features. -/
def quotK (sums : Vec Ideal S256x64 .f32) (cnts : Vec Ideal S256x1 .f32) : FVec Ideal S256x64 .f32 :=
  divf sums (broadcastTo S256x64 (maximumf cnts (broadcast S256x1 (Scalar.ofBits .f32 0x3F800000#32))) broadcasts_S256x1_S256x64)
/-- The mean as the reference spells it. -/
def quotR (h : FVec Ideal S100000x64 .f32) (batch : IVec S100000 32) : FVec Ideal S256x64 .f32 :=
  Host.divf (poolSumF h batch)
    (broadcastInDim S256x64 ![0, 1] Cert.ReferenceIdeal.Facts₀.bcast_S256x1_S256x64_0_1
      (broadcastInDim S256x1 ![0] Cert.ReferenceIdeal.Facts₀.bcast_S256_S256x1_0
        (maximumf (poolCntF (F := Ideal) batch)
          (broadcastInDim S256 ![] Cert.ReferenceIdeal.Facts₀.bcast_S_S256 (constant S_ .f32 0x3F800000#32)))))
/-- The head's bias down the 256 graphs, as the kernel spells it and as the reference does. -/
def biasK (bfc2 : Vec Ideal S1x1 .f32) : FVec Ideal S256x1 .f32 :=
  broadcastTo S256x1 (shapeCast S1x1 bfc2 shapeCasts_S1x1_S1x1) broadcasts_S1x1_S256x1
def biasR (bfc : FVec Ideal S1 .f32) : FVec Ideal S256x1 .f32 :=
  broadcastInDim S256x1 ![0, 1] Cert.ReferenceIdeal.Facts₀.bcast_S1x1_S256x1_0_1
    (broadcastInDim S1x1 ![1] Cert.ReferenceIdeal.Facts₀.bcast_S1_S1x1_1 bfc)

theorem quot_eq (h : FVec Ideal S100000x64 .f32) (batch : IVec S100000 32)
    (sums : Vec Ideal S256x64 .f32) (cnts : Vec Ideal S256x1 .f32)
    (hs : ∀ (g : Fin 256) (f : Fin 64), sums (ix2 g f) = sumSpec h batch g f)
    (hc : ∀ g : Fin 256, cnts (ix2 g (0 : Fin 1)) = cntSpec batch g) : quotK sums cnts = quotR h batch := by
  funext i
  obtain ⟨g, f, rfl⟩ : ∃ (g : Fin 256) (f : Fin 64), i = ix2 g f := ⟨i 0, i 1, eq_ix2 i⟩
  unfold quotK quotR
  rw [divf_apply, hostDivf_apply, hs, poolSumF_apply]
  refine congrArg (Ideal.div _) ?_
  rw [broadcastTo_apply _ _ (ix2 g f) (ix2 g (0 : Fin 1)) (fun a => by
      match a with
      | ⟨0, _⟩ => rfl
      | ⟨1, _⟩ => rfl),
    broadcastInDim_apply _ _ _ (ix2 g f) (ix2 g (0 : Fin 1)) (fun a => by
      match a with
      | ⟨0, _⟩ => rfl
      | ⟨1, _⟩ => rfl),
    broadcastInDim_apply _ _ _ (ix2 g (0 : Fin 1)) (ix1 g) (fun a => by
      match a with
      | ⟨0, _⟩ => rfl)]
  show max (cnts (ix2 g (0 : Fin 1))) _ = max (poolCntF (F := Ideal) batch (ix1 g)) _
  rw [hc, poolCntF_apply]
  rfl

theorem bias_eq (bfc : FVec Ideal S1 .f32) (bfc2 : Vec Ideal S1x1 .f32)
    (hb : bfc2 (ix2 (0 : Fin 1) (0 : Fin 1)) = bfc (ix1 (0 : Fin 1))) : biasK bfc2 = biasR bfc := by
  funext i
  show bfc2 _ = bfc _
  exact ((congrArg bfc2 (idx11_eq _)).trans hb).trans (congrArg bfc (idx1_eq _).symm)

/-- The kernel's logistic of `z` is the reference's `1 / (1 + e^{-z})`: the same function of `z` at the extended
    reals, the reference's two ones being the word of one. -/
theorem logistic_eq_host (z : FVec Ideal S256x1 .f32) :
    logistic z = Host.divf (broadcastInDim S256x1 ![] Cert.ReferenceIdeal.Facts₀.bcast_S_S256x1 (constant S_ .f32 0x3F800000#32))
      (addf (broadcastInDim S256x1 ![] Cert.ReferenceIdeal.Facts₀.bcast_S_S256x1 (constant S_ .f32 0x3F800000#32))
        (Host.exp (Host.negf z))) := by
  funext i
  show Ideal.logistic (z i) = Ideal.div (Ideal.ofBits .f32 0x3F800000#32) (Ideal.ofBits .f32 0x3F800000#32 + Ideal.exp (-(z i)))
  rw [Ideal.ofBits_one_f32]
  rfl

/-- The kernel's last payload, its pieces named: the logistic of the contraction of the mean with the head's weights,
    onto zeros, plus the bias. -/
theorem k4_pay6_eq (sums : Vec Ideal S256x64 .f32) (cnts : Vec Ideal S256x1 .f32) (wfc : Vec Ideal S64x1 .f32)
    (bfc2 : Vec Ideal S1x1 .f32) :
    k4_pay6 sums cnts wfc bfc2 = logistic (addf
      (matmul dotK none (truncf .bf16 (quotK sums cnts) bitsLt_bf16_f32) (truncf .bf16 wfc bitsLt_bf16_f32)
        (constant S256x1 .f32 0x00000000#32)) (biasK bfc2)) := rfl

/-- The reference's pooling tail, its pieces named likewise. -/
theorem poolF_eq (h : FVec Ideal S100000x64 .f32) (batch : IVec S100000 32) (wfc : FVec Ideal S64x1 .f32)
    (bfc : FVec Ideal S1 .f32) :
    poolF (F := Ideal) h batch wfc bfc =
      Host.divf (broadcastInDim S256x1 ![] Cert.ReferenceIdeal.Facts₀.bcast_S_S256x1 (constant S_ .f32 0x3F800000#32))
        (addf (broadcastInDim S256x1 ![] Cert.ReferenceIdeal.Facts₀.bcast_S_S256x1 (constant S_ .f32 0x3F800000#32))
          (Host.exp (Host.negf (addf (Host.dotGeneral dotR none (quotR h batch) wfc) (biasR bfc))))) := rfl

/-- The kernel's contraction onto zeros is the reference's contraction: the two records have the same axes, a
    narrowing of format changes no extended real, and a zero accumulator adds nothing. -/
theorem contract_eq (q : FVec Ideal S256x64 .f32) (wfc : FVec Ideal S64x1 .f32) :
    matmul dotK none (truncf .bf16 q bitsLt_bf16_f32) (truncf .bf16 wfc bitsLt_bf16_f32)
        (constant S256x1 .f32 0x00000000#32) = Host.dotGeneral dotR none q wfc := by
  rw [matmul_zero_eq_dotGeneral]
  rfl

end PoolRef

open PoolRef

/-- THE FINAL STEP: from scratch arrays holding the pooled sums and counts, and the bias cell holding the bias, the
    kernel's last payload is the reference's pooling tail. -/
theorem pool_final (h : FVec Ideal S100000x64 .f32) (batch : IVec S100000 32) (wfc : FVec Ideal S64x1 .f32)
    (bfc : FVec Ideal S1 .f32) (sums : Vec Ideal S256x64 .f32) (cnts : Vec Ideal S256x1 .f32) (bfc2 : Vec Ideal S1x1 .f32)
    (hs : ∀ (g : Fin 256) (f : Fin 64), sums (ix2 g f) = sumSpec h batch g f)
    (hc : ∀ g : Fin 256, cnts (ix2 g (0 : Fin 1)) = cntSpec batch g)
    (hb : bfc2 (ix2 (0 : Fin 1) (0 : Fin 1)) = bfc (ix1 (0 : Fin 1))) :
    k4_pay6 sums cnts wfc bfc2 = poolF (F := Ideal) h batch wfc bfc := by
  rw [k4_pay6_eq, poolF_eq, contract_eq, quot_eq h batch sums cnts hs hc, bias_eq bfc bfc2 hb, logistic_eq_host]

end Cert.KernelIdeal.Hand

end
-- ==== Proof.KI.PoolValue.lean ====
/-
  Region 4, the pooling kernel: its value at the extended reals. The region's input arrays are the graph ids padded
  with the word of -1 to 49 tiles of 2048, the activations padded with zero rows likewise, the head's weight column
  and its bias cell. A tile's block read at an entry is the padded array's entry at 2048 · (tile number) + (the lane);
  the weights and the bias come whole at every point. So the two accumulators after the last tile are the fold of the
  tile step over the padded arrays, which is the specification's sums and counts over the 100000 real rows; the last
  point stores the head's tail of them into the output's buffer; and, the output window's one block being the whole
  array, written back at the last point only, that is what the output array ends holding.
-/
import proofs.«409485_j54838142435789_2_alg».proof.Proof.KI.PoolFrame
import proofs.«409485_j54838142435789_2_alg».proof.Proof.KI.PoolFold
import proofs.«409485_j54838142435789_2_alg».proof.Proof.KI.PoolRef
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-! ## The windows' blocks, as entries of their arrays -/

/-- The 49 points of the grid. -/
theorem N4 : cfg4.N = 49 := N_4

/-- Where the index maps put each window's block: the two tiled inputs at the tile's number along the tiled axis, the
    head's weights, its bias and the output always at the origin. Decided once over the grid. -/
theorem index4_0 : ∀ t : Fin cfg4.N, win4_0.index t 0 = 0 ∧ win4_0.index t 1 = t.val :=
  (by decide +kernel : ∀ t : Fin grid4.N, win4_0.index t 0 = 0 ∧ win4_0.index t 1 = t.val)
theorem index4_1 : ∀ t : Fin cfg4.N, win4_1.index t 0 = t.val ∧ win4_1.index t 1 = 0 :=
  (by decide +kernel : ∀ t : Fin grid4.N, win4_1.index t 0 = t.val ∧ win4_1.index t 1 = 0)
theorem index4_2 : ∀ t : Fin cfg4.N, win4_2.index t 0 = 0 ∧ win4_2.index t 1 = 0 :=
  (by decide +kernel : ∀ t : Fin grid4.N, win4_2.index t 0 = 0 ∧ win4_2.index t 1 = 0)
theorem index4_3 : ∀ t : Fin cfg4.N, win4_3.index t 0 = 0 ∧ win4_3.index t 1 = 0 :=
  (by decide +kernel : ∀ t : Fin grid4.N, win4_3.index t 0 = 0 ∧ win4_3.index t 1 = 0)
theorem index4_4 : ∀ t : Fin cfg4.N, win4_4.index t 0 = 0 ∧ win4_4.index t 1 = 0 :=
  (by decide +kernel : ∀ t : Fin grid4.N, win4_4.index t 0 = 0 ∧ win4_4.index t 1 = 0)

/-- Lane `k` of tile `n` of the graph ids is padded id number `2048 n + k`. -/
theorem ids_tile (c : Dev nD) (n : ℕ) (hn : n < cfg4.N) (k : Fin 2048) (hk : 2048 * n + k.val < 100352) :
    iblk4 V c 0 ⟨n, hn⟩ (ix2 (0 : Fin 1) k) = V c main_v64 (ix2 (0 : Fin 1) ⟨2048 * n + k.val, hk⟩) := by
  unfold iblk4
  rw [View.read_apply]
  show V c main_v64 _ = V c main_v64 _
  congr 1
  funext a
  apply Fin.ext
  match a with
  | ⟨0, _⟩ => show win4_0.index ⟨n, hn⟩ 0 * 1 + 1 * 0 = 0; rw [(index4_0 ⟨n, hn⟩).1]
  | ⟨1, _⟩ => show win4_0.index ⟨n, hn⟩ 1 * 2048 + 1 * k.val = 2048 * n + k.val; rw [(index4_0 ⟨n, hn⟩).2]; show n * 2048 + 1 * k.val = 2048 * n + k.val; omega

/-- Row `k` of tile `n` of the activations is padded row number `2048 n + k`. -/
theorem act_tile (c : Dev nD) (n : ℕ) (hn : n < cfg4.N) (k : Fin 2048) (f : Fin 64) (hk : 2048 * n + k.val < 100352) :
    iblk4 V c 1 ⟨n, hn⟩ (ix2 k f) = V c main_v62 (ix2 ⟨2048 * n + k.val, hk⟩ f) := by
  unfold iblk4
  rw [View.read_apply]
  show V c main_v62 _ = V c main_v62 _
  congr 1
  funext a
  apply Fin.ext
  match a with
  | ⟨0, _⟩ => show win4_1.index ⟨n, hn⟩ 0 * 2048 + 1 * k.val = 2048 * n + k.val; rw [(index4_1 ⟨n, hn⟩).1]; show n * 2048 + 1 * k.val = 2048 * n + k.val; omega
  | ⟨1, _⟩ => show win4_1.index ⟨n, hn⟩ 1 * 64 + 1 * f.val = f.val; rw [(index4_1 ⟨n, hn⟩).2]; omega

/-- The head's weights come whole, at every point. -/
theorem wfc_block (c : Dev nD) (t : Fin cfg4.N) : iblk4 V c 2 t = V c main_arg7 := by
  funext y
  unfold iblk4
  rw [View.read_apply]
  show V c main_arg7 _ = V c main_arg7 y
  congr 1
  funext a
  apply Fin.ext
  match a with
  | ⟨0, _⟩ => show win4_2.index t 0 * 64 + 1 * (y 0).val = (y 0).val; rw [(index4_2 t).1]; omega
  | ⟨1, _⟩ => show win4_2.index t 1 * 1 + 1 * (y 1).val = (y 1).val; rw [(index4_2 t).2]; omega

/-- So does its bias. -/
theorem bfc_block (c : Dev nD) (t : Fin cfg4.N) : iblk4 V c 3 t = V c main_v65 := by
  funext y
  unfold iblk4
  rw [View.read_apply]
  show V c main_v65 _ = V c main_v65 y
  congr 1
  funext a
  apply Fin.ext
  match a with
  | ⟨0, _⟩ => show win4_3.index t 0 * 1 + 1 * (y 0).val = (y 0).val; rw [(index4_3 t).1]; omega
  | ⟨1, _⟩ => show win4_3.index t 1 * 1 + 1 * (y 1).val = (y 1).val; rw [(index4_3 t).2]; omega

/-! ## The output array after the run -/

/-- The last point, the only one whose block is written back. -/
abbrev tL4 : Fin cfg4.N := ⟨48, lt_of_lt_of_eq (by decide : 48 < 49) N4.symm⟩

/-- The output window's one block is the whole 256 × 1 array and only the last point writes it back, so the array ends
    holding what the body left in the staging buffer at the last point. -/
theorem arr4_last (c : Dev nD) (G : Buf (Elt Ideal) ((c : Thread nD τ).loc main_v66)) (hG : (dat4 V c).after 4 tL4 = G) :
    (dat4 V c).arrAt 4 cfg4.N = G := by
  have hlast : ∀ t : Fin cfg4.N, (cfg4.win 4).flush t = true → t = tL4 := fun t hf => by
    have h1 := (flush4_4 t).mp hf
    have h2 : t.val < 49 := lt_of_lt_of_eq t.isLt N4
    exact Fin.ext (by show t.val = 48; omega)
  have hoff : (fun a => win4_4.index tL4 a * main_v66.ty.shape.size a) = fun _ => 0 := funext fun a => by
    match a with
    | ⟨0, _⟩ => show win4_4.index tL4 0 * 256 = 0; rw [(index4_4 tL4).1]
    | ⟨1, _⟩ => show win4_4.index tL4 1 * 1 = 0; rw [(index4_4 tL4).2]
  refine (dat4 V c).arrAt_eq_of_cover 4 G (fun t hf => ?_) (fun i => ⟨tL4, (flush4_4 tL4).mpr rfl, ?_⟩)
  · obtain rfl := hlast t hf
    show (cfg4.win 4).cut (grid4.coords tL4) ((dat4 V c).after 4 tL4) = _
    rw [hG]
    exact (Memref.read_access_unit_zero (Elt Ideal) main_v66 hoff (fun a => by rw [congrFun hoff a]; simp) G).symm
  · show i ∈ ((View.whole main_v66).slice (win4_4.rect tL4)).set
    rw [View.set_slice_whole, Rect.mem_set_unit]
    intro a
    match a with
    | ⟨0, _⟩ =>
      have hi : (i 0 : Nat) < 256 := (i 0).isLt
      show win4_4.index tL4 0 * win4_4.size 0 ≤ (i 0 : Nat) ∧ (i 0 : Nat) < win4_4.index tL4 0 * win4_4.size 0 + win4_4.xsize (grid4.coords tL4) 0
      rw [(index4_4 tL4).1, show win4_4.xsize (grid4.coords tL4) 0 = 256 from by decide +kernel]; omega
    | ⟨1, _⟩ =>
      have hi : (i 1 : Nat) < 1 := (i 1).isLt
      show win4_4.index tL4 1 * win4_4.size 1 ≤ (i 1 : Nat) ∧ (i 1 : Nat) < win4_4.index tL4 1 * win4_4.size 1 + win4_4.xsize (grid4.coords tL4) 1
      rw [(index4_4 tL4).2, show win4_4.xsize (grid4.coords tL4) 1 = 1 from by decide +kernel]; omega

/-! ## The region's value -/

/-- THE POOLING REGION'S VALUE. When the region is entered with the padded graph ids (the ids, then the word of -1),
    the padded activations (the rows, then zeros), the head's weights and its bias in its four input arrays, its output
    array ends holding the pooling tail of the rows: per graph the mean of its rows with the count floored at one, the
    head's contraction and bias, the logistic. The accumulators after the last tile are the specification's sums and
    counts (the fold over the tiles); the last point's store applies the tail to them; that store is what is written
    back. -/
theorem pool_value (c : Dev nD) (h : FVec Ideal S100000x64 .f32) (batch : IVec S100000 32) (wfc : FVec Ideal S64x1 .f32) (bfc : FVec Ideal S1 .f32)
    (hids : ∀ j : Fin 100352, V c main_v64 (ix2 (0 : Fin 1) j) = if hj : j.val < 100000 then batch (ix1 ⟨j.val, hj⟩) else 4294967295#32)
    (hact : ∀ (j : Fin 100352) (f : Fin 64), V c main_v62 (ix2 j f) = if hj : j.val < 100000 then h (ix2 ⟨j.val, hj⟩ f) else 0)
    (hw : V c main_arg7 = wfc) (hb : V c main_v65 (ix2 (0 : Fin 1) (0 : Fin 1)) = bfc (ix1 (0 : Fin 1))) :
    (dat4 (F := Ideal) V c).arrAt 4 cfg4.N = poolF (F := Ideal) h batch wfc bfc := by
  have up : ∀ {n : ℕ}, n < 49 → n < cfg4.N := fun hn => lt_of_lt_of_eq hn N4.symm
  have hfold := fold_sums_counts
    (fun n hn => iblk4 V c 0 ⟨n, up hn⟩) (fun n hn => iblk4 V c 1 ⟨n, up hn⟩) (fun n hn => sc4 V c n (up hn))
    (sc4_zero V c _) (fun n hn => sc4_succ V c n _) h batch
    (fun n hn k => (ids_tile V c n (up hn) k (by have := k.isLt; omega)).trans (hids _))
    (fun n hn k f => (act_tile V c n (up hn) k f (by have := k.isLt; omega)).trans (hact _ f))
  refine arr4_last V c _ ?_
  rw [out4_last V c tL4.isLt, wfc_block V c tL4, hw]
  exact pool_final h batch wfc bfc _ _ (iblk4 V c 3 tL4) (fun g f => (hfold g f).1) (fun g => (hfold g 0).2)
    (by rw [bfc_block V c tL4]; exact hb)

end Cert.KernelIdeal.Hand

end
-- ==== Proof.KI.FeedAt.lean ====
/-
  The host operations that feed the pooling region, read at one entry. Before that region the program pads the
  100000 × 64 activations with 352 rows of a fill value and the 100000 graph ids with 352 fill words, views the padded
  ids as one row, the second layer's bias as one row and the head's bias as one cell; the activations' fill value is
  the integer zero converted. A padded array read at a row below 100000 is the operand there and the fill value at a
  later row; a vector viewed as one row keeps its entries in place; the converted integer zero is the real zero.
-/
import proofs.«409485_j54838142435789_2_alg».proof.Proof.Gen.KernelIdeal
import Idealize.ShloMosaic.PureOps.Ideal
import Idealize.ShloMosaic.Lib.ValueIdx
import Idealize.ShloMosaic.Lib.ValueLayout
import Idealize.ShloMosaic.Lib.Pipeline.Value
import Idealize.ShloMosaic.Lib.KernelVsHost

noncomputable section

namespace Cert.KernelIdeal.Hand

open Cert.KernelIdeal Cert.KernelIdeal.Gen
open Idealize.ShloMosaic Idealize.ShloMosaic.ValueIdx

/-- The padded activations at row j, feature f: the operand's row j while j is a real row, the fill value after. No
    padding in front, none between rows, none along the features. -/
theorem pad_rows_apply (x : FVec Ideal S100000x64 .f32) (v : FVec Ideal S_ .f32) (j : Fin 100352) (f : Fin 64) :
    pad S100352x64 ![0, 0] ![352, 0] ![0, 0] x v pads_S100000x64_S100352x64_03520_000 h_S_ (ix2 j f)
      = if hj : j.val < 100000 then x (ix2 ⟨j.val, hj⟩ f) else v ix0 := by
  by_cases hj : j.val < 100000
  · rw [dif_pos hj]
    refine pad_apply_of_inside ![0, 0] ![352, 0] ![0, 0] x v pads_S100000x64_S100352x64_03520_000 h_S_ (ix2 j f)
      (ix2 ⟨j.val, hj⟩ f) fun a => ?_
    match a with
    | ⟨0, _⟩ => show j.val = 0 + j.val * (0 + 1); omega
    | ⟨1, _⟩ => show f.val = 0 + f.val * (0 + 1); omega
  · rw [dif_neg hj]
    refine (pad_apply_of_not_inside ![0, 0] ![352, 0] ![0, 0] x v pads_S100000x64_S100352x64_03520_000 h_S_ (ix2 j f)
      (0 : Fin 2) fun hin => hj ?_).trans (congrArg v (eq_ix0 _))
    have h3 : (j.val - 0) / (0 + 1) < 100000 := hin.2.2
    omega

/-- The padded graph ids at row j: the operand's id while j is a real row, the fill word after. -/
theorem pad_ids_apply (x : IVec S100000 32) (v : IVec S_ 32) (j : Fin 100352) :
    pad S100352 ![0] ![352] ![0] x v pads_S100000_S100352_03520 h_S_ (ix1 j)
      = if hj : j.val < 100000 then x (ix1 ⟨j.val, hj⟩) else v ix0 := by
  by_cases hj : j.val < 100000
  · rw [dif_pos hj]
    refine pad_apply_of_inside ![0] ![352] ![0] x v pads_S100000_S100352_03520 h_S_ (ix1 j)
      (ix1 ⟨j.val, hj⟩) fun a => ?_
    match a with
    | ⟨0, _⟩ => show j.val = 0 + j.val * (0 + 1); omega
  · rw [dif_neg hj]
    refine (pad_apply_of_not_inside ![0] ![352] ![0] x v pads_S100000_S100352_03520 h_S_ (ix1 j)
      (0 : Fin 1) fun hin => hj ?_).trans (congrArg v (eq_ix0 _))
    have h3 : (j.val - 0) / (0 + 1) < 100000 := hin.2.2
    omega

/-- The padded ids viewed as one row keep entry j at (0, j). -/
theorem row_of_ids (y : IVec S100352 32) (j : Fin 100352) :
    shapeCast S1x100352 y shapeCasts_S100352_S1x100352 (ix2 (0 : Fin 1) j) = y (ix1 j) :=
  shapeCast_a_1a_apply y shapeCasts_S100352_S1x100352 0 j

/-- A layer's bias viewed as one row keeps entry q at (0, q). -/
theorem row_of_bias (b : FVec Ideal S64 .f32) (q : Fin 64) :
    shapeCast S1x64 b shapeCasts_S64_S1x64 (ix2 (0 : Fin 1) q) = b (ix1 q) :=
  shapeCast_a_1a_apply b shapeCasts_S64_S1x64 0 q

/-- The head's bias viewed as one cell is its one entry. -/
theorem cell_of_bias (b : FVec Ideal S1 .f32) :
    shapeCast S1x1 b shapeCasts_S1_S1x1 (ix2 (0 : Fin 1) (0 : Fin 1)) = b (ix1 (0 : Fin 1)) :=
  shapeCast_a_1a_apply b shapeCasts_S1_S1x1 0 0

/-- The activations' fill value, the integer zero converted, is the real zero. -/
theorem zero_fill : sitofp (F := Ideal) .f32 (constantI S_ 32 0#32) ix0 = (0 : EReal) := by
  rw [sitofp_apply, constantI_apply]
  show ((((0#32 : BitVec 32).toInt : ℤ) : ℝ) : EReal) = 0
  simp

end Cert.KernelIdeal.Hand

end
-- ==== Proof.LibUpdate.lean ====
import Idealize.ShloMosaic.Lib.StableHlo.Run

/-!
# A host operation's result as an update of the valuation

A host operation that writes one buffer changes the valuation at that buffer and nowhere else: its result is the
valuation updated there by the operation's value. Stated for the two-operand builder and for the builder over a family
of operands.
-/

namespace Idealize.ShloMosaic.StableHlo

variable {τ : Topo} {sig : RefSig} {Val : EltTy → Type}

/-- `%y = ‹f› %a, %b`: the valuation updated at `y` by `f` of the operands' contents. -/
theorem binary_result_eq_update (a b y : Ref sig .tc) (f : a.ty.Contents Val → b.ty.Contents Val → y.ty.Contents Val) (ha hb hy)
    (V : Valuation τ sig Val) :
    (binary (τ := τ) a b y f ha hb hy).result V
      = Function.update V (Proc.devRef .tc y) (f (V (Proc.devRef .tc a)) (V (Proc.devRef .tc b))) := by
  funext r
  by_cases h : r = Proc.devRef .tc y
  · subst h
    rw [Function.update_self]
    exact binary_result a b y f ha hb hy V
  · rw [Function.update_of_ne h]
    exact HloOp.result_of_not_mem _ _ (by rw [binary_writes, Finset.mem_singleton]; exact h)

/-- `%y = ‹f› %x₀, …, %xₙ₋₁`: the valuation updated at `y` by `f` of the operands' contents. -/
theorem nary_result_eq_update {n : Nat} (xs : Fin n → Ref sig .tc) (y : Ref sig .tc)
    (f : ((k : Fin n) → (xs k).ty.Contents Val) → y.ty.Contents Val) (hxs hy) (V : Valuation τ sig Val) :
    (nary (τ := τ) xs y f hxs hy).result V
      = Function.update V (Proc.devRef .tc y) (f (fun k => V (Proc.devRef .tc (xs k)))) := by
  funext r
  by_cases h : r = Proc.devRef .tc y
  · subst h
    rw [Function.update_self]
    exact nary_result xs y f hxs hy V
  · rw [Function.update_of_ne h]
    exact HloOp.result_of_not_mem _ _ (by rw [nary_writes, Finset.mem_singleton]; exact h)

end Idealize.ShloMosaic.StableHlo
-- ==== Proof.KI.ValueChain.lean ====
/-
  The idealized kernel program's boundary contents as the straight line `kops`. Region by region, the one buffer a
  region replaces holds the reference-spelt function of the region's operands: the projections by the blocks-to-array
  argument, the rectified sums likewise (the bias row the kernel reads is the bias vector laid out as one row), the pooled
  result by the fold over the 49 tiles (the padded rows carry the graph id of no graph and zero features). So the contents
  after the last region are `kops` folded over the launch contents, and in particular the result array is.
-/
import proofs.«409485_j54838142435789_2_alg».proof.Proof.KI.Reg4
import proofs.«409485_j54838142435789_2_alg».proof.Proof.KI.KOps
import proofs.«409485_j54838142435789_2_alg».proof.Proof.KI.ValLin0
import proofs.«409485_j54838142435789_2_alg».proof.Proof.KI.ValBias1
import proofs.«409485_j54838142435789_2_alg».proof.Proof.KI.ValLin2
import proofs.«409485_j54838142435789_2_alg».proof.Proof.KI.ValBias3
import proofs.«409485_j54838142435789_2_alg».proof.Proof.KI.PoolValue
import proofs.«409485_j54838142435789_2_alg».proof.Proof.KI.FeedAt
import proofs.«409485_j54838142435789_2_alg».proof.Proof.LibUpdate

set_option maxRecDepth 16384

noncomputable section

namespace Cert.KernelIdeal.Hand

open Cert.KernelIdeal Cert.KernelIdeal.Gen
open Idealize.ShloMosaic Idealize.ShloMosaic.TcCoe Idealize.ShloMosaic.StableHlo Idealize.ShloMosaic.ValueIdx
open Idealize.SL Idealize.SL.Sem
open Idealize.ShloMosaic.Pipeline (Dat)

variable (m : (ℓ : Loc nD τ sig) → Buf (Elt Ideal) ℓ)

/-! ## The regions, one by one -/

/-- Region 0 leaves the projection of the features. -/
theorem Wb_eq (c : Dev nD) : Wb m c = (opLin1 (F := Ideal)).result (Wa m c) := by
  rw [show (opLin1 (F := Ideal)) = StableHlo.binary main_arg0 main_arg3 main_v30 (linF (F := Ideal)) from rfl,
    binary_result_eq_update]
  unfold Wb o30
  exact congrArg (Function.update (Wa m c) _) (lin0_value (Ea m) c)

/-- The bias row region 1 reads is the bias vector as one row: the last operation of the stretch before it reshapes it. -/
theorem row44 (c : Dev nD) (q : Fin 64) : Ec m c main_v44 (ix2 (0 : Fin 1) q) = Ec m c main_arg4 (ix1 q) := by
  have e4 : Wc m c main_arg4 = Wb m c main_arg4 := StableHlo.after_of_writes_sub hostOps1 _ hostOps1_writes (by decide)
  have e44 : Wc m c main_v44 = fun i => shapeCast S1x64 (Wb m c main_arg4) shapeCasts_S64_S1x64 i := by
    unfold Wc; dsimp only [hostOps1]; after_results_simp; rfl
  show Wc m c main_v44 (ix2 (0 : Fin 1) q) = Wc m c main_arg4 (ix1 q)
  rw [e44, e4]
  exact row_of_bias _ q

/-- Region 1 leaves the rectified sum of the aggregated messages and the bias. -/
theorem Wd_eq (c : Dev nD) : Wd m c = (opBias1 (F := Ideal)).result (Wc m c) := by
  rw [show (opBias1 (F := Ideal)) = StableHlo.binary main_v43 main_arg4 main_v45 (biasReluF (F := Ideal)) from rfl,
    binary_result_eq_update]
  unfold Wd o45
  exact congrArg (Function.update (Wc m c) _) (bias1_value (Ec m) c (row44 m c))

/-- Region 2 leaves the projection of the first layer's output. -/
theorem We_eq (c : Dev nD) : We m c = (opLin2 (F := Ideal)).result (Wd m c) := by
  rw [show (opLin2 (F := Ideal)) = StableHlo.binary main_v45 main_arg5 main_v46 (linF (F := Ideal)) from rfl,
    binary_result_eq_update]
  unfold We o46
  exact congrArg (Function.update (Wd m c) _) (lin2_value (Ed m) c)

theorem row60 (c : Dev nD) (q : Fin 64) : Ef m c main_v60 (ix2 (0 : Fin 1) q) = Ef m c main_arg6 (ix1 q) := by
  have e6 : Wf m c main_arg6 = We m c main_arg6 := StableHlo.after_of_writes_sub hostOps3 _ hostOps3_writes (by decide)
  have e60 : Wf m c main_v60 = fun i => shapeCast S1x64 (We m c main_arg6) shapeCasts_S64_S1x64 i := by
    unfold Wf; dsimp only [hostOps3]; after_results_simp; rfl
  show Wf m c main_v60 (ix2 (0 : Fin 1) q) = Wf m c main_arg6 (ix1 q)
  rw [e60, e6]
  exact row_of_bias _ q

/-- Region 3 leaves the second layer's rectified sum. -/
theorem Wg_eq (c : Dev nD) : Wg m c = (opBias2 (F := Ideal)).result (Wf m c) := by
  rw [show (opBias2 (F := Ideal)) = StableHlo.binary main_v59 main_arg6 main_v61 (biasReluF (F := Ideal)) from rfl,
    binary_result_eq_update]
  unfold Wg o61
  exact congrArg (Function.update (Wf m c) _) (bias3_value (Ef m) c (row60 m c))

/-! ## What the pooling region is fed -/

/-- The five last host stretches write none of the activations, the graph ids, the head's weights and bias. -/
theorem Wh_keep (c : Dev nD) (r : Ref sig .tc) (h0 : r ∉ hostOps4_W) (h1 : r ∉ hostOps4_1_W) (h2 : r ∉ hostOps4_2_W)
    (h3 : r ∉ hostOps4_3_W) (h4 : r ∉ hostOps4_4_W) : Wh m c r = Wg m c r := by
  unfold Wh
  rw [StableHlo.after_of_writes_sub hostOps4_4 _ hostOps4_4_writes h4, StableHlo.after_of_writes_sub hostOps4_3 _ hostOps4_3_writes h3,
    StableHlo.after_of_writes_sub hostOps4_2 _ hostOps4_2_writes h2, StableHlo.after_of_writes_sub hostOps4_1 _ hostOps4_1_writes h1,
    StableHlo.after_of_writes_sub hostOps4 _ hostOps4_writes h0]

/-- The padded activations the pooling reads: row `j` is row `j` of the second layer's output below 100000, and zero
    in the 352 padding rows. -/
theorem act62 (c : Dev nD) (j : Fin 100352) (f : Fin 64) :
    (Eh m c main_v62 : S100352x64.Idx → EReal) (ix2 j f)
      = if hj : j.val < 100000 then (Wh m c main_v61 : S100000x64.Idx → EReal) (ix2 ⟨j.val, hj⟩ f) else (0 : EReal) := by
  have e61 : Wh m c main_v61 = Wg m c main_v61 :=
    Wh_keep m c main_v61 (by decide) (by decide) (by decide) (by decide) (by decide)
  have e62 : Wh m c main_v62 = pad S100352x64 ![0, 0] ![352, 0] ![0, 0] (Wg m c main_v61)
      (sitofp (F := Ideal) .f32 (constantI S_ 32 0#32)) pads_S100000x64_S100352x64_03520_000 h_S_ := by
    unfold Wh; dsimp only [hostOps4_4, hostOps4_3, hostOps4_2, hostOps4_1, hostOps4]
    after_results_simp <;> (try simp only [StableHlo.TRef.ofBuf, StableHlo.TRef.toBuf, cast_eq]) <;> rfl
  show (Wh m c main_v62 : S100352x64.Idx → EReal) (ix2 j f) = _
  rw [e62, e61, pad_rows_apply, zero_fill]

/-- The padded graph ids as one row: id `j` below 100000, the word of minus one in the padding. -/
theorem ids64 (c : Dev nD) (j : Fin 100352) :
    Eh m c main_v64 (ix2 (0 : Fin 1) j) = if hj : j.val < 100000 then Wh m c main_arg2 (ix1 ⟨j.val, hj⟩) else 4294967295#32 := by
  have e2 : Wh m c main_arg2 = Wg m c main_arg2 :=
    Wh_keep m c main_arg2 (by decide) (by decide) (by decide) (by decide) (by decide)
  have e64 : Wh m c main_v64 = fun i => shapeCast S1x100352 (pad S100352 ![0] ![352] ![0] (Wg m c main_arg2)
      (constantI S_ 32 4294967295#32) pads_S100000_S100352_03520 h_S_) shapeCasts_S100352_S1x100352 i := by
    unfold Wh; dsimp only [hostOps4_4, hostOps4_3, hostOps4_2, hostOps4_1, hostOps4]
    after_results_simp <;> (try simp only [StableHlo.TRef.ofBuf, StableHlo.TRef.toBuf, cast_eq, id]) <;> rfl
  show Wh m c main_v64 (ix2 (0 : Fin 1) j) = _
  rw [e64, e2]
  dsimp only
  rw [row_of_ids, pad_ids_apply]
  rfl

/-- The head's bias as a 1 × 1 array. -/
theorem cell65 (c : Dev nD) : Eh m c main_v65 (ix2 (0 : Fin 1) (0 : Fin 1)) = Wh m c main_arg8 (ix1 (0 : Fin 1)) := by
  have e8 : Wh m c main_arg8 = Wg m c main_arg8 :=
    Wh_keep m c main_arg8 (by decide) (by decide) (by decide) (by decide) (by decide)
  have e65 : Wh m c main_v65 = fun i => shapeCast S1x1 (Wg m c main_arg8) shapeCasts_S1_S1x1 i := by
    unfold Wh; dsimp only [hostOps4_4, hostOps4_3, hostOps4_2, hostOps4_1, hostOps4]
    after_results_simp <;> rfl
  show Wh m c main_v65 (ix2 (0 : Fin 1) (0 : Fin 1)) = _
  rw [e65, e8]
  exact cell_of_bias _

/-- The pooling region leaves the reference-spelt pooled result of the second layer's output, the graph ids and the head. -/
theorem Wi_eq (c : Dev nD) : Wi m (d4f m) c = (opPool (F := Ideal)).result (Wh m c) := by
  rw [show (opPool (F := Ideal)) = StableHlo.nary ![main_v61, main_arg2, main_arg7, main_arg8] main_v66
      (fun g => poolF (F := Ideal) (g 0) (g 1) (g 2) (g 3)) from rfl, nary_result_eq_update]
  unfold Wi o66
  refine congrArg (Function.update (Wh m c) _) ?_
  exact pool_value (Eh m) c (Wh m c main_v61) (Wh m c main_arg2) (Wh m c main_arg7) (Wh m c main_arg8)
    (ids64 m c) (act62 m c) rfl (cell65 m c)

/-! ## The whole line -/

/-- The contents after the last region are `kops` folded over the launch contents. -/
theorem chain_eq (c : Dev nD) : StableHlo.after (kops (F := Ideal)) (V0 m c) = Wi m (d4f m) c := by
  simp only [kops, StableHlo.after_append]
  show (opPool (F := Ideal)).result (StableHlo.after hostOps4_4 (StableHlo.after hostOps4_3 (StableHlo.after hostOps4_2
    (StableHlo.after hostOps4_1 (StableHlo.after hostOps4 ((opBias2 (F := Ideal)).result (StableHlo.after hostOps3
      ((opLin2 (F := Ideal)).result ((opBias1 (F := Ideal)).result (StableHlo.after hostOps1
        ((opLin1 (F := Ideal)).result (Wa m c)))))))))))) = _
  rw [← Wb_eq, show StableHlo.after hostOps1 (Wb m c) = Wc m c from rfl, ← Wd_eq, ← We_eq,
    show StableHlo.after hostOps3 (We m c) = Wf m c from rfl, ← Wg_eq,
    show StableHlo.after hostOps4_4 (StableHlo.after hostOps4_3 (StableHlo.after hostOps4_2 (StableHlo.after hostOps4_1
      (StableHlo.after hostOps4 (Wg m c))))) = Wh m c from rfl, ← Wi_eq]

/-- The result array after the idealized program's run is the line `kops`'s value at it. -/
theorem result_eq (c : Dev nD) : o66 (d4f m) c = StableHlo.after (kops (F := Ideal)) (V0 m c) main_v66 := by
  rw [chain_eq]
  simp only [Wi, Function.update_self]

end Cert.KernelIdeal.Hand

end
-- ==== Proof.KI.RunValue.lean ====
/-
  The idealized kernel program's run with its result named. The argument arrays end as launched; and the result array
  `main_v66`, which only the pooling region writes and no later item touches, ends at what that region leaves in it: it is
  read off the last boundary's contents like the arguments.
-/
import proofs.«409485_j54838142435789_2_alg».proof.Proof.Gen.KernelIdeal.Regions

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ) (outs : Outs (F := F))

/-- The last boundary's contents at the result array: what the pooling region leaves there. -/
theorem V15_result (c : Dev nD) : V15 m outs c main_v66 = outs 15 main_v66 c := by
  simp only [V15, Function.update_self]

set_option backward.isDefEq.respectTransparency.types false in
/-- The run with the result named. For any user algebra, level assignment, launch dues and ghost resources, any rest
    states the launch makes on every core at once and that end owing nothing, any contents `outs` the regions leave and
    any proof data: given, per region, a segment entered from the thread state before it and left at the one after it,
    every weakly fair execution of @main from memory `m` with zero counters terminates, and every final memory holds the
    result array at what the last region leaves in it and each argument as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 5) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 6 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE5 : ∀ c : Dev nD, E 5 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V3 m c) ∗ E 0 c) ⊢ R0.pre c)
    (hpost0 : ∀ c : Dev nD, R0.post c ⊢ iprop(StableHlo.held (c : Thread nD τ) (Pipeline.ucRefs τ sig) (V4 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V5 m outs c) ∗ E 1 c) ⊢ R1.pre c)
    (hpost1 : ∀ c : Dev nD, R1.post c ⊢ iprop(StableHlo.held (c : Thread nD τ) (Pipeline.ucRefs τ sig) (V6 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V6 m outs c) ∗ E 2 c) ⊢ R2.pre c)
    (hpost2 : ∀ c : Dev nD, R2.post c ⊢ iprop(StableHlo.held (c : Thread nD τ) (Pipeline.ucRefs τ sig) (V7 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V8 m outs c) ∗ E 3 c) ⊢ R3.pre c)
    (hpost3 : ∀ c : Dev nD, R3.post c ⊢ iprop(StableHlo.held (c : Thread nD τ) (Pipeline.ucRefs τ sig) (V9 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V14 m outs c) ∗ E 4 c) ⊢ R4.pre c)
    (hpost4 : ∀ c : Dev nD, R4.post c ⊢ iprop(StableHlo.held (c : Thread nD τ) (Pipeline.ucRefs τ sig) (V15 m outs c) ∗ E 5 c)) :
    θ_run defs (onTc (τ := τ) (main (F := F))) ⟨m, fun _ => 0, ρ⟩ (fun r => ∀ c : Dev nD,
      r.2.mem ((c.tc : Thread nD τ).loc main_v66) = outs 15 main_v66 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine Pipeline.θ_run_regions_kit_dev (pcfgs (F := F)) adm pdats ι cellOf_inj EP defs₀ 𝒱₀ L lv m ρ main
    (segs m outs 𝒱₀ L lv E ι pdats R0 R1 R2 R3 R4)
    (fun c Q => by
      rewrite [main_chain c, Seg.run_eq_chain,
        show (segs m outs 𝒱₀ L lv E ι pdats R0 R1 R2 R3 R4 c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          StableHlo.seq hostOps4,
          StableHlo.seq hostOps4_1,
          StableHlo.seq hostOps4_2,
          StableHlo.seq hostOps4_3,
          StableHlo.seq hostOps4_4,
          Prog.lift (.customCall (Pipeline.entry 4) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V15 m outs c))
    (hch := fun c => ⟨.rfl, .rfl, .rfl, hpre0 c, hpost0 c, hpre1 c, (hpost1 c).trans (hpre2 c), hpost2 c, hpre3 c, hpost3 c, .rfl, .rfl, .rfl, .rfl, hpre4 c, (hpost4 c).trans (sep_mono .rfl (hE5 c))⟩)
    (hinit := ?_) (QY := fun c s => s.mem ((c.tc : Thread nD τ).loc main_v66) = outs 15 main_v66 c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V15 m outs c) s') $$ [Hh HSI]
    · isplitl [Hh] <;> iassumption
    icases Hr with ⟨%h, HSI⟩
    imodintro
    isplitr
    · ipureintro
      exact ⟨(h (Proc.devRef .tc main_v66) (Finset.mem_filter.mpr ⟨StableHlo.devRef_mem_tcRefs main_v66, by decide⟩)).trans (V15_result m outs c),
        (h (Proc.devRef .tc main_arg0) (Finset.mem_filter.mpr ⟨StableHlo.devRef_mem_tcRefs main_arg0, by decide⟩)).trans (V15_main_arg0 m outs c),
        (h (Proc.devRef .tc main_arg1) (Finset.mem_filter.mpr ⟨StableHlo.devRef_mem_tcRefs main_arg1, by decide⟩)).trans (V15_main_arg1 m outs c),
        (h (Proc.devRef .tc main_arg2) (Finset.mem_filter.mpr ⟨StableHlo.devRef_mem_tcRefs main_arg2, by decide⟩)).trans (V15_main_arg2 m outs c),
        (h (Proc.devRef .tc main_arg3) (Finset.mem_filter.mpr ⟨StableHlo.devRef_mem_tcRefs main_arg3, by decide⟩)).trans (V15_main_arg3 m outs c),
        (h (Proc.devRef .tc main_arg4) (Finset.mem_filter.mpr ⟨StableHlo.devRef_mem_tcRefs main_arg4, by decide⟩)).trans (V15_main_arg4 m outs c),
        (h (Proc.devRef .tc main_arg5) (Finset.mem_filter.mpr ⟨StableHlo.devRef_mem_tcRefs main_arg5, by decide⟩)).trans (V15_main_arg5 m outs c),
        (h (Proc.devRef .tc main_arg6) (Finset.mem_filter.mpr ⟨StableHlo.devRef_mem_tcRefs main_arg6, by decide⟩)).trans (V15_main_arg6 m outs c),
        (h (Proc.devRef .tc main_arg7) (Finset.mem_filter.mpr ⟨StableHlo.devRef_mem_tcRefs main_arg7, by decide⟩)).trans (V15_main_arg7 m outs c),
        (h (Proc.devRef .tc main_arg8) (Finset.mem_filter.mpr ⟨StableHlo.devRef_mem_tcRefs main_arg8, by decide⟩)).trans (V15_main_arg8 m outs c)⟩
    · iexact HSI

end Cert.KernelIdeal.Hand

end
-- ==== Proof.KI.RunV.lean ====
/-
  The idealized kernel program's run with its result named, from its five regions' segments: the same instantiation as
  for the frame (the regions' real outputs for `outs`, the generator register and dues of nothing riding along), over
  the run that also reads the result array off the last boundary's contents. What the last region leaves there is the
  pooling pipeline's output after its one write-back.
-/
import proofs.«409485_j54838142435789_2_alg».proof.Proof.KI.Run
import proofs.«409485_j54838142435789_2_alg».proof.Proof.KI.RunValue

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
variable (d4 : (c : Dev nD) → Dat τ (Elt F) Unit ℕ (UR sig nD τ) ℕ cfg4 c)

set_option backward.isDefEq.respectTransparency.types false in
/-- The run with the result named, given the pooling region's segment between `Wh` and `Wi`: the result array ends at
    what that region's one write-back leaves. -/
theorem run_value_of (ρ : Dev nD → PrngReg)
    (R4 : Pipeline.RegionSeg (pcfgs (F := F)) adm (pdats m d4) () defs₀ 𝒱n Ln lvn 4)
    (hpre4 : ∀ c : Dev nD, iprop(StableHlo.held (c : Thread nD τ) (Pipeline.ucRefs τ sig) (Wh m c) ∗ Rst c) ⊢ R4.pre c)
    (hpost4 : ∀ c : Dev nD, R4.post c ⊢ iprop(StableHlo.held (c : Thread nD τ) (Pipeline.ucRefs τ sig) (Wi m d4 c) ∗ Rst c)) :
    θ_run defs (onTc (τ := τ) (main (F := F))) ⟨m, fun _ => 0, ρ⟩ (fun r => ∀ c : Dev nD,
      r.2.mem ((c.tc : Thread nD τ).loc main_v66) = o66 d4 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (outs_v66 m d4 15 c), (h c).2⟩) <|
  run_cond m (Ix := Unit) (U := UR sig nD τ) (Lvl := ℕ) emb₁ () 𝒱n Ln lvn (fun _ _ => rfl) ρ (outs m d4) (pdats m d4)
    (0 : Dev nD → CellTallies nD τ sig Unit) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => Rst c)
    (rest_init ρ)
    (fun c => by iintro ⟨-, HO⟩; iexact HO)
    (reg0 m d4) (fun c => .rfl) (fun c => by rw [V4_eq]; exact .rfl)
    (reg1 m d4) (fun c => by rw [V5_eq]; exact .rfl) (fun c => by rw [V6_eq]; exact .rfl)
    (reg2 m d4) (fun c => by rw [V6_eq]; exact .rfl) (fun c => by rw [V7_eq]; exact .rfl)
    (reg3 m d4) (fun c => by rw [V8_eq]; exact .rfl) (fun c => by rw [V9_eq]; exact .rfl)
    R4 (fun c => by rw [V14_eq]; exact hpre4 c) (fun c => by rw [V15_eq]; exact hpost4 c)

end Cert.KernelIdeal.Hand

end
-- ==== Proof.LibAgree.lean ====
import Idealize.ShloMosaic.Lib.StableHlo.Run

/-!
# Two lines of host operations stepped in lockstep

Two programs over two signatures run the same operations on buffers paired by position. `Agree P V₁ V₂` says the two
valuations hold the same contents at every pair of the list `P`; the contents of a pair are compared heterogeneously,
the two signatures giving the paired buffers types that are equal only once their tables are unfolded. `Sim P ops ops' Q`
says: from valuations agreeing on `P`, after `ops` on one side and `ops'` on the other the valuations agree on `Q`.
One rule per builder steps an operation on each side and adds the pair of result buffers; every buffer being written
once, a pair already listed is never written again (the freshness hypotheses).
-/

namespace Idealize.ShloMosaic.StableHlo

variable {τ : Topo} {sig₁ sig₂ : RefSig} {Val : EltTy → Type}

/-! ## Heterogeneous congruence -/

/-- Heterogeneously equal functions at heterogeneously equal arguments, the domains and the codomains being equal types. -/
theorem heq_app {A A' B B' : Type} (hA : A = A') (hB : B = B') {f : A → B} {f' : A' → B'} (hf : HEq f f')
    {a : A} {a' : A'} (ha : HEq a a') : HEq (f a) (f' a') := by
  subst hA hB; cases hf; cases ha; rfl

/-- Dependent families that agree pointwise, over pointwise equal types. -/
theorem heq_pi {ι : Type} {A A' : ι → Type} (hA : ∀ k, A k = A' k) {g : (k : ι) → A k} {g' : (k : ι) → A' k}
    (h : ∀ k, HEq (g k) (g' k)) : HEq g g' := by
  obtain rfl : A = A' := funext hA
  exact heq_of_eq (funext fun k => eq_of_heq (h k))

/-- Functions of a dependent family, likewise. -/
theorem heq_app_pi {ι : Type} {A A' : ι → Type} {B B' : Type} (hA : ∀ k, A k = A' k) (hB : B = B')
    {f : ((k : ι) → A k) → B} {f' : ((k : ι) → A' k) → B'} (hf : HEq f f')
    {g : (k : ι) → A k} {g' : (k : ι) → A' k} (h : ∀ k, HEq (g k) (g' k)) : HEq (f g) (f' g') := by
  obtain rfl : A = A' := funext hA
  subst hB; cases hf
  exact heq_of_eq (congrArg f (funext fun k => eq_of_heq (h k)))

/-- A reshape of heterogeneously equal contents, the buffer types being equal. -/
theorem heq_reshape {T₁ T₁' T₂ T₂' : BufTy} (h₁ : T₁ = T₁') (h₂ : T₂ = T₂') (he : T₁.elt = T₂.elt) (he' : T₁'.elt = T₂'.elt)
    (hn : T₁.shape.ShapeCasts T₂.shape) (hn' : T₁'.shape.ShapeCasts T₂'.shape)
    {a : T₁.Contents Val} {a' : T₁'.Contents Val} (ha : HEq a a') :
    HEq (fun i => he ▸ shapeCast T₂.shape a hn i : T₂.Contents Val) (fun i => he' ▸ shapeCast T₂'.shape a' hn' i : T₂'.Contents Val) := by
  subst h₁ h₂; cases ha; rfl

/-! ## Agreement on a list of pairs -/

/-- The two valuations hold the same contents at every pair of `P`. -/
def Agree (P : List (Ref sig₁ .tc × Ref sig₂ .tc)) (V₁ : Valuation τ sig₁ Val) (V₂ : Valuation τ sig₂ Val) : Prop :=
  ∀ p ∈ P, HEq (V₁ (Proc.devRef .tc p.1)) (V₂ (Proc.devRef .tc p.2))

namespace Agree

variable {P Q : List (Ref sig₁ .tc × Ref sig₂ .tc)} {V₁ : Valuation τ sig₁ Val} {V₂ : Valuation τ sig₂ Val}

theorem nil : Agree (τ := τ) (Val := Val) ([] : List (Ref sig₁ .tc × Ref sig₂ .tc)) V₁ V₂ := fun _ h => absurd h List.not_mem_nil

theorem cons {a : Ref sig₁ .tc} {a' : Ref sig₂ .tc} (h : HEq (V₁ (Proc.devRef .tc a)) (V₂ (Proc.devRef .tc a')))
    (t : Agree P V₁ V₂) : Agree ((a, a') :: P) V₁ V₂ := fun p hp => by
  rcases List.mem_cons.mp hp with rfl | hp
  · exact h
  · exact t p hp

/-- The contents at a listed pair. -/
theorem get (h : Agree P V₁ V₂) {a : Ref sig₁ .tc} {a' : Ref sig₂ .tc} (hin : (a, a') ∈ P) :
    HEq (V₁ (Proc.devRef .tc a)) (V₂ (Proc.devRef .tc a')) := h (a, a') hin

/-- Pairs may be dropped. -/
theorem mono (h : Agree P V₁ V₂) (hQ : Q ⊆ P) : Agree Q V₁ V₂ := fun p hp => h p (hQ hp)

/-- An operation on each side, each writing one buffer that no listed pair names, the two results being the same: the
    valuations after them agree on the list and on the pair of result buffers. -/
theorem write (h : Agree P V₁ V₂) {op : HloOp τ sig₁ Val} {op' : HloOp τ sig₂ Val} {y : Ref sig₁ .tc} {y' : Ref sig₂ .tc}
    (hw : op.writes = {Proc.devRef .tc y}) (hw' : op'.writes = {Proc.devRef .tc y'})
    (hy : y ∉ P.map Prod.fst) (hy' : y' ∉ P.map Prod.snd)
    (hres : HEq (op.result V₁ (Proc.devRef .tc y)) (op'.result V₂ (Proc.devRef .tc y'))) :
    Agree ((y, y') :: P) (op.result V₁) (op'.result V₂) := fun p hp => by
  rcases List.mem_cons.mp hp with rfl | hp
  · exact hres
  · have h1 : Proc.devRef .tc p.1 ∉ op.writes := by
      rw [hw, Finset.mem_singleton]
      exact devRef_ne_of_ne fun e => hy (e ▸ List.mem_map_of_mem (f := Prod.fst) hp)
    have h2 : Proc.devRef .tc p.2 ∉ op'.writes := by
      rw [hw', Finset.mem_singleton]
      exact devRef_ne_of_ne fun e => hy' (e ▸ List.mem_map_of_mem (f := Prod.snd) hp)
    rw [op.result_of_not_mem V₁ h1, op'.result_of_not_mem V₂ h2]
    exact h p hp

/-- An operation on the first side only, writing one buffer that no listed pair names. -/
theorem writeL (h : Agree P V₁ V₂) {op : HloOp τ sig₁ Val} {y : Ref sig₁ .tc}
    (hw : op.writes = {Proc.devRef .tc y}) (hy : y ∉ P.map Prod.fst) : Agree P (op.result V₁) V₂ := fun p hp => by
  have h1 : Proc.devRef .tc p.1 ∉ op.writes := by
    rw [hw, Finset.mem_singleton]
    exact devRef_ne_of_ne fun e => hy (e ▸ List.mem_map_of_mem (f := Prod.fst) hp)
  rw [op.result_of_not_mem V₁ h1]
  exact h p hp

/-- An operation on the second side only. -/
theorem writeR (h : Agree P V₁ V₂) {op' : HloOp τ sig₂ Val} {y' : Ref sig₂ .tc}
    (hw' : op'.writes = {Proc.devRef .tc y'}) (hy' : y' ∉ P.map Prod.snd) : Agree P V₁ (op'.result V₂) := fun p hp => by
  have h2 : Proc.devRef .tc p.2 ∉ op'.writes := by
    rw [hw', Finset.mem_singleton]
    exact devRef_ne_of_ne fun e => hy' (e ▸ List.mem_map_of_mem (f := Prod.snd) hp)
  rw [op'.result_of_not_mem V₂ h2]
  exact h p hp

end Agree

/-! ## Two lines in lockstep -/

/-- From valuations agreeing on `P`, after `ops` on one side and `ops'` on the other the valuations agree on `Q`. -/
def Sim (P : List (Ref sig₁ .tc × Ref sig₂ .tc)) (ops : List (HloOp τ sig₁ Val)) (ops' : List (HloOp τ sig₂ Val))
    (Q : List (Ref sig₁ .tc × Ref sig₂ .tc)) : Prop :=
  ∀ (V₁ : Valuation τ sig₁ Val) (V₂ : Valuation τ sig₂ Val), Agree P V₁ V₂ → Agree Q (after ops V₁) (after ops' V₂)

namespace Sim

variable {P P' Q : List (Ref sig₁ .tc × Ref sig₂ .tc)} {ops l₁ l₂ : List (HloOp τ sig₁ Val)} {ops' l₁' l₂' : List (HloOp τ sig₂ Val)}

/-- Both lines done: keep the pairs wanted. -/
theorem done (hQ : Q ⊆ P) : Sim (τ := τ) (Val := Val) P [] [] Q := fun _ _ h => h.mono hQ

/-- One operation on each side, then the rest. -/
theorem step {op : HloOp τ sig₁ Val} {op' : HloOp τ sig₂ Val}
    (hstep : ∀ (V₁ : Valuation τ sig₁ Val) (V₂ : Valuation τ sig₂ Val), Agree P V₁ V₂ → Agree P' (op.result V₁) (op'.result V₂))
    (k : Sim P' ops ops' Q) : Sim P (op :: ops) (op' :: ops') Q := fun V₁ V₂ h => k _ _ (hstep V₁ V₂ h)

/-- An operation on the first side with no counterpart, writing a buffer no listed pair names. -/
theorem skipL {op : HloOp τ sig₁ Val} {y : Ref sig₁ .tc} (hw : op.writes = {Proc.devRef .tc y}) (hy : y ∉ P.map Prod.fst)
    (k : Sim P ops ops' Q) : Sim P (op :: ops) ops' Q := fun V₁ V₂ h => k _ _ (h.writeL hw hy)

/-- An operation on the second side with no counterpart. -/
theorem skipR {op' : HloOp τ sig₂ Val} {y' : Ref sig₂ .tc} (hw' : op'.writes = {Proc.devRef .tc y'}) (hy' : y' ∉ P.map Prod.snd)
    (k : Sim P ops ops' Q) : Sim P ops (op' :: ops') Q := fun V₁ V₂ h => k _ _ (h.writeR hw' hy')

private theorem after_append' {sig : RefSig} : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_append' l₁ l₂]

/-- Two stretches in a row. -/
theorem append (h₁ : Sim P l₁ l₁' P') (h₂ : Sim P' l₂ l₂' Q) : Sim P (l₁ ++ l₂) (l₁' ++ l₂') Q := fun V₁ V₂ h => by
  rw [after_append', after_append']
  exact h₂ _ _ (h₁ _ _ h)

/-- A first stretch, then the flattening of the others. -/
theorem flatten_cons {L : List (List (HloOp τ sig₁ Val))} {L' : List (List (HloOp τ sig₂ Val))}
    (h₁ : Sim P l₁ l₁' P') (h₂ : Sim P' L.flatten L'.flatten Q) : Sim P (l₁ :: L).flatten (l₁' :: L').flatten Q := by
  rw [List.flatten_cons, List.flatten_cons]
  exact h₁.append h₂

/-- The pairs kept may be dropped afterwards. -/
theorem mono {Q' : List (Ref sig₁ .tc × Ref sig₂ .tc)} (h : Sim P ops ops' Q) (hQ : Q' ⊆ Q) : Sim P ops ops' Q' :=
  fun V₁ V₂ hP => (h V₁ V₂ hP).mono hQ

/-- What the two lines leave at a pair kept. -/
theorem get (h : Sim P ops ops' Q) {V₁ : Valuation τ sig₁ Val} {V₂ : Valuation τ sig₂ Val} (hP : Agree P V₁ V₂)
    {a : Ref sig₁ .tc} {a' : Ref sig₂ .tc} (hin : (a, a') ∈ Q) :
    HEq (after ops V₁ (Proc.devRef .tc a)) (after ops' V₂ (Proc.devRef .tc a')) := (h V₁ V₂ hP).get hin

/-! ### One rule per builder -/

section Builders

variable {x a b c y : Ref sig₁ .tc} {x' a' b' c' y' : Ref sig₂ .tc}

/-- `%y = ‹op›` on both sides. -/
theorem nullary {v : y.ty.Contents Val} {v' : y'.ty.Contents Val} {hy hy'}
    (hv : HEq v v') (hfy : y ∉ P.map Prod.fst) (hfy' : y' ∉ P.map Prod.snd)
    (k : Sim ((y, y') :: P) ops ops' Q) :
    Sim P (StableHlo.nullary (τ := τ) y v hy :: ops) (StableHlo.nullary (τ := τ) y' v' hy' :: ops') Q :=
  step (fun V₁ V₂ h => h.write rfl rfl hfy hfy' (by rw [nullary_result, nullary_result]; exact hv)) k

/-- `%y = ‹op› %x` on both sides. -/
theorem unary {f : x.ty.Contents Val → y.ty.Contents Val} {f' : x'.ty.Contents Val → y'.ty.Contents Val} {hx hy hx' hy'}
    (hin : (x, x') ∈ P) (htx : x.ty = x'.ty) (hty : y.ty = y'.ty) (hf : HEq f f')
    (hfy : y ∉ P.map Prod.fst) (hfy' : y' ∉ P.map Prod.snd)
    (k : Sim ((y, y') :: P) ops ops' Q) :
    Sim P (StableHlo.unary (τ := τ) x y f hx hy :: ops) (StableHlo.unary (τ := τ) x' y' f' hx' hy' :: ops') Q :=
  step (fun V₁ V₂ h => h.write rfl rfl hfy hfy' (by
    rw [unary_result, unary_result]
    exact heq_app (congrArg (BufTy.Contents Val) htx) (congrArg (BufTy.Contents Val) hty) hf (h.get hin))) k

/-- `%y = ‹op› %a, %b` on both sides. -/
theorem binary {f : a.ty.Contents Val → b.ty.Contents Val → y.ty.Contents Val}
    {f' : a'.ty.Contents Val → b'.ty.Contents Val → y'.ty.Contents Val} {ha hb hy ha' hb' hy'}
    (hina : (a, a') ∈ P) (hinb : (b, b') ∈ P) (hta : a.ty = a'.ty) (htb : b.ty = b'.ty) (hty : y.ty = y'.ty) (hf : HEq f f')
    (hfy : y ∉ P.map Prod.fst) (hfy' : y' ∉ P.map Prod.snd)
    (k : Sim ((y, y') :: P) ops ops' Q) :
    Sim P (StableHlo.binary (τ := τ) a b y f ha hb hy :: ops) (StableHlo.binary (τ := τ) a' b' y' f' ha' hb' hy' :: ops') Q :=
  step (fun V₁ V₂ h => h.write rfl rfl hfy hfy' (by
    rw [binary_result, binary_result]
    have hB := congrArg (BufTy.Contents Val) htb
    have hY := congrArg (BufTy.Contents Val) hty
    exact heq_app hB hY
      (heq_app (congrArg (BufTy.Contents Val) hta) (by rw [hB, hY]) hf (h.get hina)) (h.get hinb))) k

/-- `%y = ‹op› %c, %a, %b` on both sides. -/
theorem ternary {f : c.ty.Contents Val → a.ty.Contents Val → b.ty.Contents Val → y.ty.Contents Val}
    {f' : c'.ty.Contents Val → a'.ty.Contents Val → b'.ty.Contents Val → y'.ty.Contents Val} {hc ha hb hy hc' ha' hb' hy'}
    (hinc : (c, c') ∈ P) (hina : (a, a') ∈ P) (hinb : (b, b') ∈ P)
    (htc : c.ty = c'.ty) (hta : a.ty = a'.ty) (htb : b.ty = b'.ty) (hty : y.ty = y'.ty) (hf : HEq f f')
    (hfy : y ∉ P.map Prod.fst) (hfy' : y' ∉ P.map Prod.snd)
    (k : Sim ((y, y') :: P) ops ops' Q) :
    Sim P (StableHlo.ternary (τ := τ) c a b y f hc ha hb hy :: ops) (StableHlo.ternary (τ := τ) c' a' b' y' f' hc' ha' hb' hy' :: ops') Q :=
  step (fun V₁ V₂ h => h.write rfl rfl hfy hfy' (by
    rw [ternary_result, ternary_result]
    have hA := congrArg (BufTy.Contents Val) hta
    have hB := congrArg (BufTy.Contents Val) htb
    have hY := congrArg (BufTy.Contents Val) hty
    exact heq_app hB hY
      (heq_app hA (by rw [hB, hY])
        (heq_app (congrArg (BufTy.Contents Val) htc) (by rw [hA, hB, hY]) hf (h.get hinc)) (h.get hina)) (h.get hinb))) k

/-- `%y = ‹op› %x₀, …, %xₙ₋₁` on both sides. -/
theorem nary {n : Nat} {xs : Fin n → Ref sig₁ .tc} {xs' : Fin n → Ref sig₂ .tc}
    {f : ((k : Fin n) → (xs k).ty.Contents Val) → y.ty.Contents Val}
    {f' : ((k : Fin n) → (xs' k).ty.Contents Val) → y'.ty.Contents Val} {hxs hy hxs' hy'}
    (hin : ∀ k, (xs k, xs' k) ∈ P) (htx : ∀ k, (xs k).ty = (xs' k).ty) (hty : y.ty = y'.ty) (hf : HEq f f')
    (hfy : y ∉ P.map Prod.fst) (hfy' : y' ∉ P.map Prod.snd)
    (k : Sim ((y, y') :: P) ops ops' Q) :
    Sim P (StableHlo.nary (τ := τ) xs y f hxs hy :: ops) (StableHlo.nary (τ := τ) xs' y' f' hxs' hy' :: ops') Q :=
  step (fun V₁ V₂ h => h.write rfl rfl hfy hfy' (by
    rw [nary_result, nary_result]
    exact heq_app_pi (fun k => congrArg (BufTy.Contents Val) (htx k)) (congrArg (BufTy.Contents Val) hty) hf
      (fun k => h.get (hin k)))) k

/-- `%y = ‹op› %x₀, %x₁, %x₂, %x₃` on both sides, the four operands a literal family: the two functions are compared at
    operands given one by one. -/
theorem nary4 {x0 x1 x2 x3 : Ref sig₁ .tc} {x0' x1' x2' x3' : Ref sig₂ .tc}
    {f : ((k : Fin 4) → ((![x0, x1, x2, x3] : Fin 4 → Ref sig₁ .tc) k).ty.Contents Val) → y.ty.Contents Val}
    {f' : ((k : Fin 4) → ((![x0', x1', x2', x3'] : Fin 4 → Ref sig₂ .tc) k).ty.Contents Val) → y'.ty.Contents Val} {hxs hy hxs' hy'}
    (hin0 : (x0, x0') ∈ P) (hin1 : (x1, x1') ∈ P) (hin2 : (x2, x2') ∈ P) (hin3 : (x3, x3') ∈ P)
    (hf : ∀ (u0 : x0.ty.Contents Val) (u0' : x0'.ty.Contents Val) (u1 : x1.ty.Contents Val) (u1' : x1'.ty.Contents Val)
        (u2 : x2.ty.Contents Val) (u2' : x2'.ty.Contents Val) (u3 : x3.ty.Contents Val) (u3' : x3'.ty.Contents Val),
        HEq u0 u0' → HEq u1 u1' → HEq u2 u2' → HEq u3 u3' →
        HEq (f (Fin.cons u0 (Fin.cons u1 (Fin.cons u2 (Fin.cons u3 (fun i => i.elim0))))))
          (f' (Fin.cons u0' (Fin.cons u1' (Fin.cons u2' (Fin.cons u3' (fun i => i.elim0)))))))
    (hfy : y ∉ P.map Prod.fst) (hfy' : y' ∉ P.map Prod.snd)
    (k : Sim ((y, y') :: P) ops ops' Q) :
    Sim P (StableHlo.nary (τ := τ) ![x0, x1, x2, x3] y f hxs hy :: ops) (StableHlo.nary (τ := τ) ![x0', x1', x2', x3'] y' f' hxs' hy' :: ops') Q :=
  step (fun V₁ V₂ h => h.write rfl rfl hfy hfy' (by
    rw [nary4_result, nary4_result]
    exact hf _ _ _ _ _ _ _ _ (h.get hin0) (h.get hin1) (h.get hin2) (h.get hin3))) k

/-- `%y = stablehlo.reshape %x` on both sides. -/
theorem reshape {he hn hx hy he' hn' hx' hy'}
    (hin : (x, x') ∈ P) (htx : x.ty = x'.ty) (hty : y.ty = y'.ty)
    (hfy : y ∉ P.map Prod.fst) (hfy' : y' ∉ P.map Prod.snd)
    (k : Sim ((y, y') :: P) ops ops' Q) :
    Sim P (StableHlo.reshape (τ := τ) (Val := Val) x y he hn hx hy :: ops) (StableHlo.reshape (τ := τ) (Val := Val) x' y' he' hn' hx' hy' :: ops') Q :=
  step (fun V₁ V₂ h => h.write rfl rfl hfy hfy' (by
    rw [reshape_result, reshape_result]
    exact heq_reshape htx hty he he' hn hn' (h.get hin))) k

end Builders

end Sim

end Idealize.ShloMosaic.StableHlo
-- ==== Proof.KI.BridgeDefs.lean ====
/-
  The comparison of the kernel program's value line with the reference's line of host operations is made stretch by
  stretch. Fixed here: the pairing of the two programs' nine arguments, from which every stretch starts, and the cut of
  the reference's line into consecutive stretches by position (operations `i … i+n-1`), so that each stretch of the
  kernel's line is set against the operations of the reference that compute the same values.
-/
import proofs.«409485_j54838142435789_2_alg».proof.Proof.KI.KOps
import proofs.«409485_j54838142435789_2_alg».proof.Proof.RefRun
import proofs.«409485_j54838142435789_2_alg».proof.Proof.LibAgree

noncomputable section

namespace Cert.KernelIdeal.Hand

open Cert.KernelIdeal Cert.KernelIdeal.Gen
open Idealize.ShloMosaic Idealize.ShloMosaic.TcCoe Idealize.SL.Sem

variable {F : FTy → Type} [FloatOps F]

/-- The nine arguments of the two programs, paired in order. -/
abbrev argPairs : List (Ref Cert.KernelIdeal.sig .tc × Ref Cert.ReferenceIdeal.sig .tc) :=
  [(Cert.KernelIdeal.main_arg0, Cert.ReferenceIdeal.main_arg0), (Cert.KernelIdeal.main_arg1, Cert.ReferenceIdeal.main_arg1),
   (Cert.KernelIdeal.main_arg2, Cert.ReferenceIdeal.main_arg2), (Cert.KernelIdeal.main_arg3, Cert.ReferenceIdeal.main_arg3),
   (Cert.KernelIdeal.main_arg4, Cert.ReferenceIdeal.main_arg4), (Cert.KernelIdeal.main_arg5, Cert.ReferenceIdeal.main_arg5),
   (Cert.KernelIdeal.main_arg6, Cert.ReferenceIdeal.main_arg6), (Cert.KernelIdeal.main_arg7, Cert.ReferenceIdeal.main_arg7),
   (Cert.KernelIdeal.main_arg8, Cert.ReferenceIdeal.main_arg8)]

/-- Operations `i … i+n-1` of the reference's line. -/
abbrev rcut (i n : Nat) : List (HloOp Cert.ReferenceIdeal.τ Cert.ReferenceIdeal.sig (Elt F)) :=
  ((Cert.ReferenceIdeal.Value.ops (F := F)).drop i).take n

end Cert.KernelIdeal.Hand

end
-- ==== Proof.KI.BridgeA.lean ====
/-
  The first forty operations of the two programs are the same operations on buffers of the same types: the edge lists
  with one self loop per node appended, the in-degree of every node by a scatter-add of ones, its inverse square root
  where the degree is positive (else zero), and the weight of every edge, the product of the two end nodes' factors.
  Each stretch below steps the two lines in lockstep, one rule per operation; at each step the two functions are the
  same function once the two signatures' tables are unfolded, and the result buffer is new to the list of pairs. At
  the end of a stretch only the pairs a later stretch reads are kept.
-/
import proofs.«409485_j54838142435789_2_alg».proof.Proof.KI.BridgeDefs

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.StableHlo (Sim Agree)

variable {F : FTy → Type} [FloatOps F]

/-- The edge lists with the self loops, the degrees and their inverse square roots: eighteen operations. Kept: the two
    edge lists, the degree test, the inverse roots and the zero scalar the selection reads. -/
theorem sim0 : Sim (τ := Cert.KernelIdeal.τ) (Val := Elt F) argPairs
    (hostOps0 (F := F)) (rcut (F := F) 0 18)
    ((main_v3, Cert.ReferenceIdeal.main_v3) :: (main_v6, Cert.ReferenceIdeal.main_v6) :: (main_v12, Cert.ReferenceIdeal.main_v12) :: (main_v13, Cert.ReferenceIdeal.main_v13) :: (main_cst_2, Cert.ReferenceIdeal.main_cst_2) :: argPairs) := by
  refine Sim.nullary HEq.rfl (by decide) (by decide) ?_
  refine Sim.unary (by decide) rfl rfl HEq.rfl (by decide) (by decide) ?_
  refine Sim.reshape (by decide) rfl rfl (by decide) (by decide) ?_
  refine Sim.binary (by decide) (by decide) rfl rfl rfl HEq.rfl (by decide) (by decide) ?_
  refine Sim.unary (by decide) rfl rfl HEq.rfl (by decide) (by decide) ?_
  refine Sim.reshape (by decide) rfl rfl (by decide) (by decide) ?_
  refine Sim.binary (by decide) (by decide) rfl rfl rfl HEq.rfl (by decide) (by decide) ?_
  refine Sim.nullary HEq.rfl (by decide) (by decide) ?_
  refine Sim.unary (by decide) rfl rfl HEq.rfl (by decide) (by decide) ?_
  refine Sim.nullary HEq.rfl (by decide) (by decide) ?_
  refine Sim.unary (by decide) rfl rfl HEq.rfl (by decide) (by decide) ?_
  refine Sim.unary (by decide) rfl rfl HEq.rfl (by decide) (by decide) ?_
  refine Sim.ternary (by decide) (by decide) (by decide) rfl rfl rfl rfl HEq.rfl (by decide) (by decide) ?_
  refine Sim.nullary HEq.rfl (by decide) (by decide) ?_
  refine Sim.unary (by decide) rfl rfl HEq.rfl (by decide) (by decide) ?_
  refine Sim.binary (by decide) (by decide) rfl rfl rfl HEq.rfl (by decide) (by decide) ?_
  refine Sim.unary (by decide) rfl rfl HEq.rfl (by decide) (by decide) ?_
  refine Sim.nullary HEq.rfl (by decide) (by decide) ?_
  exact Sim.done (by decide)

/-- The selection `degree > 0 ? degree^(-1/2) : 0`, the three operations of the inlined function. Kept: the node
    factors and the edge lists. -/
theorem sim1 : Sim (τ := Cert.KernelIdeal.τ) (Val := Elt F) ((main_v3, Cert.ReferenceIdeal.main_v3) :: (main_v6, Cert.ReferenceIdeal.main_v6) :: (main_v12, Cert.ReferenceIdeal.main_v12) :: (main_v13, Cert.ReferenceIdeal.main_v13) :: (main_cst_2, Cert.ReferenceIdeal.main_cst_2) :: argPairs)
    (hostOps0_1 (F := F)) (rcut (F := F) 18 3)
    ((main_v14, Cert.ReferenceIdeal.main_v14) :: (main_v3, Cert.ReferenceIdeal.main_v3) :: (main_v6, Cert.ReferenceIdeal.main_v6) :: argPairs) := by
  refine Sim.unary (by decide) rfl rfl HEq.rfl (by decide) (by decide) ?_
  refine Sim.unary (by decide) rfl rfl HEq.rfl (by decide) (by decide) ?_
  refine Sim.ternary (by decide) (by decide) (by decide) rfl rfl rfl rfl HEq.rfl (by decide) (by decide) ?_
  exact Sim.done (by decide)

/-- The edge weights: both end nodes' factors gathered (negative indices wrapped) and multiplied, nineteen operations.
    Kept: the weights and the edge lists. -/
theorem sim2 : Sim (τ := Cert.KernelIdeal.τ) (Val := Elt F) ((main_v14, Cert.ReferenceIdeal.main_v14) :: (main_v3, Cert.ReferenceIdeal.main_v3) :: (main_v6, Cert.ReferenceIdeal.main_v6) :: argPairs)
    (hostOps0_2 (F := F)) (rcut (F := F) 21 19)
    ((main_v29, Cert.ReferenceIdeal.main_v29) :: (main_v3, Cert.ReferenceIdeal.main_v3) :: (main_v6, Cert.ReferenceIdeal.main_v6) :: argPairs) := by
  refine Sim.nullary HEq.rfl (by decide) (by decide) ?_
  refine Sim.unary (by decide) rfl rfl HEq.rfl (by decide) (by decide) ?_
  refine Sim.binary (by decide) (by decide) rfl rfl rfl HEq.rfl (by decide) (by decide) ?_
  refine Sim.nullary HEq.rfl (by decide) (by decide) ?_
  refine Sim.unary (by decide) rfl rfl HEq.rfl (by decide) (by decide) ?_
  refine Sim.binary (by decide) (by decide) rfl rfl rfl HEq.rfl (by decide) (by decide) ?_
  refine Sim.ternary (by decide) (by decide) (by decide) rfl rfl rfl rfl HEq.rfl (by decide) (by decide) ?_
  refine Sim.unary (by decide) rfl rfl HEq.rfl (by decide) (by decide) ?_
  refine Sim.binary (by decide) (by decide) rfl rfl rfl HEq.rfl (by decide) (by decide) ?_
  refine Sim.nullary HEq.rfl (by decide) (by decide) ?_
  refine Sim.unary (by decide) rfl rfl HEq.rfl (by decide) (by decide) ?_
  refine Sim.binary (by decide) (by decide) rfl rfl rfl HEq.rfl (by decide) (by decide) ?_
  refine Sim.nullary HEq.rfl (by decide) (by decide) ?_
  refine Sim.unary (by decide) rfl rfl HEq.rfl (by decide) (by decide) ?_
  refine Sim.binary (by decide) (by decide) rfl rfl rfl HEq.rfl (by decide) (by decide) ?_
  refine Sim.ternary (by decide) (by decide) (by decide) rfl rfl rfl rfl HEq.rfl (by decide) (by decide) ?_
  refine Sim.unary (by decide) rfl rfl HEq.rfl (by decide) (by decide) ?_
  refine Sim.binary (by decide) (by decide) rfl rfl rfl HEq.rfl (by decide) (by decide) ?_
  refine Sim.binary (by decide) (by decide) rfl rfl rfl HEq.rfl (by decide) (by decide) ?_
  exact Sim.done (by decide)

end Cert.KernelIdeal.Hand

end
-- ==== Proof.LibAgreeMany.lean ====
import proofs.«409485_j54838142435789_2_alg».proof.Proof.LibAgree

/-!
# One operation against a line of operations

A step of one program may be spelt on the other side as several operations writing intermediate buffers of their own.
The rule here steps ONE operation on the first side against a whole LIST on the second: the list must leave the listed
pairs alone (it writes only buffers no pair names, which is a lockstep of the empty line against it), and what it leaves
at its last result buffer must be what the single operation leaves at its own.

A long line is compared stretch by stretch; its stretches are cut by position (`take` after `drop`), and
`take_append_cut` puts consecutive cuts back together, so that the concatenation of all the cuts is the line.
-/

namespace Idealize.ShloMosaic.StableHlo

variable {τ : Topo} {sig₁ sig₂ : RefSig} {Val : EltTy → Type}

/-- Consecutive cuts of a list put together: its first `i` entries followed by the next `n` are its first `i + n`
    (stated with the sum named, so that it rewrites at literal positions). -/
theorem take_append_cut {α : Type} (l : List α) (i n k : Nat) (h : i + n = k) :
    l.take i ++ (l.drop i).take n = l.take k := by
  subst h
  exact List.take_add.symm

namespace Sim

variable {P : List (Ref sig₁ .tc × Ref sig₂ .tc)}

/-- One operation on the first side, a list of operations on the second. The list keeps the listed pairs (`hP`: the
    empty line against it, by `skipR` at each of its operations), the single operation writes a buffer no pair names,
    and the two results are the same whenever the valuations agree on the pairs: afterwards the valuations agree on the
    pairs and on the pair of result buffers. -/
theorem oneMany {op : HloOp τ sig₁ Val} {l' : List (HloOp τ sig₂ Val)} {y : Ref sig₁ .tc} {y' : Ref sig₂ .tc}
    (hw : op.writes = {Proc.devRef .tc y}) (hfy : y ∉ P.map Prod.fst)
    (hP : Sim P ([] : List (HloOp τ sig₁ Val)) l' P)
    (hres : ∀ (V₁ : Valuation τ sig₁ Val) (V₂ : Valuation τ sig₂ Val), Agree P V₁ V₂ →
      HEq (op.result V₁ (Proc.devRef .tc y)) (after l' V₂ (Proc.devRef .tc y'))) :
    Sim P [op] l' ((y, y') :: P) := fun V₁ V₂ h => by
  rw [after_cons, after_nil]
  exact Agree.cons (hres V₁ V₂ h) ((hP V₁ V₂ h).writeL hw hfy)

end Sim

end Idealize.ShloMosaic.StableHlo
-- ==== Proof.KI.BridgeB.lean ====
/-
  The first layer. Its projection `x · W₁` is one operation on both sides, the same contraction. The message passing
  (the projected rows gathered along the edges, scaled by the edge weights and scatter-added at the target nodes) is
  sixteen operations, the same on both sides; the kernel's line then reshapes the bias for its next region, a buffer the
  reference never has. Bias and rectifier are ONE operation of the kernel's line and SIX of the reference's (the bias
  broadcast twice, the sum, and the inlined rectifier's zero, its broadcast and the maximum): the six compose to the
  very function the one operation applies. The second layer's projection is again one operation on both sides.
-/
import proofs.«409485_j54838142435789_2_alg».proof.Proof.KI.BridgeDefs
import proofs.«409485_j54838142435789_2_alg».proof.Proof.LibAgreeMany
set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.StableHlo (Sim Agree)

variable {F : FTy → Type} [FloatOps F]

/-- The first projection: the same contraction of the node features with the first weight matrix. -/
theorem simLin1 : Sim (τ := Cert.KernelIdeal.τ) (Val := Elt F) ((main_v29, Cert.ReferenceIdeal.main_v29) :: (main_v3, Cert.ReferenceIdeal.main_v3) :: (main_v6, Cert.ReferenceIdeal.main_v6) :: argPairs)
    ([opLin1 (F := F)]) (rcut (F := F) 40 1)
    ((main_v30, Cert.ReferenceIdeal.main_v30) :: (main_v29, Cert.ReferenceIdeal.main_v29) :: (main_v3, Cert.ReferenceIdeal.main_v3) :: (main_v6, Cert.ReferenceIdeal.main_v6) :: argPairs) := by
  refine Sim.binary (by decide) (by decide) rfl rfl rfl HEq.rfl (by decide) (by decide) ?_
  exact Sim.done (by decide)

/-- The first layer's message passing, sixteen operations in lockstep; the kernel's reshape of the bias row has no
    counterpart and writes a buffer no pair names. Kept: the aggregated rows, the weights and the edge lists. -/
theorem sim4 : Sim (τ := Cert.KernelIdeal.τ) (Val := Elt F) ((main_v30, Cert.ReferenceIdeal.main_v30) :: (main_v29, Cert.ReferenceIdeal.main_v29) :: (main_v3, Cert.ReferenceIdeal.main_v3) :: (main_v6, Cert.ReferenceIdeal.main_v6) :: argPairs)
    (hostOps1 (F := F)) (rcut (F := F) 41 16)
    ((main_v43, Cert.ReferenceIdeal.main_v43) :: (main_v29, Cert.ReferenceIdeal.main_v29) :: (main_v3, Cert.ReferenceIdeal.main_v3) :: (main_v6, Cert.ReferenceIdeal.main_v6) :: argPairs) := by
  refine Sim.nullary HEq.rfl (by decide) (by decide) ?_
  refine Sim.unary (by decide) rfl rfl HEq.rfl (by decide) (by decide) ?_
  refine Sim.binary (by decide) (by decide) rfl rfl rfl HEq.rfl (by decide) (by decide) ?_
  refine Sim.nullary HEq.rfl (by decide) (by decide) ?_
  refine Sim.unary (by decide) rfl rfl HEq.rfl (by decide) (by decide) ?_
  refine Sim.binary (by decide) (by decide) rfl rfl rfl HEq.rfl (by decide) (by decide) ?_
  refine Sim.ternary (by decide) (by decide) (by decide) rfl rfl rfl rfl HEq.rfl (by decide) (by decide) ?_
  refine Sim.unary (by decide) rfl rfl HEq.rfl (by decide) (by decide) ?_
  refine Sim.binary (by decide) (by decide) rfl rfl rfl HEq.rfl (by decide) (by decide) ?_
  refine Sim.unary (by decide) rfl rfl HEq.rfl (by decide) (by decide) ?_
  refine Sim.unary (by decide) rfl rfl HEq.rfl (by decide) (by decide) ?_
  refine Sim.binary (by decide) (by decide) rfl rfl rfl HEq.rfl (by decide) (by decide) ?_
  refine Sim.nullary HEq.rfl (by decide) (by decide) ?_
  refine Sim.unary (by decide) rfl rfl HEq.rfl (by decide) (by decide) ?_
  refine Sim.unary (by decide) rfl rfl HEq.rfl (by decide) (by decide) ?_
  refine Sim.ternary (by decide) (by decide) (by decide) rfl rfl rfl rfl HEq.rfl (by decide) (by decide) ?_
  refine Sim.skipL rfl (by decide) ?_
  exact Sim.done (by decide)

/-- What the reference's six operations leave at the rectifier's result: `max (a + b, 0)` of the aggregated rows `a`
    and the bias row `b` broadcast over the rows, read off the fold of the six. -/
theorem simBias1_right (V₂ : Valuation Cert.ReferenceIdeal.τ Cert.ReferenceIdeal.sig (Elt F)) :
    StableHlo.after (rcut (F := F) 57 6) V₂ (Proc.devRef .tc Cert.ReferenceIdeal.main_v47)
      = biasReluF (F := F) (V₂ (Proc.devRef .tc Cert.ReferenceIdeal.main_v43)) (V₂ (Proc.devRef .tc Cert.ReferenceIdeal.main_arg4)) := by
  simp only [rcut, Cert.ReferenceIdeal.Value.ops, List.drop_succ_cons, List.take_succ_cons, List.take_zero, List.drop_zero]
  after_results
  rfl

/-- Bias and rectifier of the first layer: one operation against six. The six write five intermediate buffers and the
    result, none of them listed; the two results are the same function of the aggregated rows and the bias. -/
theorem simBias1 : Sim (τ := Cert.KernelIdeal.τ) (Val := Elt F) ((main_v43, Cert.ReferenceIdeal.main_v43) :: (main_v29, Cert.ReferenceIdeal.main_v29) :: (main_v3, Cert.ReferenceIdeal.main_v3) :: (main_v6, Cert.ReferenceIdeal.main_v6) :: argPairs)
    [opBias1 (F := F)] (rcut (F := F) 57 6)
    ((main_v45, Cert.ReferenceIdeal.main_v47) :: (main_v29, Cert.ReferenceIdeal.main_v29) :: (main_v3, Cert.ReferenceIdeal.main_v3) :: (main_v6, Cert.ReferenceIdeal.main_v6) :: argPairs) := by
  refine Sim.mono (Sim.oneMany (y := main_v45) (y' := Cert.ReferenceIdeal.main_v47) rfl (by decide) ?_ ?_) (by decide)
  · refine Sim.skipR rfl (by decide) ?_
    refine Sim.skipR rfl (by decide) ?_
    refine Sim.skipR rfl (by decide) ?_
    refine Sim.skipR rfl (by decide) ?_
    refine Sim.skipR rfl (by decide) ?_
    refine Sim.skipR rfl (by decide) ?_
    exact Sim.done (List.Subset.refl _)
  · intro V₁ V₂ h
    have e1 : V₁ (Proc.devRef .tc main_v43) = V₂ (Proc.devRef .tc Cert.ReferenceIdeal.main_v43) := eq_of_heq (h.get (by decide))
    have e2 : V₁ (Proc.devRef .tc main_arg4) = V₂ (Proc.devRef .tc Cert.ReferenceIdeal.main_arg4) := eq_of_heq (h.get (by decide))
    rw [simBias1_right, StableHlo.binary_result, e1, e2]

/-- The second projection: the rectified rows times the second weight matrix, the same contraction. -/
theorem simLin2 : Sim (τ := Cert.KernelIdeal.τ) (Val := Elt F) ((main_v45, Cert.ReferenceIdeal.main_v47) :: (main_v29, Cert.ReferenceIdeal.main_v29) :: (main_v3, Cert.ReferenceIdeal.main_v3) :: (main_v6, Cert.ReferenceIdeal.main_v6) :: argPairs)
    ([opLin2 (F := F)]) (rcut (F := F) 63 1)
    ((main_v46, Cert.ReferenceIdeal.main_v48) :: (main_v29, Cert.ReferenceIdeal.main_v29) :: (main_v3, Cert.ReferenceIdeal.main_v3) :: (main_v6, Cert.ReferenceIdeal.main_v6) :: argPairs) := by
  refine Sim.binary (by decide) (by decide) rfl rfl rfl HEq.rfl (by decide) (by decide) ?_
  exact Sim.done (by decide)

end Cert.KernelIdeal.Hand

end
-- ==== Proof.KI.BridgeC.lean ====
/-
  The second layer and the pooling tail. The second layer's message passing and its bias and rectifier go as the first
  layer's. The kernel's line then pads the activations with zero rows and the graph ids with -1 up to a whole number of
  row tiles and reshapes the ids and the head's bias: eight operations with no counterpart, writing buffers only the
  pooling region reads. The pooling region, as ONE operation of the kernel's line, stands against the reference's last
  twenty-eight operations: the scatter-added sums and counts over the graph ids, the count floored at one, the quotient,
  the head's contraction and bias, and the logistic written `1 / (1 + e^{-z})`; the twenty-eight compose to the very
  function the one operation applies to the activations, the graph ids and the head's weights and bias.
-/
import proofs.«409485_j54838142435789_2_alg».proof.Proof.KI.BridgeDefs
import proofs.«409485_j54838142435789_2_alg».proof.Proof.LibAgreeMany
set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.StableHlo (Sim Agree)

variable {F : FTy → Type} [FloatOps F]

/-- The second layer's message passing, sixteen operations in lockstep, and the kernel's reshape of the second bias row
    with no counterpart. After the last scatter-add only the aggregated rows and the arguments are read again. -/
theorem sim6 : Sim (τ := Cert.KernelIdeal.τ) (Val := Elt F) ((main_v46, Cert.ReferenceIdeal.main_v48) :: (main_v29, Cert.ReferenceIdeal.main_v29) :: (main_v3, Cert.ReferenceIdeal.main_v3) :: (main_v6, Cert.ReferenceIdeal.main_v6) :: argPairs)
    (hostOps3 (F := F)) (rcut (F := F) 64 16)
    ((main_v59, Cert.ReferenceIdeal.main_v61) :: argPairs) := by
  refine Sim.nullary HEq.rfl (by decide) (by decide) ?_
  refine Sim.unary (by decide) rfl rfl HEq.rfl (by decide) (by decide) ?_
  refine Sim.binary (by decide) (by decide) rfl rfl rfl HEq.rfl (by decide) (by decide) ?_
  refine Sim.nullary HEq.rfl (by decide) (by decide) ?_
  refine Sim.unary (by decide) rfl rfl HEq.rfl (by decide) (by decide) ?_
  refine Sim.binary (by decide) (by decide) rfl rfl rfl HEq.rfl (by decide) (by decide) ?_
  refine Sim.ternary (by decide) (by decide) (by decide) rfl rfl rfl rfl HEq.rfl (by decide) (by decide) ?_
  refine Sim.unary (by decide) rfl rfl HEq.rfl (by decide) (by decide) ?_
  refine Sim.binary (by decide) (by decide) rfl rfl rfl HEq.rfl (by decide) (by decide) ?_
  refine Sim.unary (by decide) rfl rfl HEq.rfl (by decide) (by decide) ?_
  refine Sim.unary (by decide) rfl rfl HEq.rfl (by decide) (by decide) ?_
  refine Sim.binary (by decide) (by decide) rfl rfl rfl HEq.rfl (by decide) (by decide) ?_
  refine Sim.nullary HEq.rfl (by decide) (by decide) ?_
  refine Sim.unary (by decide) rfl rfl HEq.rfl (by decide) (by decide) ?_
  refine Sim.unary (by decide) rfl rfl HEq.rfl (by decide) (by decide) ?_
  refine Sim.ternary (by decide) (by decide) (by decide) rfl rfl rfl rfl HEq.rfl (by decide) (by decide) ?_
  refine Sim.skipL rfl (by decide) ?_
  exact Sim.done (by decide)

/-- What the reference's six operations leave at the second rectifier's result: `max (a + b, 0)` again. -/
theorem simBias2_right (V₂ : Valuation Cert.ReferenceIdeal.τ Cert.ReferenceIdeal.sig (Elt F)) :
    StableHlo.after (rcut (F := F) 80 6) V₂ (Proc.devRef .tc Cert.ReferenceIdeal.main_v65)
      = biasReluF (F := F) (V₂ (Proc.devRef .tc Cert.ReferenceIdeal.main_v61)) (V₂ (Proc.devRef .tc Cert.ReferenceIdeal.main_arg6)) := by
  simp only [rcut, Cert.ReferenceIdeal.Value.ops, List.drop_succ_cons, List.take_succ_cons, List.take_zero, List.drop_zero]
  after_results
  rfl

/-- Bias and rectifier of the second layer: one operation against six, as in the first layer. -/
theorem simBias2 : Sim (τ := Cert.KernelIdeal.τ) (Val := Elt F) ((main_v59, Cert.ReferenceIdeal.main_v61) :: argPairs)
    [opBias2 (F := F)] (rcut (F := F) 80 6)
    ((main_v61, Cert.ReferenceIdeal.main_v65) :: argPairs) := by
  refine Sim.mono (Sim.oneMany (y := main_v61) (y' := Cert.ReferenceIdeal.main_v65) rfl (by decide) ?_ ?_) (by decide)
  · refine Sim.skipR rfl (by decide) ?_
    refine Sim.skipR rfl (by decide) ?_
    refine Sim.skipR rfl (by decide) ?_
    refine Sim.skipR rfl (by decide) ?_
    refine Sim.skipR rfl (by decide) ?_
    refine Sim.skipR rfl (by decide) ?_
    exact Sim.done (List.Subset.refl _)
  · intro V₁ V₂ h
    have e1 : V₁ (Proc.devRef .tc main_v59) = V₂ (Proc.devRef .tc Cert.ReferenceIdeal.main_v61) := eq_of_heq (h.get (by decide))
    have e2 : V₁ (Proc.devRef .tc main_arg6) = V₂ (Proc.devRef .tc Cert.ReferenceIdeal.main_arg6) := eq_of_heq (h.get (by decide))
    rw [simBias2_right, StableHlo.binary_result, e1, e2]

/-- The integer zero the activations' padding is converted from: no counterpart. -/
theorem simPad0 : Sim (τ := Cert.KernelIdeal.τ) (Val := Elt F) ((main_v61, Cert.ReferenceIdeal.main_v65) :: argPairs)
    (hostOps4 (F := F)) ([] : List (HloOp Cert.ReferenceIdeal.τ Cert.ReferenceIdeal.sig (Elt F)))
    ((main_v61, Cert.ReferenceIdeal.main_v65) :: argPairs) := by
  refine Sim.skipL rfl (by decide) ?_
  exact Sim.done (List.Subset.refl _)

/-- The activations padded with 352 zero rows: no counterpart. -/
theorem simPad1 : Sim (τ := Cert.KernelIdeal.τ) (Val := Elt F) ((main_v61, Cert.ReferenceIdeal.main_v65) :: argPairs)
    (hostOps4_1 (F := F)) ([] : List (HloOp Cert.ReferenceIdeal.τ Cert.ReferenceIdeal.sig (Elt F)))
    ((main_v61, Cert.ReferenceIdeal.main_v65) :: argPairs) := by
  refine Sim.skipL rfl (by decide) ?_
  refine Sim.skipL rfl (by decide) ?_
  exact Sim.done (List.Subset.refl _)

/-- The integer -1 the graph ids are padded with: no counterpart. -/
theorem simPad2 : Sim (τ := Cert.KernelIdeal.τ) (Val := Elt F) ((main_v61, Cert.ReferenceIdeal.main_v65) :: argPairs)
    (hostOps4_2 (F := F)) ([] : List (HloOp Cert.ReferenceIdeal.τ Cert.ReferenceIdeal.sig (Elt F)))
    ((main_v61, Cert.ReferenceIdeal.main_v65) :: argPairs) := by
  refine Sim.skipL rfl (by decide) ?_
  exact Sim.done (List.Subset.refl _)

/-- The graph ids padded with 352 entries -1: no counterpart. -/
theorem simPad3 : Sim (τ := Cert.KernelIdeal.τ) (Val := Elt F) ((main_v61, Cert.ReferenceIdeal.main_v65) :: argPairs)
    (hostOps4_3 (F := F)) ([] : List (HloOp Cert.ReferenceIdeal.τ Cert.ReferenceIdeal.sig (Elt F)))
    ((main_v61, Cert.ReferenceIdeal.main_v65) :: argPairs) := by
  refine Sim.skipL rfl (by decide) ?_
  refine Sim.skipL rfl (by decide) ?_
  exact Sim.done (List.Subset.refl _)

/-- The padded ids as one row and the head's bias as a 1 × 1 matrix: no counterpart. -/
theorem simPad4 : Sim (τ := Cert.KernelIdeal.τ) (Val := Elt F) ((main_v61, Cert.ReferenceIdeal.main_v65) :: argPairs)
    (hostOps4_4 (F := F)) ([] : List (HloOp Cert.ReferenceIdeal.τ Cert.ReferenceIdeal.sig (Elt F)))
    ((main_v61, Cert.ReferenceIdeal.main_v65) :: argPairs) := by
  refine Sim.skipL rfl (by decide) ?_
  refine Sim.skipL rfl (by decide) ?_
  exact Sim.done (List.Subset.refl _)

/-- What the reference's last twenty-eight operations leave at the output: the pooling tail of the activations `h`, the
    graph ids and the head's weights and bias, read off the fold of the twenty-eight. -/
theorem simPool_right (V₂ : Valuation Cert.ReferenceIdeal.τ Cert.ReferenceIdeal.sig (Elt F)) :
    StableHlo.after (rcut (F := F) 86 28) V₂ (Proc.devRef .tc Cert.ReferenceIdeal.main_v87)
      = poolF (F := F) (V₂ (Proc.devRef .tc Cert.ReferenceIdeal.main_v65)) (V₂ (Proc.devRef .tc Cert.ReferenceIdeal.main_arg2))
          (V₂ (Proc.devRef .tc Cert.ReferenceIdeal.main_arg7)) (V₂ (Proc.devRef .tc Cert.ReferenceIdeal.main_arg8)) := by
  simp only [rcut, Cert.ReferenceIdeal.Value.ops, List.drop_succ_cons, List.take_succ_cons, List.take_zero, List.drop_zero]
  after_results_simp
  rfl

/-- The pooling tail: one operation against twenty-eight. The twenty-eight write intermediate buffers and the output,
    none of them listed; the two outputs are the same function of the activations, the graph ids and the head's
    weights and bias. Only the pair of outputs is kept. -/
theorem simPool : Sim (τ := Cert.KernelIdeal.τ) (Val := Elt F) ((main_v61, Cert.ReferenceIdeal.main_v65) :: argPairs)
    [opPool (F := F)] (rcut (F := F) 86 28)
    [(main_v66, Cert.ReferenceIdeal.main_v87)] := by
  refine Sim.mono (Sim.oneMany (y := main_v66) (y' := Cert.ReferenceIdeal.main_v87) rfl (by decide) ?_ ?_) (by decide)
  · refine Sim.skipR rfl (by decide) ?_
    refine Sim.skipR rfl (by decide) ?_
    refine Sim.skipR rfl (by decide) ?_
    refine Sim.skipR rfl (by decide) ?_
    refine Sim.skipR rfl (by decide) ?_
    refine Sim.skipR rfl (by decide) ?_
    refine Sim.skipR rfl (by decide) ?_
    refine Sim.skipR rfl (by decide) ?_
    refine Sim.skipR rfl (by decide) ?_
    refine Sim.skipR rfl (by decide) ?_
    refine Sim.skipR rfl (by decide) ?_
    refine Sim.skipR rfl (by decide) ?_
    refine Sim.skipR rfl (by decide) ?_
    refine Sim.skipR rfl (by decide) ?_
    refine Sim.skipR rfl (by decide) ?_
    refine Sim.skipR rfl (by decide) ?_
    refine Sim.skipR rfl (by decide) ?_
    refine Sim.skipR rfl (by decide) ?_
    refine Sim.skipR rfl (by decide) ?_
    refine Sim.skipR rfl (by decide) ?_
    refine Sim.skipR rfl (by decide) ?_
    refine Sim.skipR rfl (by decide) ?_
    refine Sim.skipR rfl (by decide) ?_
    refine Sim.skipR rfl (by decide) ?_
    refine Sim.skipR rfl (by decide) ?_
    refine Sim.skipR rfl (by decide) ?_
    refine Sim.skipR rfl (by decide) ?_
    refine Sim.skipR rfl (by decide) ?_
    exact Sim.done (List.Subset.refl _)
  · intro V₁ V₂ h
    have e0 : V₁ (Proc.devRef .tc main_v61) = V₂ (Proc.devRef .tc Cert.ReferenceIdeal.main_v65) := eq_of_heq (h.get (by decide))
    have e1 : V₁ (Proc.devRef .tc main_arg2) = V₂ (Proc.devRef .tc Cert.ReferenceIdeal.main_arg2) := eq_of_heq (h.get (by decide))
    have e2 : V₁ (Proc.devRef .tc main_arg7) = V₂ (Proc.devRef .tc Cert.ReferenceIdeal.main_arg7) := eq_of_heq (h.get (by decide))
    have e3 : V₁ (Proc.devRef .tc main_arg8) = V₂ (Proc.devRef .tc Cert.ReferenceIdeal.main_arg8) := eq_of_heq (h.get (by decide))
    rw [simPool_right, StableHlo.nary4_result]
    show HEq (poolF (F := F) (V₁ (Proc.devRef .tc main_v61)) (V₁ (Proc.devRef .tc main_arg2))
      (V₁ (Proc.devRef .tc main_arg7)) (V₁ (Proc.devRef .tc main_arg8))) _
    rw [e0, e1, e2, e3]

end Cert.KernelIdeal.Hand

end
-- ==== Proof.KI.Bridge.lean ====
/-
  The kernel program's value line against the reference's line of host operations, whole. The stretches proved one by
  one are chained in order. On the kernel's side the chain's line is the value line as it is written, stretch after
  stretch. On the reference's side it is the concatenation of the cuts the stretches were set against, and consecutive
  cuts of a list put together are the list: so from the nine arguments paired the two lines leave the same contents at
  the two outputs.
-/
import proofs.«409485_j54838142435789_2_alg».proof.Proof.KI.BridgeA
import proofs.«409485_j54838142435789_2_alg».proof.Proof.KI.BridgeB
import proofs.«409485_j54838142435789_2_alg».proof.Proof.KI.BridgeC

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.StableHlo (Sim Agree)

variable {F : FTy → Type} [FloatOps F]

/-- The reference's line is the concatenation of its cuts, in the grouping the kernel's line is written in: the first
    eighteen operations, the next three, … ; the kernel's padding stretches face no operation of the reference. -/
theorem ops_cut :
    rcut (F := F) 0 18 ++ rcut 18 3 ++ rcut 21 19 ++ rcut 40 1 ++ rcut 41 16 ++ (rcut 57 6 ++ rcut 63 1) ++ rcut 64 16
        ++ rcut 80 6 ++ [] ++ [] ++ [] ++ [] ++ [] ++ rcut 86 28
      = Cert.ReferenceIdeal.Value.ops (F := F) := by
  simp only [rcut, List.append_nil, List.drop_zero, ← List.append_assoc]
  rw [StableHlo.take_append_cut _ 18 3 21 rfl, StableHlo.take_append_cut _ 21 19 40 rfl, StableHlo.take_append_cut _ 40 1 41 rfl,
    StableHlo.take_append_cut _ 41 16 57 rfl, StableHlo.take_append_cut _ 57 6 63 rfl, StableHlo.take_append_cut _ 63 1 64 rfl,
    StableHlo.take_append_cut _ 64 16 80 rfl, StableHlo.take_append_cut _ 80 6 86 rfl, StableHlo.take_append_cut _ 86 28 114 rfl]
  exact List.take_of_length_le (Nat.le_of_eq rfl)

/-- Bias and rectifier of the first layer followed by the second projection, as the kernel's line lists the two. -/
theorem sim5 : Sim (τ := Cert.KernelIdeal.τ) (Val := Elt F) ((main_v43, Cert.ReferenceIdeal.main_v43) :: (main_v29, Cert.ReferenceIdeal.main_v29) :: (main_v3, Cert.ReferenceIdeal.main_v3) :: (main_v6, Cert.ReferenceIdeal.main_v6) :: argPairs)
    [opBias1 (F := F), opLin2 (F := F)] (rcut (F := F) 57 6 ++ rcut (F := F) 63 1)
    ((main_v46, Cert.ReferenceIdeal.main_v48) :: (main_v29, Cert.ReferenceIdeal.main_v29) :: (main_v3, Cert.ReferenceIdeal.main_v3) :: (main_v6, Cert.ReferenceIdeal.main_v6) :: argPairs) :=
  simBias1.append simLin2

/-- The two lines, whole: from the nine arguments paired, the kernel program's value line and the reference's line of
    host operations leave the same contents at their outputs. The stretches are chained in order; the chain's second
    line is the concatenation of the reference's cuts, which is the reference's line. -/
theorem sim_main : Sim (τ := Cert.KernelIdeal.τ) (Val := Elt F) argPairs (kops (F := F))
    (Cert.ReferenceIdeal.Value.ops (F := F)) [(Cert.KernelIdeal.main_v66, Cert.ReferenceIdeal.main_v87)] := by
  have h1 := (sim0 (F := F)).append sim1
  have h2 := h1.append sim2
  have h3 := h2.append simLin1
  have h4 := h3.append sim4
  have h5 := h4.append sim5
  have h6 := h5.append sim6
  have h7 := h6.append simBias2
  have h8 := h7.append simPad0
  have h9 := h8.append simPad1
  have h10 := h9.append simPad2
  have h11 := h10.append simPad3
  have h12 := h11.append simPad4
  have h13 := h12.append simPool
  rw [ops_cut] at h13
  exact h13

end Cert.KernelIdeal.Hand

end
-- ==== Proof.Algebraic.lean ====
/-
  The two idealized programs compute one function. The kernel program's run ends with its result array at the pooling
  pipeline's output, which is the straight line `kops` folded over the launch contents; the reference's run ends with its
  result at its own line `ops` folded over its launch contents; the two lines, stepped in lockstep from launch contents
  that agree on the nine arguments, leave the same contents in the two result arrays. No property of the inputs is used:
  every step is an identity of sums, products and maxima on the extended reals.
-/
import proofs.«409485_j54838142435789_2_alg».proof.Defs
import proofs.«409485_j54838142435789_2_alg».proof.Proof.KI.ValueChain
import proofs.«409485_j54838142435789_2_alg».proof.Proof.KI.RunV
import proofs.«409485_j54838142435789_2_alg».proof.Proof.KI.Bridge
import proofs.«409485_j54838142435789_2_alg».proof.Proof.RefRun
import proofs.«409485_j54838142435789_2_alg».proof.Proof.Gen.KernelIdeal
import proofs.«409485_j54838142435789_2_alg».proof.Proof.Gen.ReferenceIdeal
import proofs.«409485_j54838142435789_2_alg».proof.Proof.Gen.Pre_finite_inputs

noncomputable section

namespace Cert.Proof.Alg

open Idealize.ShloMosaic Idealize.ShloMosaic.TcCoe Idealize.ShloMosaic.StableHlo Idealize.SL.Sem
open Cert.KernelIdeal.Hand

/-- The idealized kernel program's run: the result array ends at the pooling pipeline's output, the arguments as launched. -/
theorem run_value (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
      r.2.mem ((c.tc : Thread Cert.KernelIdeal.nD Cert.KernelIdeal.τ).loc Cert.KernelIdeal.main_v66) = o66 (d4f m) c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)) :=
  run_value_of m (d4f m) ρ (reg4 m) (fun _ => .rfl) (fun _ => .rfl)

set_option maxRecDepth 8192 in
set_option maxHeartbeats 45600000 in
/-- The reference's result, stated by its run as one composed term of the arguments, is its line of operations folded
    over the launch contents, read at the result array. -/
theorem ref_result {F : FTy → Type} [FloatOps F]
    (m : (ℓ : Loc Cert.ReferenceIdeal.nD Cert.ReferenceIdeal.τ Cert.ReferenceIdeal.sig) → Buf (Elt F) ℓ) (c : Dev Cert.ReferenceIdeal.nD) :
    after (Cert.ReferenceIdeal.Value.ops (F := F)) (launchContents m c) (Proc.devRef .tc Cert.ReferenceIdeal.main_v87)
      = Cert.ReferenceIdeal.Value.res_main_v87 m c := by
  after_results_simp <;> rfl <;> (unfold Cert.ReferenceIdeal.Value.res_main_v87; rfl)

/-- Launch memories that agree on the nine argument arrays give launch contents that agree on the nine paired buffers. -/
theorem agree_args (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    Agree (τ := Cert.KernelIdeal.τ) argPairs (Cert.KernelIdeal.Gen.V0 m c) (launchContents m' c) :=
  Agree.cons (heq_of_eq h.1).symm <| Agree.cons (heq_of_eq h.2.1).symm <| Agree.cons (heq_of_eq h.2.2.1).symm <|
  Agree.cons (heq_of_eq h.2.2.2.1).symm <| Agree.cons (heq_of_eq h.2.2.2.2.1).symm <| Agree.cons (heq_of_eq h.2.2.2.2.2.1).symm <|
  Agree.cons (heq_of_eq h.2.2.2.2.2.2.1).symm <| Agree.cons (heq_of_eq h.2.2.2.2.2.2.2.1).symm <|
  Agree.cons (heq_of_eq h.2.2.2.2.2.2.2.2).symm Agree.nil

theorem algebraic : Cert.algebraic_KernelIdeal_ReferenceIdeal := by
  intro m ρ m' ρ' _ hagree
  refine ⟨fun c => o66 (d4f m) c, run_value m ρ, ?_⟩
  refine (θ_run (Cert.ReferenceIdeal.defs (F := Ideal)) _ _).mono (fun r h c => ⟨?_, (h c).2⟩)
    (Cert.ReferenceIdeal.Value.run (F := Ideal) m' ρ')
  have hsim := (sim_main (F := Ideal)).get (agree_args m m' c (hagree c)) (List.mem_singleton.mpr rfl)
  rw [(h c).1, ← ref_result m' c]
  exact eq_of_heq (hsim.symm.trans (heq_of_eq (result_eq m c).symm))

end Cert.Proof.Alg

end
-- ==== Proof.lean ====
/-
  The proof of `Cert.Claim`: the three programs run to their end without a fault and leave their argument arrays as
  launched; the idealized kernel program is the printed one read over the extended reals, the ideal pass having rewritten
  nothing; and the two idealized programs, run from memories that agree on the arguments, end with the same result.

  The kernel program is a two-layer graph convolution, a mean pool over 256 graphs and a logistic head, in five Pallas
  regions among host operations. Each frame is assembled from one segment per region (the projections and the rectified
  sums run whole blocks with nothing carried between points; the pooling carries its running sums and counts in two
  scratch arrays and writes its result once, at the last point) over the host side's conditional frame. The reference
  has no kernel: its frame is its run with the result forgotten. The value claim compares the kernel program's values,
  written as one straight line of host operations with each region as the reference's own function of its operands,
  with the reference's line, in lockstep. The witnesses of the programs' stated facts come first.
-/
import proofs.«409485_j54838142435789_2_alg».proof.Defs
import proofs.«409485_j54838142435789_2_alg».proof.Proof.K.Reg4
import proofs.«409485_j54838142435789_2_alg».proof.Proof.KI.Reg4
import proofs.«409485_j54838142435789_2_alg».proof.Proof.RefFrame
import proofs.«409485_j54838142435789_2_alg».proof.Proof.Algebraic
import proofs.«409485_j54838142435789_2_alg».proof.Proof.Gen.Kernel
import proofs.«409485_j54838142435789_2_alg».proof.Proof.Gen.KernelIdeal
import proofs.«409485_j54838142435789_2_alg».proof.Proof.Gen.ReferenceIdeal
import proofs.«409485_j54838142435789_2_alg».proof.Proof.Gen.Pre_finite_inputs
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame (F := Bits) m ρ
theorem frame_ki : Cert.frame_KernelIdeal := fun m ρ _ => Cert.KernelIdeal.Hand.frame (F := Ideal) m ρ

theorem claim : Cert.Claim :=
  ⟨Cert.Kernel.Gen.facts, Cert.KernelIdeal.Gen.facts, Cert.ReferenceIdeal.Gen.facts, Cert.Pre_finite_inputs.Gen.facts,
    frame_k, frame_ki, RefFrame.frame_ri, trivial, Alg.algebraic⟩

end Cert.Proof

end
